-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x512x1024 : Shape := ⟨4, ![4, 16, 512, 1024]⟩
abbrev S4x512x1024 : Shape := ⟨3, ![4, 512, 1024]⟩
abbrev S_ : Shape := ⟨0, ![]⟩

class Facts : Prop where
  bcast_S_S4x16x512x1024 : S_.BroadcastsInDim S4x16x512x1024 (![] : Fin 0 → Fin S4x16x512x1024.rank)
  reducesTo_S4x16x512x1024_S_d0_1_2_3 : S4x16x512x1024.ReducesTo [0, 1, 2, 3] S_
  h_S_ : 0 < S_.numel
  bcast_S_S4x512x1024 : S_.BroadcastsInDim S4x512x1024 (![] : Fin 0 → Fin S4x512x1024.rank)
  reducesTo_S4x512x1024_S_d0_1_2 : S4x512x1024.ReducesTo [0, 1, 2] S_

variable [Facts]

def fn {F : FTy → Type} [FloatOps F] (main_arg0 : FVec F S4x16x512x1024 .f32) (main_arg1 : IVec S4x512x1024 32) : IVec S_ 1 :=
  let main_v0 : FVec F S4x16x512x1024 .f32 := Host.absf main_arg0
  let main_cst : FVec F S_ .f32 := constant S_ .f32 0x7F800000#32
  let main_v1 : FVec F S4x16x512x1024 .f32 := broadcastInDim S4x16x512x1024 ![] bcast_S_S4x16x512x1024 main_cst
  let main_v2 : IVec S4x16x512x1024 1 := cmpf .olt main_v0 main_v1
  let main_c : IVec S_ 1 := constantI S_ 1 1#1
  let main_v3 : IVec S_ 1 := (fun x v => Host.reduce IntOp.andi x v reducesTo_S4x16x512x1024_S_d0_1_2_3 h_S_) main_v2 main_c
  let main_c_0 : IVec S_ 32 := constantI S_ 32 0#32
  let main_v4 : IVec S4x512x1024 32 := broadcastInDim S4x512x1024 ![] bcast_S_S4x512x1024 main_c_0
  let main_v5 : IVec S4x512x1024 1 := cmpi .sge main_arg1 main_v4
  let main_c_1 : IVec S_ 32 := constantI S_ 32 24#32
  let main_v6 : IVec S4x512x1024 32 := broadcastInDim S4x512x1024 ![] bcast_S_S4x512x1024 main_c_1
  let main_v7 : IVec S4x512x1024 1 := cmpi .slt main_arg1 main_v6
  let main_v8 : IVec S4x512x1024 1 := andi main_v5 main_v7
  let main_c_2 : IVec S_ 1 := constantI S_ 1 1#1
  let main_v9 : IVec S_ 1 := (fun x v => Host.reduce IntOp.andi x v reducesTo_S4x512x1024_S_d0_1_2 h_S_) main_v8 main_c_2
  let main_v10 : IVec S_ 1 := andi main_v3 main_v9
  main_v10
-- ==== Kernel.lean ====
abbrev S4x16x512x1024 : Shape := ⟨4, ![4, 16, 512, 1024]⟩
abbrev S4x512x1024 : Shape := ⟨3, ![4, 512, 1024]⟩
abbrev S4x16x524288 : Shape := ⟨3, ![4, 16, 524288]⟩
abbrev S4x1x524288 : Shape := ⟨3, ![4, 1, 524288]⟩
abbrev S4x16x24 : Shape := ⟨3, ![4, 16, 24]⟩
abbrev S4x1x24 : Shape := ⟨3, ![4, 1, 24]⟩
abbrev S1x16x65536 : Shape := ⟨3, ![1, 16, 65536]⟩
abbrev S1x1x65536 : Shape := ⟨3, ![1, 1, 65536]⟩
abbrev S1x16x24 : Shape := ⟨3, ![1, 16, 24]⟩
abbrev S1x1x24 : Shape := ⟨3, ![1, 1, 24]⟩
abbrev S1x24 : Shape := ⟨2, ![1, 24]⟩
abbrev S1x65536 : Shape := ⟨2, ![1, 65536]⟩
abbrev S1x24x1 : Shape := ⟨3, ![1, 24, 1]⟩
abbrev S1x24x65536 : Shape := ⟨3, ![1, 24, 65536]⟩
abbrev S1x65536x1 : Shape := ⟨3, ![1, 65536, 1]⟩
abbrev S4x24 : Shape := ⟨2, ![4, 24]⟩
abbrev S4x24x16 : Shape := ⟨3, ![4, 24, 16]⟩
abbrev S_ : Shape := ⟨0, ![]⟩
abbrev S4x24x1x16 : Shape := ⟨4, ![4, 24, 1, 16]⟩
abbrev S4x1x24x16 : Shape := ⟨4, ![4, 1, 24, 16]⟩
abbrev S4x24x24x16 : Shape := ⟨4, ![4, 24, 24, 16]⟩
abbrev S4x24x24 : Shape := ⟨3, ![4, 24, 24]⟩
abbrev S24x24 : Shape := ⟨2, ![24, 24]⟩
abbrev S1x24x24 : Shape := ⟨3, ![1, 24, 24]⟩
abbrev S4 : Shape := ⟨1, ![4]⟩

abbrev nBuf : Space → Nat
  | .hbm => 74
  | .vmem => 16
  | .smem => 0
  | _ => 0

abbrev bufTy : (tb : Table) → Fin (tcTables nBuf tb) → BufTy
  | .hbm, ⟨0, _⟩ => ⟨S4x16x512x1024, .f32⟩
  | .hbm, ⟨1, _⟩ => ⟨S4x512x1024, .i32⟩
  | .hbm, ⟨2, _⟩ => ⟨S4x16x524288, .f32⟩
  | .hbm, ⟨3, _⟩ => ⟨S4x1x524288, .i32⟩
  | .hbm, ⟨4, _⟩ => ⟨S4x16x24, .f32⟩
  | .hbm, ⟨5, _⟩ => ⟨S4x1x24, .f32⟩
  | .hbm, ⟨6, _⟩ => ⟨S4x24, .f32⟩
  | .hbm, ⟨7, _⟩ => ⟨S4x1x24, .f32⟩
  | .hbm, ⟨8, _⟩ => ⟨S4x16x24, .f32⟩
  | .hbm, ⟨9, _⟩ => ⟨S4x16x24, .f32⟩
  | .hbm, ⟨10, _⟩ => ⟨S4x24x16, .f32⟩
  | .hbm, ⟨11, _⟩ => ⟨S4x1x24, .f32⟩
  | .hbm, ⟨12, _⟩ => ⟨S4x24, .f32⟩
  | .hbm, ⟨13, _⟩ => ⟨S4x24, .f32⟩
  | .hbm, ⟨14, _⟩ => ⟨S_, .f32⟩
  | .hbm, ⟨15, _⟩ => ⟨S_, .f32⟩
  | .hbm, ⟨16, _⟩ => ⟨S4x24x1x16, .f32⟩
  | .hbm, ⟨17, _⟩ => ⟨S4x1x24x16, .f32⟩
  | .hbm, ⟨18, _⟩ => ⟨S4x24x24x16, .f32⟩
  | .hbm, ⟨19, _⟩ => ⟨S4x24x24x16, .f32⟩
  | .hbm, ⟨20, _⟩ => ⟨S4x24x24x16, .f32⟩
  | .hbm, ⟨21, _⟩ => ⟨S4x24x24x16, .f32⟩
  | .hbm, ⟨22, _⟩ => ⟨S_, .f32⟩
  | .hbm, ⟨23, _⟩ => ⟨S4x24x24, .f32⟩
  | .hbm, ⟨24, _⟩ => ⟨S24x24, .i32⟩
  | .hbm, ⟨25, _⟩ => ⟨S24x24, .i32⟩
  | .hbm, ⟨26, _⟩ => ⟨S_, .i32⟩
  | .hbm, ⟨27, _⟩ => ⟨S24x24, .i32⟩
  | .hbm, ⟨28, _⟩ => ⟨S24x24, .i32⟩
  | .hbm, ⟨29, _⟩ => ⟨S24x24, .i1⟩
  | .hbm, ⟨30, _⟩ => ⟨S1x24x24, .i1⟩
  | .hbm, ⟨31, _⟩ => ⟨S_, .f32⟩
  | .hbm, ⟨32, _⟩ => ⟨S_, .f32⟩
  | .hbm, ⟨33, _⟩ => ⟨S4x24x24, .i1⟩
  | .hbm, ⟨34, _⟩ => ⟨S4x24x24, .f32⟩
  | .hbm, ⟨35, _⟩ => ⟨S4x24x24, .f32⟩
  | .hbm, ⟨36, _⟩ => ⟨S4x24x24, .f32⟩
  | .hbm, ⟨37, _⟩ => ⟨S_, .f32⟩
  | .hbm, ⟨38, _⟩ => ⟨S_, .f32⟩
  | .hbm, ⟨39, _⟩ => ⟨S4x24x24, .i1⟩
  | .hbm, ⟨40, _⟩ => ⟨S4x24x24, .f32⟩
  | .hbm, ⟨41, _⟩ => ⟨S4x24x24, .f32⟩
  | .hbm, ⟨42, _⟩ => ⟨S_, .f32⟩
  | .hbm, ⟨43, _⟩ => ⟨S4x24x24, .f32⟩
  | .hbm, ⟨44, _⟩ => ⟨S4x24x24, .f32⟩
  | .hbm, ⟨45, _⟩ => ⟨S_, .f32⟩
  | .hbm, ⟨46, _⟩ => ⟨S4x24x24, .f32⟩
  | .hbm, ⟨47, _⟩ => ⟨S4x24x24, .f32⟩
  | .hbm, ⟨48, _⟩ => ⟨S4x24x24, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4x24x16, .f32⟩
  | .hbm, ⟨54, _⟩ => ⟨S_, .f32⟩
  | .hbm, ⟨55, _⟩ => ⟨S4x24, .f32⟩
  | .hbm, ⟨56, _⟩ => ⟨S4x24, .f32⟩
  | .hbm, ⟨57, _⟩ => ⟨S_, .f32⟩
  | .hbm, ⟨58, _⟩ => ⟨S4, .f32⟩
  | .hbm, ⟨59, _⟩ => ⟨S_, .f32⟩
  | .hbm, ⟨60, _⟩ => ⟨S4, .f32⟩
  | .hbm, ⟨61, _⟩ => ⟨S4, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .local _ .vmem, ⟨0, _⟩ => ⟨S1x16x65536, .f32⟩
  | .local _ .vmem, ⟨1, _⟩ => ⟨S1x16x65536, .f32⟩
  | .local _ .vmem, ⟨2, _⟩ => ⟨S1x1x65536, .i32⟩
  | .local _ .vmem, ⟨3, _⟩ => ⟨S1x1x65536, .i32⟩
  | .local _ .vmem, ⟨4, _⟩ => ⟨S1x16x24, .f32⟩
  | .local _ .vmem, ⟨5, _⟩ => ⟨S1x16x24, .f32⟩
  | .local _ .vmem, ⟨6, _⟩ => ⟨S1x1x24, .f32⟩
  | .local _ .vmem, ⟨7, _⟩ => ⟨S1x1x24, .f32⟩
  | .local _ .vmem, ⟨8, _⟩ => ⟨S1x16x65536, .f32⟩
  | .local _ .vmem, ⟨9, _⟩ => ⟨S1x16x65536, .f32⟩
  | .local _ .vmem, ⟨10, _⟩ => ⟨S1x1x65536, .i32⟩
  | .local _ .vmem, ⟨11, _⟩ => ⟨S1x1x65536, .i32⟩
  | .local _ .vmem, ⟨12, _⟩ => ⟨S1x16x24, .f32⟩
  | .local _ .vmem, ⟨13, _⟩ => ⟨S1x16x24, .f32⟩
  | .local _ .vmem, ⟨14, _⟩ => ⟨S1x1x24, .f32⟩
  | .local _ .vmem, ⟨15, _⟩ => ⟨S1x1x24, .f32⟩
  | _, _ => ⟨S4x16x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_call2_v0 : Ref sig .tc := ⟨.hbm, 53, rfl⟩
abbrev main_call2_cst : Ref sig .tc := ⟨.hbm, 54, rfl⟩
abbrev main_call2_v1 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_cst_11 : Ref sig .tc := ⟨.hbm, 66, rfl⟩
abbrev main_v41 : Ref sig .tc := ⟨.hbm, 67, rfl⟩
abbrev main_v42 : Ref sig .tc := ⟨.hbm, 68, rfl⟩
abbrev main_cst_12 : Ref sig .tc := ⟨.hbm, 69, rfl⟩
abbrev main_v43 : Ref sig .tc := ⟨.hbm, 70, rfl⟩
abbrev main_v44 : Ref sig .tc := ⟨.hbm, 71, rfl⟩
abbrev main_cst_13 : Ref sig .tc := ⟨.hbm, 72, rfl⟩
abbrev main_v45 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x65536 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x24 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16x65536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x65536 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x16x24 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x24 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S4x16x512x1024_S4x16x524288 : S4x16x512x1024.ShapeCasts S4x16x524288
  shapeCasts_S4x512x1024_S4x1x524288 : S4x512x1024.ShapeCasts S4x1x524288
  inb_S1x16x24_S1x16x24_0_0_0 : ∀ a, (![0, 0, 0] : Fin 3 → Nat) a + S1x16x24.size a ≤ S1x16x24.size a
  h_S1x16x24 : 0 < S1x16x24.numel
  inb_S1x1x24_S1x1x24_0_0_0 : ∀ a, (![0, 0, 0] : Fin 3 → Nat) a + S1x1x24.size a ≤ S1x1x24.size a
  h_S1x1x24 : 0 < S1x1x24.numel
  shapeCasts_S1x1x24_S1x24 : S1x1x24.ShapeCasts S1x24
  shapeCasts_S1x24_S1x1x24 : S1x24.ShapeCasts S1x1x24
  inb_S1x16x65536_S1x16x65536_0_0_0 : ∀ a, (![0, 0, 0] : Fin 3 → Nat) a + S1x16x65536.size a ≤ S1x16x65536.size a
  h_S1x16x65536 : 0 < S1x16x65536.numel
  shapeCasts_S1x16x65536_S1x16x65536 : S1x16x65536.ShapeCasts S1x16x65536
  inb_S1x1x65536_S1x1x65536_0_0_0 : ∀ a, (![0, 0, 0] : Fin 3 → Nat) a + S1x1x65536.size a ≤ S1x1x65536.size a
  h_S1x1x65536 : 0 < S1x1x65536.numel
  shapeCasts_S1x1x65536_S1x65536 : S1x1x65536.ShapeCasts S1x65536
  iota_S1x24x1_d1_w32 : S1x24x1.Iotas .tc 32 [1]
  shapeCasts_S1x65536_S1x1x65536 : S1x65536.ShapeCasts S1x1x65536
  broadcasts_S1x1x65536_S1x24x65536 : S1x1x65536.Broadcasts S1x24x65536
  broadcasts_S1x24x1_S1x24x65536 : S1x24x1.Broadcasts S1x24x65536
  natLt_1_32 : 1 < 32
  bitsLt_bf16_f32 : FTy.bits .bf16 < FTy.bits .f32
  shapeCasts_S1x16x24_S1x16x24 : S1x16x24.ShapeCasts S1x16x24
  shapeCasts_S1x24x1_S1x24 : S1x24x1.ShapeCasts S1x24
  shapeCasts_S4x1x24_S4x24 : S4x1x24.ShapeCasts S4x24
  bcast_S4x24_S4x1x24_0_2 : S4x24.BroadcastsInDim S4x1x24 (![0, 2] : Fin 2 → Fin S4x1x24.rank)
  bcast_S4x1x24_S4x16x24_0_1_2 : S4x1x24.BroadcastsInDim S4x16x24 (![0, 1, 2] : Fin 3 → Fin S4x16x24.rank)
  transposes_S4x16x24_S4x24x16_0_2_1 : S4x16x24.Transposes [0, 2, 1] S4x24x16
  reduces_S1x16x65536_S1x65536 : S1x16x65536.Reduces [1] S1x65536
  shapeCasts_S1x65536_S1x65536x1 : S1x65536.ShapeCasts S1x65536x1
  reducesTo_S4x24_S_d0_1 : S4x24.ReducesTo [0, 1] S_
  h_S_ : 0 < S_.numel
  bcast_S4x24x16_S4x24x1x16_0_1_3 : S4x24x16.BroadcastsInDim S4x24x1x16 (![0, 1, 3] : Fin 3 → Fin S4x24x1x16.rank)
  bcast_S4x24x16_S4x1x24x16_0_2_3 : S4x24x16.BroadcastsInDim S4x1x24x16 (![0, 2, 3] : Fin 3 → Fin S4x1x24x16.rank)
  bcast_S4x24x1x16_S4x24x24x16_0_1_2_3 : S4x24x1x16.BroadcastsInDim S4x24x24x16 (![0, 1, 2, 3] : Fin 4 → Fin S4x24x24x16.rank)
  bcast_S4x1x24x16_S4x24x24x16_0_1_2_3 : S4x1x24x16.BroadcastsInDim S4x24x24x16 (![0, 1, 2, 3] : Fin 4 → Fin S4x24x24x16.rank)
  reducesTo_S4x24x24x16_S4x24x24_d3 : S4x24x24x16.ReducesTo [3] S4x24x24
  bcast_S_S24x24 : S_.BroadcastsInDim S24x24 (![] : Fin 0 → Fin S24x24.rank)
  bcast_S24x24_S1x24x24_1_2 : S24x24.BroadcastsInDim S1x24x24 (![1, 2] : Fin 2 → Fin S1x24x24.rank)
  bcast_S1x24x24_S4x24x24_0_1_2 : S1x24x24.BroadcastsInDim S4x24x24 (![0, 1, 2] : Fin 3 → Fin S4x24x24.rank)
  bcast_S_S4x24x24 : S_.BroadcastsInDim S4x24x24 (![] : Fin 0 → Fin S4x24x24.rank)
  reducesTo_S4x24x24_S_d0_1_2 : S4x24x24.ReducesTo [0, 1, 2] S_
  reducesTo_S4x24x16_S4x24_d2 : S4x24x16.ReducesTo [2] S4x24
  reducesTo_S4x24_S4_d1 : S4x24.ReducesTo [1] S4
  bcast_S_S4 : S_.BroadcastsInDim S4 (![] : Fin 0 → Fin S4.rank)
  reducesTo_S4_S_d0 : S4.ReducesTo [0] S_
  dot_S1x16x65536_S1x24x65536_S1x16x24_2_2_1_1_0_0_wf : DotDims.WF S1x16x65536 S1x24x65536 S1x16x24 [2] [2] [1] [1] [0] [0]
  dot_S1x24x65536_S1x65536x1_S1x24x1_2_1_1_2_0_0_wf : DotDims.WF S1x24x65536 S1x65536x1 S1x24x1 [2] [1] [1] [2] [0] [0]
  dot_S1x16x24_S1x24x65536_S1x16x65536_2_1_1_2_0_0_wf : DotDims.WF S1x16x24 S1x24x65536 S1x16x65536 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x65536.size a ≤ S4x16x524288.size a
  hwx0_0 : ∀ i : grid0.Coords, EltTy.bits .f32 = 32 ∨ (Rect.block (s := S4x16x524288) S1x16x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x65536.size a ≤ S4x1x524288.size a
  hwx0_1 : ∀ i : grid0.Coords, EltTy.bits .i32 = 32 ∨ (Rect.block (s := S4x1x524288) S1x1x65536.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x24.size a ≤ S4x16x24.size a
  hwx0_2 : ∀ i : grid0.Coords, EltTy.bits .f32 = 32 ∨ (Rect.block (s := S4x16x24) S1x16x24.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x24.size a ≤ S4x1x24.size a
  hwx0_3 : ∀ i : grid0.Coords, EltTy.bits .f32 = 32 ∨ (Rect.block (s := S4x1x24) S1x1x24.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x65536.size a ≤ S4x16x524288.size a
  hwx1_0 : ∀ i : grid1.Coords, EltTy.bits .f32 = 32 ∨ (Rect.block (s := S4x16x524288) S1x16x65536.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x65536.size a ≤ S4x1x524288.size a
  hwx1_1 : ∀ i : grid1.Coords, EltTy.bits .i32 = 32 ∨ (Rect.block (s := S4x1x524288) S1x1x65536.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x24.size a ≤ S4x16x24.size a
  hwx1_2 : ∀ i : grid1.Coords, EltTy.bits .f32 = 32 ∨ (Rect.block (s := S4x16x24) S1x16x24.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x24.size a ≤ S4x1x24.size a
  hwx1_3 : ∀ i : grid1.Coords, EltTy.bits .f32 = 32 ∨ (Rect.block (s := S4x1x24) S1x1x24.size (cc1_transform_3 i) (hinb1_3 i)).WholeWords (EltTy.packing .f32)

variable [Facts₀]

def dot_S1x16x65536_S1x24x65536_S1x16x24_2_2_1_1_0_0 : DotDims S1x16x65536 S1x24x65536 S1x16x24 where
  lhsContracting := [2]
  rhsContracting := [2]
  lhsNonContracting := [1]
  rhsNonContracting := [1]
  lhsBatch := [0]
  rhsBatch := [0]
  wf := dot_S1x16x65536_S1x24x65536_S1x16x24_2_2_1_1_0_0_wf
def dot_S1x24x65536_S1x65536x1_S1x24x1_2_1_1_2_0_0 : DotDims S1x24x65536 S1x65536x1 S1x24x1 where
  lhsContracting := [2]
  rhsContracting := [1]
  lhsNonContracting := [1]
  rhsNonContracting := [2]
  lhsBatch := [0]
  rhsBatch := [0]
  wf := dot_S1x24x65536_S1x65536x1_S1x24x1_2_1_1_2_0_0_wf
def dot_S1x16x24_S1x24x65536_S1x16x65536_2_1_1_2_0_0 : DotDims S1x16x24 S1x24x65536 S1x16x65536 where
  lhsContracting := [2]
  rhsContracting := [1]
  lhsNonContracting := [1]
  rhsNonContracting := [2]
  lhsBatch := [0]
  rhsBatch := [0]
  wf := dot_S1x16x24_S1x24x65536_S1x16x65536_2_1_1_2_0_0_wf

abbrev win0_0 : Pipeline.Window sig grid0 :=
  Pipeline.Window.ofSpec (Memref.whole main_v0) S1x16x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x16x24.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x24.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1x16x65536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1x65536.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x16x24.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1x24.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x16x512x1024 : Shape := ⟨4, ![4, 16, 512, 1024]⟩
abbrev S4x512x1024 : Shape := ⟨3, ![4, 512, 1024]⟩
abbrev S4x16x524288 : Shape := ⟨3, ![4, 16, 524288]⟩
abbrev S4x524288x16 : Shape := ⟨3, ![4, 524288, 16]⟩
abbrev S2097152x16 : Shape := ⟨2, ![2097152, 16]⟩
abbrev S4x524288 : Shape := ⟨2, ![4, 524288]⟩
abbrev S4 : Shape := ⟨1, ![4]⟩
abbrev S4x1 : Shape := ⟨2, ![4, 1]⟩
abbrev S_ : Shape := ⟨0, ![]⟩
abbrev S2097152 : Shape := ⟨1, ![2097152]⟩
abbrev S96x16 : Shape := ⟨2, ![96, 16]⟩
abbrev S2097152x1 : Shape := ⟨2, ![2097152, 1]⟩
abbrev S96 : Shape := ⟨1, ![96]⟩
abbrev S96x1 : Shape := ⟨2, ![96, 1]⟩
abbrev S4x24x16 : Shape := ⟨3, ![4, 24, 16]⟩
abbrev S4x24 : Shape := ⟨2, ![4, 24]⟩
abbrev S4x24x1x16 : Shape := ⟨4, ![4, 24, 1, 16]⟩
abbrev S4x1x24x16 : Shape := ⟨4, ![4, 1, 24, 16]⟩
abbrev S4x24x24x16 : Shape := ⟨4, ![4, 24, 24, 16]⟩
abbrev S4x24x24 : Shape := ⟨3, ![4, 24, 24]⟩
abbrev S24x24 : Shape := ⟨2, ![24, 24]⟩
abbrev S1x24x24 : Shape := ⟨3, ![1, 24, 24]⟩

abbrev nBuf : Space → Nat
  | .hbm => 116
  | .vmem => 0
  | .smem => 0
  | _ => 0

abbrev bufTy : (tb : Table) → Fin (tcTables nBuf tb) → BufTy
  | .hbm, ⟨0, _⟩ => ⟨S4x16x512x1024, .f32⟩
  | .hbm, ⟨1, _⟩ => ⟨S4x512x1024, .i32⟩
  | .hbm, ⟨2, _⟩ => ⟨S4x16x524288, .f32⟩
  | .hbm, ⟨3, _⟩ => ⟨S4x524288x16, .f32⟩
  | .hbm, ⟨4, _⟩ => ⟨S2097152x16, .f32⟩
  | .hbm, ⟨5, _⟩ => ⟨S4x524288, .i32⟩
  | .hbm, ⟨6, _⟩ => ⟨S4, .i32⟩
  | .hbm, ⟨7, _⟩ => ⟨S4x1, .i32⟩
  | .hbm, ⟨8, _⟩ => ⟨S_, .i32⟩
  | .hbm, ⟨9, _⟩ => ⟨S4x1, .i32⟩
  | .hbm, ⟨10, _⟩ => ⟨S4x1, .i32⟩
  | .hbm, ⟨11, _⟩ => ⟨S4x524288, .i32⟩
  | .hbm, ⟨12, _⟩ => ⟨S4x524288, .i32⟩
  | .hbm, ⟨13, _⟩ => ⟨S2097152, .i32⟩
  | .hbm, ⟨14, _⟩ => ⟨S_, .f32⟩
  | .hbm, ⟨15, _⟩ => ⟨S96x16, .f32⟩
  | .hbm, ⟨16, _⟩ => ⟨S2097152x1, .i32⟩
  | .hbm, ⟨17, _⟩ => ⟨S96x16, .f32⟩
  | .hbm, ⟨18, _⟩ => ⟨S_, .f32⟩
  | .hbm, ⟨19, _⟩ => ⟨S2097152, .f32⟩
  | .hbm, ⟨20, _⟩ => ⟨S_, .f32⟩
  | .hbm, ⟨21, _⟩ => ⟨S96, .f32⟩
  | .hbm, ⟨22, _⟩ => ⟨S2097152x1, .i32⟩
  | .hbm, ⟨23, _⟩ => ⟨S96, .f32⟩
  | .hbm, ⟨24, _⟩ => ⟨S96x1, .f32⟩
  | .hbm, ⟨25, _⟩ => ⟨S96x16, .f32⟩
  | .hbm, ⟨26, _⟩ => ⟨S96x16, .f32⟩
  | .hbm, ⟨27, _⟩ => ⟨S4x24x16, .f32⟩
  | .hbm, ⟨28, _⟩ => ⟨S4x24, .f32⟩
  | .hbm, ⟨29, _⟩ => ⟨S_, .i32⟩
  | .hbm, ⟨30, _⟩ => ⟨S2097152, .i32⟩
  | .hbm, ⟨31, _⟩ => ⟨S2097152, .i1⟩
  | .hbm, ⟨32, _⟩ => ⟨S_, .i32⟩
  | .hbm, ⟨33, _⟩ => ⟨S2097152, .i32⟩
  | .hbm, ⟨34, _⟩ => ⟨S2097152, .i32⟩
  | .hbm, ⟨35, _⟩ => ⟨S2097152, .i32⟩
  | .hbm, ⟨36, _⟩ => ⟨S2097152x1, .i32⟩
  | .hbm, ⟨37, _⟩ => ⟨S2097152x16, .f32⟩
  | .hbm, ⟨38, _⟩ => ⟨S2097152x16, .f32⟩
  | .hbm, ⟨39, _⟩ => ⟨S2097152x16, .f32⟩
  | .hbm, ⟨40, _⟩ => ⟨S_, .f32⟩
  | .hbm, ⟨41, _⟩ => ⟨S2097152, .f32⟩
  | .hbm, ⟨42, _⟩ => ⟨S2097152, .f32⟩
  | .hbm, ⟨43, _⟩ => ⟨S_, .f32⟩
  | .hbm, ⟨44, _⟩ => ⟨S2097152, .f32⟩
  | .hbm, ⟨45, _⟩ => ⟨S2097152, .f32⟩
  | .hbm, ⟨46, _⟩ => ⟨S_, .f32⟩
  | .hbm, ⟨47, _⟩ => ⟨S2097152, .f32⟩
  | .hbm, ⟨48, _⟩ => ⟨S2097152, .f32⟩
  | .hbm, ⟨49, _⟩ => ⟨S2097152, .f32⟩
  | .hbm, ⟨50, _⟩ => ⟨S_, .f32⟩
  | .hbm, ⟨51, _⟩ => ⟨S96, .f32⟩
  | .hbm, ⟨52, _⟩ => ⟨S2097152x1, .i32⟩
  | .hbm, ⟨53, _⟩ => ⟨S96, .f32⟩
  | .hbm, ⟨54, _⟩ => ⟨S4x24, .f32⟩
  | .hbm, ⟨55, _⟩ => ⟨S4x24, .f32⟩
  | .hbm, ⟨56, _⟩ => ⟨S_, .f32⟩
  | .hbm, ⟨57, _⟩ => ⟨S_, .f32⟩
  | .hbm, ⟨58, _⟩ => ⟨S4x24x1x16, .f32⟩
  | .hbm, ⟨59, _⟩ => ⟨S4x1x24x16, .f32⟩
  | .hbm, ⟨60, _⟩ => ⟨S4x24x24x16, .f32⟩
  | .hbm, ⟨61, _⟩ => ⟨S4x24x24x16, .f32⟩
  | .hbm, ⟨62, _⟩ => ⟨S4x24x24x16, .f32⟩
  | .hbm, ⟨63, _⟩ => ⟨S4x24x24x16, .f32⟩
  | .hbm, ⟨64, _⟩ => ⟨S_, .f32⟩
  | .hbm, ⟨65, _⟩ => ⟨S4x24x24, .f32⟩
  | .hbm, ⟨66, _⟩ => ⟨S24x24, .i32⟩
  | .hbm, ⟨67, _⟩ => ⟨S24x24, .i32⟩
  | .hbm, ⟨68, _⟩ => ⟨S_, .i32⟩
  | .hbm, ⟨69, _⟩ => ⟨S24x24, .i32⟩
  | .hbm, ⟨70, _⟩ => ⟨S24x24, .i32⟩
  | .hbm, ⟨71, _⟩ => ⟨S24x24, .i1⟩
  | .hbm, ⟨72, _⟩ => ⟨S1x24x24, .i1⟩
  | .hbm, ⟨73, _⟩ => ⟨S_, .f32⟩
  | .hbm, ⟨74, _⟩ => ⟨S_, .f32⟩
  | .hbm, ⟨75, _⟩ => ⟨S4x24x24, .i1⟩
  | .hbm, ⟨76, _⟩ => ⟨S4x24x24, .f32⟩
  | .hbm, ⟨77, _⟩ => ⟨S4x24x24, .f32⟩
  | .hbm, ⟨78, _⟩ => ⟨S4x24x24, .f32⟩
  | .hbm, ⟨79, _⟩ => ⟨S_, .f32⟩
  | .hbm, ⟨80, _⟩ => ⟨S_, .f32⟩
  | .hbm, ⟨81, _⟩ => ⟨S4x24x24, .i1⟩
  | .hbm, ⟨82, _⟩ => ⟨S4x24x24, .f32⟩
  | .hbm, ⟨83, _⟩ => ⟨S4x24x24, .f32⟩
  | .hbm, ⟨84, _⟩ => ⟨S_, .f32⟩
  | .hbm, ⟨85, _⟩ => ⟨S4x24x24, .f32⟩
  | .hbm, ⟨86, _⟩ => ⟨S4x24x24, .f32⟩
  | .hbm, ⟨87, _⟩ => ⟨S_, .f32⟩
  | .hbm, ⟨88, _⟩ => ⟨S4x24x24, .f32⟩
  | .hbm, ⟨89, _⟩ => ⟨S4x24x24, .f32⟩
  | .hbm, ⟨90, _⟩ => ⟨S4x24x24, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S4x24x16, .f32⟩
  | .hbm, ⟨96, _⟩ => ⟨S_, .f32⟩
  | .hbm, ⟨97, _⟩ => ⟨S4x24, .f32⟩
  | .hbm, ⟨98, _⟩ => ⟨S4x24, .f32⟩
  | .hbm, ⟨99, _⟩ => ⟨S_, .f32⟩
  | .hbm, ⟨100, _⟩ => ⟨S4, .f32⟩
  | .hbm, ⟨101, _⟩ => ⟨S_, .f32⟩
  | .hbm, ⟨102, _⟩ => ⟨S4, .f32⟩
  | .hbm, ⟨103, _⟩ => ⟨S4, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | _, _ => ⟨S4x16x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_2 : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_call0_v0 : Ref sig .tc := ⟨.hbm, 39, rfl⟩
abbrev main_call0_cst : Ref sig .tc := ⟨.hbm, 40, rfl⟩
abbrev main_call0_v1 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_call3_v0 : Ref sig .tc := ⟨.hbm, 95, rfl⟩
abbrev main_call3_cst : Ref sig .tc := ⟨.hbm, 96, rfl⟩
abbrev main_call3_v1 : Ref sig .tc := ⟨.hbm, 97, rfl⟩
abbrev main_v66 : Ref sig .tc := ⟨.hbm, 98, rfl⟩
abbrev main_cst_16 : Ref sig .tc := ⟨.hbm, 99, rfl⟩
abbrev main_v67 : Ref sig .tc := ⟨.hbm, 100, rfl⟩
abbrev main_cst_17 : Ref sig .tc := ⟨.hbm, 101, rfl⟩
abbrev main_v68 : Ref sig .tc := ⟨.hbm, 102, rfl⟩
abbrev main_v69 : Ref sig .tc := ⟨.hbm, 103, rfl⟩
abbrev main_cst_18 : Ref sig .tc := ⟨.hbm, 104, rfl⟩
abbrev main_v70 : Ref sig .tc := ⟨.hbm, 105, rfl⟩
abbrev main_cst_19 : Ref sig .tc := ⟨.hbm, 106, rfl⟩
abbrev main_v71 : Ref sig .tc := ⟨.hbm, 107, rfl⟩
abbrev main_cst_20 : Ref sig .tc := ⟨.hbm, 108, rfl⟩
abbrev main_v72 : Ref sig .tc := ⟨.hbm, 109, rfl⟩
abbrev main_v73 : Ref sig .tc := ⟨.hbm, 110, rfl⟩
abbrev main_cst_21 : Ref sig .tc := ⟨.hbm, 111, rfl⟩
abbrev main_v74 : Ref sig .tc := ⟨.hbm, 112, rfl⟩
abbrev main_v75 : Ref sig .tc := ⟨.hbm, 113, rfl⟩
abbrev main_cst_22 : Ref sig .tc := ⟨.hbm, 114, rfl⟩
abbrev main_v76 : Ref sig .tc := ⟨.hbm, 115, rfl⟩

abbrev nD : Nat := 1
abbrev τ : Topo := Topo.v7x

variable {F : FTy → Type} [FloatOps F]

class Facts₀ : Prop where
  shapeCasts_S4x16x512x1024_S4x16x524288 : S4x16x512x1024.ShapeCasts S4x16x524288
  transposes_S4x16x524288_S4x524288x16_0_2_1 : S4x16x524288.Transposes [0, 2, 1] S4x524288x16
  shapeCasts_S4x524288x16_S2097152x16 : S4x524288x16.ShapeCasts S2097152x16
  shapeCasts_S4x512x1024_S4x524288 : S4x512x1024.ShapeCasts S4x524288
  bcast_S4_S4x1_0 : S4.BroadcastsInDim S4x1 (![0] : Fin 1 → Fin S4x1.rank)
  bcast_S_S4x1 : S_.BroadcastsInDim S4x1 (![] : Fin 0 → Fin S4x1.rank)
  bcast_S4x1_S4x524288_0_1 : S4x1.BroadcastsInDim S4x524288 (![0, 1] : Fin 2 → Fin S4x524288.rank)
  shapeCasts_S4x524288_S2097152 : S4x524288.ShapeCasts S2097152
  bcast_S_S96x16 : S_.BroadcastsInDim S96x16 (![] : Fin 0 → Fin S96x16.rank)
  bcast_S2097152_S2097152x1_0 : S2097152.BroadcastsInDim S2097152x1 (![0] : Fin 1 → Fin S2097152x1.rank)
  bcast_S_S2097152 : S_.BroadcastsInDim S2097152 (![] : Fin 0 → Fin S2097152.rank)
  bcast_S_S96 : S_.BroadcastsInDim S96 (![] : Fin 0 → Fin S96.rank)
  bcast_S96_S96x1_0 : S96.BroadcastsInDim S96x1 (![0] : Fin 1 → Fin S96x1.rank)
  bcast_S96x1_S96x16_0_1 : S96x1.BroadcastsInDim S96x16 (![0, 1] : Fin 2 → Fin S96x16.rank)
  shapeCasts_S96x16_S4x24x16 : S96x16.ShapeCasts S4x24x16
  shapeCasts_S96_S4x24 : S96.ShapeCasts S4x24
  reducesTo_S2097152x16_S2097152_d1 : S2097152x16.ReducesTo [1] S2097152
  h_S_ : 0 < S_.numel
  reducesTo_S4x24_S_d0_1 : S4x24.ReducesTo [0, 1] S_
  bcast_S4x24x16_S4x24x1x16_0_1_3 : S4x24x16.BroadcastsInDim S4x24x1x16 (![0, 1, 3] : Fin 3 → Fin S4x24x1x16.rank)
  bcast_S4x24x16_S4x1x24x16_0_2_3 : S4x24x16.BroadcastsInDim S4x1x24x16 (![0, 2, 3] : Fin 3 → Fin S4x1x24x16.rank)
  bcast_S4x24x1x16_S4x24x24x16_0_1_2_3 : S4x24x1x16.BroadcastsInDim S4x24x24x16 (![0, 1, 2, 3] : Fin 4 → Fin S4x24x24x16.rank)
  bcast_S4x1x24x16_S4x24x24x16_0_1_2_3 : S4x1x24x16.BroadcastsInDim S4x24x24x16 (![0, 1, 2, 3] : Fin 4 → Fin S4x24x24x16.rank)
  reducesTo_S4x24x24x16_S4x24x24_d3 : S4x24x24x16.ReducesTo [3] S4x24x24
  bcast_S_S24x24 : S_.BroadcastsInDim S24x24 (![] : Fin 0 → Fin S24x24.rank)
  bcast_S24x24_S1x24x24_1_2 : S24x24.BroadcastsInDim S1x24x24 (![1, 2] : Fin 2 → Fin S1x24x24.rank)
  bcast_S1x24x24_S4x24x24_0_1_2 : S1x24x24.BroadcastsInDim S4x24x24 (![0, 1, 2] : Fin 3 → Fin S4x24x24.rank)
  bcast_S_S4x24x24 : S_.BroadcastsInDim S4x24x24 (![] : Fin 0 → Fin S4x24x24.rank)
  reducesTo_S4x24x24_S_d0_1_2 : S4x24x24.ReducesTo [0, 1, 2] S_
  reducesTo_S4x24x16_S4x24_d2 : S4x24x16.ReducesTo [2] S4x24
  reducesTo_S4x24_S4_d1 : S4x24.ReducesTo [1] S4
  bcast_S_S4 : S_.BroadcastsInDim S4 (![] : Fin 0 → Fin S4.rank)
  reducesTo_S4_S_d0 : S4.ReducesTo [0] S_
  scatter_S96x16_S2097152x1_S2097152x16_1_0_0_1_wf : ScatterDims.WF S96x16 S2097152x1 S2097152x16 [1] [0] [0] 1
  scatter_S96_S2097152x1_S2097152_n_0_0_1_wf : ScatterDims.WF S96 S2097152x1 S2097152 [] [0] [0] 1
  gather_S96x16_S2097152x1_S2097152x16_1_0_n_n_0_1_116_wf : GatherDims.WF S96x16 S2097152x1 S2097152x16 [1] [0] [] [0] [] 1 ![1, 16]

variable [Facts₀]

def scatter_S96x16_S2097152x1_S2097152x16_1_0_0_1 : ScatterDims S96x16 S2097152x1 S2097152x16 where
  updateWindowDims := [1]
  insertedWindowDims := [0]
  scatterDimsToOperandDims := [0]
  indexVectorDim := 1
  wf := scatter_S96x16_S2097152x1_S2097152x16_1_0_0_1_wf
def scatter_S96_S2097152x1_S2097152_n_0_0_1 : ScatterDims S96 S2097152x1 S2097152 where
  updateWindowDims := []
  insertedWindowDims := [0]
  scatterDimsToOperandDims := [0]
  indexVectorDim := 1
  wf := scatter_S96_S2097152x1_S2097152_n_0_0_1_wf
def gather_S96x16_S2097152x1_S2097152x16_1_0_n_n_0_1_116 : GatherDims S96x16 S2097152x1 S2097152x16 where
  offsetDims := [1]
  collapsedSliceDims := [0]
  operandBatchingDims := []
  startIndicesBatchingDims := []
  startIndexMap := [0]
  indexVectorDim := 1
  sliceSizes := ![1, 16]
  wf := gather_S96x16_S2097152x1_S2097152x16_1_0_n_n_0_1_116_wf

class Facts : Prop extends Facts₀ where

variable [Facts]
-- ==== Proof.Spec.lean ====
/-
  The mathematics both programs compute, stated once over the flattened inputs: `X b d n` is coordinate `d` of point
  `n` of image `b` (the two pixel axes merged, `n = 1024·h + w`), `L b n` that point's label word. For each image and
  each of the 24 labels: how many points carry it (`cnt`), the sum of their coordinates (`sm`), the centre
  `sm / cnt` (`ctr`, the quotient the host's division takes, whatever `cnt` is). For each point the centre of its own
  label (`own`: the one-hot contraction of the centres, an `if` per label), its hinged squared distance to it
  (`hinge`: `max (‖x − c‖ − 1) 0` squared) and, per label, the sum of those (`vs`). Everything is a plain sum over
  all points with an `if` on the label, so that a product with a one-hot entry (`mul_hot`, `hot_mul`) and a sum over
  the points that carry a label (`Finset.sum_filter`) both read as it.
-/
import Idealize.ShloMosaic.PureOps.Ideal
import Idealize.ShloMosaic.PureOps.Ideal.Laws
import Idealize.ShloMosaic.Lib.ValueIdx

noncomputable section

open scoped BigOperators

namespace Cert.ClusterLoss

open Idealize.ShloMosaic Idealize.ShloMosaic.ValueIdx

/-- The word of label `k`. -/
abbrev lw (k : Fin 24) : BitVec 32 := BitVec.ofNat 32 k.val

/-- A one-hot entry: `1` where the word is label `k`'s, else `0`. -/
def hot (w : BitVec 32) (k : Fin 24) : EReal := if w = lw k then 1 else 0

theorem mul_hot (x : EReal) (w : BitVec 32) (k : Fin 24) : x * hot w k = if w = lw k then x else 0 := by
  unfold hot; split <;> simp
theorem hot_mul (x : EReal) (w : BitVec 32) (k : Fin 24) : hot w k * x = if w = lw k then x else 0 := by
  unfold hot; split <;> simp

section
variable (X : Fin 4 → Fin 16 → Fin 524288 → EReal) (L : Fin 4 → Fin 524288 → BitVec 32)

/-- How many points of image `b` carry label `k`. -/
def cnt (b : Fin 4) (k : Fin 24) : EReal := ∑ n : Fin 524288, if L b n = lw k then (1 : EReal) else 0

/-- The sum of coordinate `d` over the points of image `b` that carry label `k`. -/
def sm (b : Fin 4) (d : Fin 16) (k : Fin 24) : EReal := ∑ n : Fin 524288, if L b n = lw k then X b d n else 0

/-- The centre of cluster `k` of image `b`, coordinate `d`. -/
def ctr (b : Fin 4) (d : Fin 16) (k : Fin 24) : EReal := Ideal.div (sm X L b d k) (cnt L b k)

variable (C : Fin 4 → Fin 16 → Fin 24 → EReal)

/-- Coordinate `d` of the centre (among the centres `C`) of the label point `n` carries: `0` for a word that is no label. -/
def own (b : Fin 4) (d : Fin 16) (n : Fin 524288) : EReal := ∑ k : Fin 24, if L b n = lw k then C b d k else 0

/-- The squared distance of point `n` to its own centre. -/
def dist2 (b : Fin 4) (n : Fin 524288) : EReal :=
  ∑ d : Fin 16, (X b d n - own L C b d n) * (X b d n - own L C b d n)

/-- The hinged squared distance: `max (√dist2 − 1) 0`, squared (the two float words as the programs carry them). -/
def hinge (b : Fin 4) (n : Fin 524288) : EReal :=
  max (Ideal.sqrt (dist2 X L C b n) - Ideal.ofBits .f32 0x3F800000#32) (Ideal.ofBits .f32 0x00000000#32)
    * max (Ideal.sqrt (dist2 X L C b n) - Ideal.ofBits .f32 0x3F800000#32) (Ideal.ofBits .f32 0x00000000#32)

/-- The sum of the hinged squared distances over the points of image `b` that carry label `k`. -/
def vs (b : Fin 4) (k : Fin 24) : EReal := ∑ n : Fin 524288, if L b n = lw k then hinge X L C b n else 0

end

/-! ## The three arrays the common tail of both programs starts from -/

/-- The centres as a [4, 24, 16] array. -/
def ctrArr (X : Fin 4 → Fin 16 → Fin 524288 → EReal) (L : Fin 4 → Fin 524288 → BitVec 32) :
    (⟨3, ![4, 24, 16]⟩ : Shape).Idx → EReal := fun i => ctr X L (i 0) (i 2) (i 1)
/-- The counts as a [4, 24] array. -/
def cntArr (L : Fin 4 → Fin 524288 → BitVec 32) : (⟨2, ![4, 24]⟩ : Shape).Idx → EReal := fun i => cnt L (i 0) (i 1)
/-- The per-cluster hinge sums, against the clusters' own centres, as a [4, 24] array. -/
def vsArr (X : Fin 4 → Fin 16 → Fin 524288 → EReal) (L : Fin 4 → Fin 524288 → BitVec 32) :
    (⟨2, ![4, 24]⟩ : Shape).Idx → EReal := fun i => vs X L (ctr X L) (i 0) (i 1)

/-! ## The arguments, flattened -/

theorem pix_h (n : Fin 524288) : n.val / 1024 < 512 := by have := n.isLt; omega
theorem pix_w (n : Fin 524288) : n.val % 1024 < 1024 := Nat.mod_lt _ (by decide)

/-- The data array with its two pixel axes merged. -/
def dataAt (x : (⟨4, ![4, 16, 512, 1024]⟩ : Shape).Idx → EReal) : Fin 4 → Fin 16 → Fin 524288 → EReal :=
  fun b d n => x (ix4 b d ⟨n.val / 1024, pix_h n⟩ ⟨n.val % 1024, pix_w n⟩)
/-- The label array with its two pixel axes merged. -/
def labAt (l : (⟨3, ![4, 512, 1024]⟩ : Shape).Idx → BitVec 32) : Fin 4 → Fin 524288 → BitVec 32 :=
  fun b n => l (ix3 b ⟨n.val / 1024, pix_h n⟩ ⟨n.val % 1024, pix_w n⟩)

/-- Every label word is one of the 24 labels. -/
def InRange (l : (⟨3, ![4, 512, 1024]⟩ : Shape).Idx → BitVec 32) : Prop := ∀ i, (l i).toNat < 24

theorem labAt_lt {l : (⟨3, ![4, 512, 1024]⟩ : Shape).Idx → BitVec 32} (h : InRange l) (b : Fin 4) (n : Fin 524288) :
    (labAt l b n).toNat < 24 := h _

end Cert.ClusterLoss

end
-- ==== Proof.Tail.lean ====
/-
  The part of the loss both programs compute the same way, as ONE function of three small arrays: the centres
  `C` [4, 24, 16], the per-cluster hinge sums `Vs` [4, 24] and the counts `Cn` [4, 24]. The variance term is the sum
  over images and clusters of `Vs / Cn`; the distance term hinges `2 − ‖c_j − c_k‖` at zero, squares it and sums over
  all ordered pairs of an image's centres (the diagonal, read through the two masks, contributes `2²` per cluster),
  divided by `2·24·23 = 1104`; the regularisation term is the mean norm of an image's centres, summed over images; the
  loss is `(1·var + 1·dist + 1·reg) / 4`. Written operation by operation as the host computes it, with its float
  words, so that each program's own chain of host operations unfolds to it.
-/
import Idealize.ShloMosaic.PureOps.Ideal
import Idealize.ShloMosaic.PureOps

noncomputable section

namespace Cert.ClusterLoss

open Idealize.ShloMosaic

abbrev T_ : Shape := ⟨0, ![]⟩
abbrev T4 : Shape := ⟨1, ![4]⟩
abbrev T4x24 : Shape := ⟨2, ![4, 24]⟩
abbrev T4x24x16 : Shape := ⟨3, ![4, 24, 16]⟩
abbrev T4x24x1x16 : Shape := ⟨4, ![4, 24, 1, 16]⟩
abbrev T4x1x24x16 : Shape := ⟨4, ![4, 1, 24, 16]⟩
abbrev T4x24x24x16 : Shape := ⟨4, ![4, 24, 24, 16]⟩
abbrev T4x24x24 : Shape := ⟨3, ![4, 24, 24]⟩
abbrev T24x24 : Shape := ⟨2, ![24, 24]⟩
abbrev T1x24x24 : Shape := ⟨3, ![1, 24, 24]⟩

theorem t_pos : 0 < T_.numel := by decide
theorem red_4x24 : T4x24.ReducesTo [0, 1] T_ := by decide
theorem bc_a : T4x24x16.BroadcastsInDim T4x24x1x16 (![0, 1, 3] : Fin 3 → Fin T4x24x1x16.rank) := by decide
theorem bc_b : T4x24x16.BroadcastsInDim T4x1x24x16 (![0, 2, 3] : Fin 3 → Fin T4x1x24x16.rank) := by decide
theorem bc_a' : T4x24x1x16.BroadcastsInDim T4x24x24x16 (![0, 1, 2, 3] : Fin 4 → Fin T4x24x24x16.rank) := by decide
theorem bc_b' : T4x1x24x16.BroadcastsInDim T4x24x24x16 (![0, 1, 2, 3] : Fin 4 → Fin T4x24x24x16.rank) := by decide
theorem red_pairs : T4x24x24x16.ReducesTo [3] T4x24x24 := by decide
theorem bc_s24 : T_.BroadcastsInDim T24x24 (![] : Fin 0 → Fin T24x24.rank) := by decide
theorem bc_eye : T24x24.BroadcastsInDim T1x24x24 (![1, 2] : Fin 2 → Fin T1x24x24.rank) := by decide
theorem bc_eye4 : T1x24x24.BroadcastsInDim T4x24x24 (![0, 1, 2] : Fin 3 → Fin T4x24x24.rank) := by decide
theorem bc_s444 : T_.BroadcastsInDim T4x24x24 (![] : Fin 0 → Fin T4x24x24.rank) := by decide
theorem red_all : T4x24x24.ReducesTo [0, 1, 2] T_ := by decide
theorem red_d : T4x24x16.ReducesTo [2] T4x24 := by decide
theorem red_k : T4x24.ReducesTo [1] T4 := by decide
theorem bc_s4 : T_.BroadcastsInDim T4 (![] : Fin 0 → Fin T4.rank) := by decide
theorem red_b : T4.ReducesTo [0] T_ := by decide

/-- The loss from the centres, the hinge sums and the counts. -/
def lossOf (C : FVec Ideal T4x24x16 .f32) (Vs Cn : FVec Ideal T4x24 .f32) : FVec Ideal T_ .f32 :=
  -- the variance term
  let vq : FVec Ideal T4x24 .f32 := Host.divf Vs Cn
  let var : FVec Ideal T_ .f32 := Host.reduceAdd vq (constant (F := Ideal) T_ .f32 0x00000000#32) red_4x24 t_pos
  -- the pairwise squared distances of an image's centres
  let ca : FVec Ideal T4x24x24x16 .f32 := broadcastInDim T4x24x24x16 ![0, 1, 2, 3] bc_a' (broadcastInDim T4x24x1x16 ![0, 1, 3] bc_a C)
  let cb : FVec Ideal T4x24x24x16 .f32 := broadcastInDim T4x24x24x16 ![0, 1, 2, 3] bc_b' (broadcastInDim T4x1x24x16 ![0, 2, 3] bc_b C)
  let df : FVec Ideal T4x24x24x16 .f32 := subf ca cb
  let sq : FVec Ideal T4x24x24 .f32 := Host.reduceAdd (mulf df df) (constant (F := Ideal) T_ .f32 0x00000000#32) red_pairs t_pos
  -- the diagonal mask
  let eye : IVec T1x24x24 1 :=
    broadcastInDim T1x24x24 ![1, 2] bc_eye
      (cmpi .eq (addi (iotaInDim T24x24 32 0) (broadcastInDim T24x24 ![] bc_s24 (constantI T_ 32 0#32))) (iotaInDim T24x24 32 1))
  let sq1 : FVec Ideal T4x24x24 .f32 :=
    select (broadcastInDim T4x24x24 ![0, 1, 2] bc_eye4 eye)
      (broadcastInDim T4x24x24 ![] bc_s444 (id (constant (F := Ideal) T_ .f32 0x3F800000#32))) sq
  let rt : FVec Ideal T4x24x24 .f32 := Host.sqrt sq1
  let cd : FVec Ideal T4x24x24 .f32 :=
    select (broadcastInDim T4x24x24 ![0, 1, 2] bc_eye4 eye)
      (broadcastInDim T4x24x24 ![] bc_s444 (id (constant (F := Ideal) T_ .f32 0x00000000#32))) rt
  let hd : FVec Ideal T4x24x24 .f32 :=
    maximumf (subf (broadcastInDim T4x24x24 ![] bc_s444 (constant (F := Ideal) T_ .f32 0x40000000#32)) cd)
      (broadcastInDim T4x24x24 ![] bc_s444 (constant (F := Ideal) T_ .f32 0x00000000#32))
  let dist : FVec Ideal T_ .f32 :=
    Host.divf (Host.reduceAdd (mulf hd hd) (constant (F := Ideal) T_ .f32 0x00000000#32) red_all t_pos)
      (constant (F := Ideal) T_ .f32 0x448A0000#32)
  -- the regularisation term
  let nrm : FVec Ideal T4x24 .f32 :=
    Host.sqrt (Host.reduceAdd (mulf C C) (constant (F := Ideal) T_ .f32 0x00000000#32) red_d t_pos)
  let mean : FVec Ideal T4 .f32 :=
    Host.divf (Host.reduceAdd nrm (constant (F := Ideal) T_ .f32 0x00000000#32) red_k t_pos)
      (broadcastInDim T4 ![] bc_s4 (constant (F := Ideal) T_ .f32 0x41C00000#32))
  let reg : FVec Ideal T_ .f32 := Host.reduceAdd mean (constant (F := Ideal) T_ .f32 0x00000000#32) red_b t_pos
  -- the weighted sum, over the batch size
  Host.divf
    (addf (addf (mulf (constant (F := Ideal) T_ .f32 0x3F800000#32) var) (mulf (constant (F := Ideal) T_ .f32 0x3F800000#32) dist))
      (mulf (constant (F := Ideal) T_ .f32 0x3F800000#32) reg))
    (constant (F := Ideal) T_ .f32 0x40800000#32)

end Cert.ClusterLoss

end
-- ==== Proof.PreRange.lean ====
/-
  The precondition, read: where the printed predicate holds (its one bit is `1`), every label word lies in `[0, 24)`.
  The predicate is the conjunction of two `all`s; the second is over `0 ≤ l ∧ l < 24`, both compares signed.
-/
import proofs.«404660_j6433861009917_3_alg».proof.Pre_finite_inputs
import proofs.«404660_j6433861009917_3_alg».proof.Proof.Gen.Pre_finite_inputs
import proofs.«404660_j6433861009917_3_alg».proof.Proof.Spec
import Idealize.ShloMosaic.Lib.ReduceAll
import Idealize.ShloMosaic.Lib.StableHlo.Predicate

noncomputable section

namespace Cert.PreRange

open Idealize.ShloMosaic Idealize.ShloMosaic.ValueIdx

/-- A word that reads, signed, at least `0` and below `24` has its top bit clear, so its unsigned value is the same
    number: below `24`. -/
theorem toNat_lt_of_signed_range (w : BitVec 32) (h0 : (0#32 : BitVec 32).toInt ≤ w.toInt)
    (h1 : w.toInt < (24#32 : BitVec 32).toInt) : w.toNat < 24 := by
  have e0 : (0#32 : BitVec 32).toInt = 0 := by decide
  have e24 : (24#32 : BitVec 32).toInt = 24 := by decide
  rw [e0] at h0
  rw [e24] at h1
  have hw := w.isLt
  rw [BitVec.toInt_eq_toNat_cond] at h0 h1
  split at h0 <;> omega

theorem inRange_of_pre (x0 : FVec Ideal Cert.Pre_finite_inputs.S4x16x512x1024 .f32) (x1 : IVec Cert.Pre_finite_inputs.S4x512x1024 32)
    (hp : Cert.Pre_finite_inputs.fn (F := Ideal) x0 x1 = fun _ => 1#1) : Cert.ClusterLoss.InRange x1 := by
  intro i
  -- the predicate's one bit
  have h := congrFun hp ValueIdx.ix0
  dsimp only [Cert.Pre_finite_inputs.fn] at h
  -- the outer conjunction: its second half is the `all` over the labels
  obtain ⟨-, hall⟩ := IntOp.andi_eq_one.1 h
  -- the `all`, read at the index `i` (the scalar result has one index)
  haveI : Subsingleton Cert.Pre_finite_inputs.S_.Idx := ⟨fun a b => funext fun d => d.elim0⟩
  have hi := Host.reduce_andi_all _ _ _ _ _ hall i
  -- the inner conjunction: the two signed compares against the constants
  obtain ⟨hge, hlt⟩ := IntOp.andi_eq_one.1 hi
  exact toNat_lt_of_signed_range (x1 i) (IntOp.cmpi_sge.1 hge) (IntOp.cmpi_slt.1 hlt)

end Cert.PreRange

end
-- ==== Proof.LibScatterRows.lean ====
/-
  Three host index operations read at an index, at any extents: a float scatter-add of `N` scalars into `R` bins, a float
  scatter-add of `N` rows of width `C` into the `R` rows of a matrix, and the gather of `N` rows out of such a matrix —
  what `segment_sum` of a vector, `segment_sum` of a matrix and `table[ids]` lower to. In each the start index of
  update (or result) row `n` is the one word `idx[n, 0]`, read signed: the scatter drops a row whose word is not a row
  of the operand, the gather clamps it into `[0, R − 1]`. At the ideal values the scatter-add is the operand plus the
  plain sum, over ALL rows `n`, of the update where the word is the bin and `0` elsewhere.
-/
import Idealize.ShloMosaic.PureOps.Ideal
import Idealize.ShloMosaic.PureOps.Ideal.Laws
import Idealize.ShloMosaic.Lib.ValueIdx

noncomputable section

open scoped BigOperators

namespace Cert.LibScatterRows

open Idealize.ShloMosaic Idealize.ShloMosaic.ValueIdx

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- An axis on a list is not among the axes the list leaves. -/
theorem not_mem_kept {s : Shape} {l : List (Fin s.rank)} {a : Fin s.rank} (h : a ∈ l) : a ∉ s.kept l := by
  intro hk
  have h2 := (List.mem_filter.1 hk).2
  simp only [decide_eq_true_eq] at h2
  exact h2 h

/-- An axis off a list is among the axes the list leaves. -/
theorem mem_kept {s : Shape} {l : List (Fin s.rank)} {a : Fin s.rank} (h : a ∉ l) : a ∈ s.kept l :=
  List.mem_filter.2 ⟨List.mem_finRange a, by simpa using h⟩

/-- The bin scatter's dimension numbers as a literal record. -/
abbrev binsScatter (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

/-- The window start on the one operand axis is update `n`'s word, read signed. -/
theorem binsScatter_start {R N w : Nat} (wf : ScatterDims.WF ⟨1, ![R]⟩ ⟨2, ![N, 1]⟩ ⟨1, ![N]⟩ [] [0] [0] 1)
    (idx : IVec ⟨2, ![N, 1]⟩ w) (j : (⟨1, ![N]⟩ : Shape).Idx) :
    (binsScatter R N wf).start j idx 0 = (idx (ix2 (j 0) (0 : Fin 1))).toInt := by
  unfold ScatterDims.start
  rw [dif_pos (show (0 : Fin 1) ∈ (binsScatter R N wf).scatterDimsToOperandDims from List.mem_singleton.mpr rfl)]
  have hsi : (binsScatter R N wf).siIdx j ⟨List.idxOf (0 : Fin 1) (binsScatter R N wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- There is no window axis: the window coordinate is `0`. -/
theorem binsScatter_window {R N : Nat} (wf : ScatterDims.WF ⟨1, ![R]⟩ ⟨2, ![N, 1]⟩ ⟨1, ![N]⟩ [] [0] [0] 1)
    (j : (⟨1, ![N]⟩ : Shape).Idx) : (binsScatter R N wf).window j 0 = 0 := by
  unfold ScatterDims.window
  rw [dif_neg (not_mem_kept (List.mem_singleton.mpr rfl))]

/-- Update `j` lands on bin `i` exactly when its word, read signed, is `i`'s coordinate. -/
theorem binsScatter_resultIdx_iff {R N w : Nat} (wf : ScatterDims.WF ⟨1, ![R]⟩ ⟨2, ![N, 1]⟩ ⟨1, ![N]⟩ [] [0] [0] 1)
    (idx : IVec ⟨2, ![N, 1]⟩ w) (j : (⟨1, ![N]⟩ : Shape).Idx) (i : (⟨1, ![R]⟩ : Shape).Idx) :
    (binsScatter R N wf).resultIdx? j idx = some i ↔ (idx (ix2 (j 0) (0 : Fin 1))).toInt = ((i 0).val : Int) := by
  have hi : (i 0).val < R := (i 0).isLt
  unfold ScatterDims.resultIdx?
  split
  · rename_i h
    have h0 := h 0
    rw [binsScatter_start, binsScatter_window] at h0
    rw [Option.some.injEq]
    constructor
    · intro hf
      have h1 : ((binsScatter R N wf).start j idx 0 + ((binsScatter R N wf).window j 0 : Int)).toNat = (i 0).val :=
        congrArg (fun f => (f 0).val) hf
      rw [binsScatter_start, binsScatter_window] at h1
      omega
    · intro he
      funext a
      obtain rfl : a = 0 := Subsingleton.elim _ _
      refine Fin.ext ?_
      show ((binsScatter R N wf).start j idx 0 + ((binsScatter R N wf).window j 0 : Int)).toNat = (i 0).val
      rw [binsScatter_start, binsScatter_window]
      omega
  · rename_i h
    constructor
    · intro hf; exact absurd hf (by simp)
    · intro he
      exfalso
      apply h
      intro a
      obtain rfl : a = 0 := Subsingleton.elim _ _
      rw [binsScatter_start, binsScatter_window]
      show _ ∧ _ < (R : Int)
      omega

/-- SCALARS INTO BINS. Operand `[R]`, scatter indices `[N, 1]`, updates `[N]` (no window axis, operand axis 0
    inserted and indexed by the index vector's one component): bin `r` ends at its operand element plus the sum of
    the updates whose word is `r`. -/
theorem scatterAdd_bins {R N w : Nat} (d : ScatterDims ⟨1, ![R]⟩ ⟨2, ![N, 1]⟩ ⟨1, ![N]⟩)
    (hu : d.updateWindowDims = []) (hi : d.insertedWindowDims = [0]) (hs : d.scatterDimsToOperandDims = [0])
    (hv : d.indexVectorDim = 1)
    (x : (⟨1, ![R]⟩ : Shape).Idx → EReal) (idx : IVec ⟨2, ![N, 1]⟩ w) (upd : (⟨1, ![N]⟩ : Shape).Idx → EReal) (r : Fin R) :
    Ideal.hostScatterAdd d x idx upd (ix1 r)
      = x (ix1 r) + ∑ n : Fin N, if (idx (ix2 n (0 : Fin 1))).toInt = (r.val : Int) then upd (ix1 n) else 0 := by
  obtain ⟨uw, iw, sd, iv, wf⟩ := d
  simp only at hu hi hs hv
  subst hu hi hs hv
  unfold Ideal.hostScatterAdd
  congr 1
  rw [Finset.sum_filter]
  refine Fintype.sum_equiv idxEquiv1 _ _ (fun j => ?_)
  exact if_congr (binsScatter_resultIdx_iff wf idx j (ix1 r)) (congrArg upd (eq_ix1 j)) rfl

/-- The row scatter's dimension numbers as a literal record. -/
abbrev rowsScatter (R C N : Nat) (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ where
  updateWindowDims := [1]
  insertedWindowDims := [0]
  scatterDimsToOperandDims := [0]
  indexVectorDim := 1
  wf := wf

/-- On the indexed axis the window start is the update row's word, read signed. -/
theorem rowsScatter_start0 {R C N w : Nat} (wf : ScatterDims.WF ⟨2, ![R, C]⟩ ⟨2, ![N, 1]⟩ ⟨2, ![N, C]⟩ [1] [0] [0] 1)
    (idx : IVec ⟨2, ![N, 1]⟩ w) (j : (⟨2, ![N, C]⟩ : Shape).Idx) :
    (rowsScatter R C N wf).start j idx 0 = (idx (ix2 (j 0) (0 : Fin 1))).toInt := by
  unfold ScatterDims.start
  rw [dif_pos (show (0 : Fin 2) ∈ (rowsScatter R C N wf).scatterDimsToOperandDims from List.mem_singleton.mpr rfl)]
  have hsi : (rowsScatter R C N wf).siIdx j ⟨List.idxOf (0 : Fin 2) (rowsScatter R C N wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the window axis the start is `0`. -/
theorem rowsScatter_start1 {R C N w : Nat} (wf : ScatterDims.WF ⟨2, ![R, C]⟩ ⟨2, ![N, 1]⟩ ⟨2, ![N, C]⟩ [1] [0] [0] 1)
    (idx : IVec ⟨2, ![N, 1]⟩ w) (j : (⟨2, ![N, C]⟩ : Shape).Idx) :
    (rowsScatter R C N wf).start j idx 1 = 0 := by
  unfold ScatterDims.start
  rw [dif_neg (show (1 : Fin 2) ∉ ([0] : List (Fin 2)) from by decide)]

/-- On the indexed (inserted) axis the window coordinate is `0`. -/
theorem rowsScatter_window0 {R C N : Nat} (wf : ScatterDims.WF ⟨2, ![R, C]⟩ ⟨2, ![N, 1]⟩ ⟨2, ![N, C]⟩ [1] [0] [0] 1)
    (j : (⟨2, ![N, C]⟩ : Shape).Idx) : (rowsScatter R C N wf).window j 0 = 0 := by
  unfold ScatterDims.window
  rw [dif_neg (not_mem_kept (List.mem_singleton.mpr rfl))]

/-- On the window axis the window coordinate is the update's column. -/
theorem rowsScatter_window1 {R C N : Nat} (wf : ScatterDims.WF ⟨2, ![R, C]⟩ ⟨2, ![N, 1]⟩ ⟨2, ![N, C]⟩ [1] [0] [0] 1)
    (j : (⟨2, ![N, C]⟩ : Shape).Idx) : (rowsScatter R C N wf).window j 1 = (j 1).val := by
  unfold ScatterDims.window
  rw [dif_pos (mem_kept (show (1 : Fin 2) ∉ ([0] : List (Fin 2)) from by decide))]
  rfl

/-- Update element `j` lands on operand element `i` exactly when its row's word, read signed, is `i`'s row and
    its column is `i`'s column. -/
theorem rowsScatter_resultIdx_iff {R C N w : Nat}
    (wf : ScatterDims.WF ⟨2, ![R, C]⟩ ⟨2, ![N, 1]⟩ ⟨2, ![N, C]⟩ [1] [0] [0] 1)
    (idx : IVec ⟨2, ![N, 1]⟩ w) (j : (⟨2, ![N, C]⟩ : Shape).Idx) (i : (⟨2, ![R, C]⟩ : Shape).Idx) :
    (rowsScatter R C N wf).resultIdx? j idx = some i
      ↔ (idx (ix2 (j 0) (0 : Fin 1))).toInt = ((i 0).val : Int) ∧ (j 1).val = (i 1).val := by
  have hi0 : (i 0).val < R := (i 0).isLt
  have hi1 : (i 1).val < C := (i 1).isLt
  unfold ScatterDims.resultIdx?
  split
  · rename_i h
    have h0 := h 0
    rw [rowsScatter_start0, rowsScatter_window0] at h0
    rw [Option.some.injEq]
    constructor
    · intro hf
      have e0 : ((rowsScatter R C N wf).start j idx 0 + ((rowsScatter R C N wf).window j 0 : Int)).toNat = (i 0).val :=
        congrArg (fun f => (f 0).val) hf
      have e1 : ((rowsScatter R C N wf).start j idx 1 + ((rowsScatter R C N wf).window j 1 : Int)).toNat = (i 1).val :=
        congrArg (fun f => (f 1).val) hf
      rw [rowsScatter_start0, rowsScatter_window0] at e0
      rw [rowsScatter_start1, rowsScatter_window1] at e1
      omega
    · rintro ⟨he0, he1⟩
      funext a
      refine Fin.ext ?_
      match a with
      | ⟨0, _⟩ =>
        show ((rowsScatter R C N wf).start j idx 0 + ((rowsScatter R C N wf).window j 0 : Int)).toNat = (i 0).val
        rw [rowsScatter_start0, rowsScatter_window0]
        omega
      | ⟨1, _⟩ =>
        show ((rowsScatter R C N wf).start j idx 1 + ((rowsScatter R C N wf).window j 1 : Int)).toNat = (i 1).val
        rw [rowsScatter_start1, rowsScatter_window1]
        omega
  · rename_i h
    constructor
    · intro hf; exact absurd hf (by simp)
    · rintro ⟨he0, he1⟩
      exfalso
      apply h
      intro a
      match a with
      | ⟨0, _⟩ =>
        show 0 ≤ (rowsScatter R C N wf).start j idx 0 + ((rowsScatter R C N wf).window j 0 : Int)
          ∧ (rowsScatter R C N wf).start j idx 0 + ((rowsScatter R C N wf).window j 0 : Int) < (R : Int)
        rw [rowsScatter_start0, rowsScatter_window0]
        omega
      | ⟨1, _⟩ =>
        show 0 ≤ (rowsScatter R C N wf).start j idx 1 + ((rowsScatter R C N wf).window j 1 : Int)
          ∧ (rowsScatter R C N wf).start j idx 1 + ((rowsScatter R C N wf).window j 1 : Int) < (C : Int)
        rw [rowsScatter_start1, rowsScatter_window1]
        omega

/-- ROWS INTO ROWS. Operand `[R, C]`, scatter indices `[N, 1]`, updates `[N, C]` (update axis 1 the window, operand
    axis 0 inserted and indexed): element `(r, c)` ends at its operand element plus the sum over the update rows whose
    word is `r` of their column `c`. -/
theorem scatterAdd_rows {R C N w : Nat} (d : ScatterDims ⟨2, ![R, C]⟩ ⟨2, ![N, 1]⟩ ⟨2, ![N, C]⟩)
    (hu : d.updateWindowDims = [1]) (hi : d.insertedWindowDims = [0]) (hs : d.scatterDimsToOperandDims = [0])
    (hv : d.indexVectorDim = 1)
    (x : (⟨2, ![R, C]⟩ : Shape).Idx → EReal) (idx : IVec ⟨2, ![N, 1]⟩ w) (upd : (⟨2, ![N, C]⟩ : Shape).Idx → EReal)
    (r : Fin R) (c : Fin C) :
    Ideal.hostScatterAdd d x idx upd (ix2 r c)
      = x (ix2 r c) + ∑ n : Fin N, if (idx (ix2 n (0 : Fin 1))).toInt = (r.val : Int) then upd (ix2 n c) else 0 := by
  obtain ⟨uw, iw, sd, iv, wf⟩ := d
  simp only at hu hi hs hv
  subst hu hi hs hv
  unfold Ideal.hostScatterAdd
  congr 1
  rw [Finset.sum_filter, sum_idx2]
  refine Finset.sum_congr rfl (fun n _ => ?_)
  rw [Finset.sum_eq_single c]
  · exact if_congr ((rowsScatter_resultIdx_iff wf idx (ix2 n c) (ix2 r c)).trans (and_iff_left rfl)) rfl rfl
  · intro b _ hb
    rw [if_neg]
    intro hf
    exact hb (Fin.ext ((rowsScatter_resultIdx_iff wf idx (ix2 n b) (ix2 r c)).1 hf).2)
  · intro hc
    exact absurd (Finset.mem_univ c) hc

/-- The row gather's dimension numbers as a literal record. -/
abbrev rowsGather (R C N : Nat)
    (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- On the indexed axis the operand coordinate is the clamped word. -/
theorem rowsGather_coord0 {R C N w : Nat}
    (wf : GatherDims.WF ⟨2, ![R, C]⟩ ⟨2, ![N, 1]⟩ ⟨2, ![N, C]⟩ [1] [0] [] [0] [] 1 ![1, C])
    (idx : IVec ⟨2, ![N, 1]⟩ w) (n : Fin N) (c : Fin C) :
    ((rowsGather R C N wf).operandIdx (ix2 n c) idx 0).val = min (idx (ix2 n (0 : Fin 1))).toInt.toNat (R - 1) := by
  show (rowsGather R C N wf).start (ix2 n c) idx 0 + (rowsGather R C N wf).batchCoord (ix2 n c) 0
    + (rowsGather R C N wf).offCoord (ix2 n c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsGather R C N wf).startIndexMap from List.mem_singleton.mpr rfl)]
  have hsi : (rowsGather R C N wf).siIdx (ix2 n c) ⟨List.idxOf (0 : Fin 2) (rowsGather R C N wf).startIndexMap,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]
  rfl

/-- On the offset axis the operand coordinate is the result's column. -/
theorem rowsGather_coord1 {R C N w : Nat}
    (wf : GatherDims.WF ⟨2, ![R, C]⟩ ⟨2, ![N, 1]⟩ ⟨2, ![N, C]⟩ [1] [0] [] [0] [] 1 ![1, C])
    (idx : IVec ⟨2, ![N, 1]⟩ w) (n : Fin N) (c : Fin C) :
    ((rowsGather R C N wf).operandIdx (ix2 n c) idx 1).val = c.val := by
  show (rowsGather R C N wf).start (ix2 n c) idx 1 + (rowsGather R C N wf).batchCoord (ix2 n c) 1
    + (rowsGather R C N wf).offCoord (ix2 n c) 1 = _
  rw [GatherDims.batchCoord_eq_zero _ _ _ List.not_mem_nil]
  have hs : (rowsGather R C N wf).start (ix2 n c) idx 1 = 0 := by
    unfold GatherDims.start
    rw [dif_neg (show (1 : Fin 2) ∉ ([0] : List (Fin 2)) from by decide)]
  rw [hs]
  simp only [Nat.add_zero, Nat.zero_add]
  unfold GatherDims.offCoord
  rw [dif_pos ((GatherDims.mem_sKept _ _).mpr ⟨(show (1 : Fin 2) ∉ ([0] : List (Fin 2)) from by decide), List.not_mem_nil⟩)]
  rfl

/-- ROWS OUT OF ROWS. Operand `[R, C]`, start indices `[N, 1]`, result `[N, C]` (result axis 1 the offset, operand axis
    0 collapsed and indexed, slices `1 × C`): result row `n` is the operand's row at the word `idx[n, 0]`, read signed and
    clamped into `[0, R − 1]`. -/
theorem gather_rows {α : Type} {R C N w : Nat} (hR : 0 < R) (d : GatherDims ⟨2, ![R, C]⟩ ⟨2, ![N, 1]⟩ ⟨2, ![N, C]⟩)
    (ho : d.offsetDims = [1]) (hc : d.collapsedSliceDims = [0]) (hob : d.operandBatchingDims = [])
    (hsb : d.startIndicesBatchingDims = []) (hm : d.startIndexMap = [0]) (hv : d.indexVectorDim = 1)
    (hsz : d.sliceSizes = ![1, C])
    (x : (⟨2, ![R, C]⟩ : Shape).Idx → α) (idx : IVec ⟨2, ![N, 1]⟩ w) (n : Fin N) (c : Fin C) :
    Host.gather d x idx (ix2 n c)
      = x (ix2 ⟨min (idx (ix2 n (0 : Fin 1))).toInt.toNat (R - 1), by omega⟩ c) := by
  obtain ⟨od, cd, ob, sb, sm, iv, ss, wf⟩ := d
  simp only at ho hc hob hsb hm hv hsz
  subst ho hc hob hsb hm hv hsz
  unfold Host.gather
  congr 1
  funext a
  refine Fin.ext ?_
  match a with
  | ⟨0, _⟩ => exact rowsGather_coord0 wf idx n c
  | ⟨1, _⟩ => exact rowsGather_coord1 wf idx n c

end Cert.LibScatterRows

end
-- ==== Proof.RefValue.lean ====
/-
  The reference's three arrays its tail starts from, as the mathematics of Spec.lean: under labels in range, the
  segment id `L b n + 24·b` of point `(b, n)` is row `24·b + k` exactly when the point is of image `b` and label `k`, so
  each scatter-add over the 96 rows is the per-image, per-label sum over the points, and the gather at the segment id
  reads a point's own cluster's centre.
-/
import proofs.«404660_j6433861009917_3_alg».proof.Proof.Gen.ReferenceIdeal.Read
import proofs.«404660_j6433861009917_3_alg».proof.Proof.Spec
import proofs.«404660_j6433861009917_3_alg».proof.Proof.LibScatterRows
import Idealize.ShloMosaic.Lib.StableHlo.Predicate

noncomputable section

open scoped BigOperators

namespace Cert.ReferenceIdeal.RefValue

open Idealize.ShloMosaic Idealize.ShloMosaic.ValueIdx
open Cert.ReferenceIdeal Cert.ReferenceIdeal.Gen Cert.ReferenceIdeal.Read Cert.ClusterLoss

variable (x0 : (⟨S4x16x512x1024, .f32⟩ : BufTy).Contents (Elt Ideal)) (x1 : (⟨S4x512x1024, .i32⟩ : BufTy).Contents (Elt Ideal))

/-! ## The flat rows: row `b·524288 + n` is point `n` of image `b` -/

/-- The flat row of point `n` of image `b`. -/
def rowOf (b : Fin 4) (n : Fin 524288) : Fin 2097152 :=
  ⟨b.val * 524288 + n.val, by have := b.isLt; have := n.isLt; omega⟩

/-- The flat rows are the pairs (image, point). -/
def rowEquiv : Fin 4 × Fin 524288 ≃ Fin 2097152 where
  toFun p := rowOf p.1 p.2
  invFun r := (⟨r.val / 524288, by have := r.isLt; omega⟩, ⟨r.val % 524288, Nat.mod_lt _ (by decide)⟩)
  left_inv := by
    rintro ⟨b, n⟩
    have hb := b.isLt; have hn := n.isLt
    refine Prod.ext (Fin.ext ?_) (Fin.ext ?_)
    · show (b.val * 524288 + n.val) / 524288 = b.val; omega
    · show (b.val * 524288 + n.val) % 524288 = n.val; omega
  right_inv := by
    intro r
    refine Fin.ext ?_
    show r.val / 524288 * 524288 + r.val % 524288 = r.val; omega

/-- A sum over the flat rows is the double sum over the images and their points. -/
theorem sum_rows {M : Type*} [AddCommMonoid M] (f : Fin 2097152 → M) :
    ∑ r, f r = ∑ b : Fin 4, ∑ n : Fin 524288, f (rowOf b n) := by
  rw [← Equiv.sum_comp rowEquiv f, Fintype.sum_prod_type]
  rfl

/-- Row `24·b + k` of the 96 segments. -/
def segOf (b : Fin 4) (k : Fin 24) : Fin 96 := ⟨b.val * 24 + k.val, by have := b.isLt; have := k.isLt; omega⟩

/-! ## The data and the segment word at a flat row -/

theorem idx2_row (b : Fin 4) (n : Fin 524288) (d : Fin 16) : idx_main_v2 (ix2 (rowOf b n) d) = ix3 b n d := by
  have hb := b.isLt; have hn := n.isLt; have hd := d.isLt
  funext a; refine Fin.ext ?_
  match a with
  | ⟨0, _⟩ => show ((b.val * 524288 + n.val) * 16 + d.val) / 8388608 = b.val; omega
  | ⟨1, _⟩ => show ((b.val * 524288 + n.val) * 16 + d.val) / 16 % 524288 = n.val; omega
  | ⟨2, _⟩ => show ((b.val * 524288 + n.val) * 16 + d.val) % 16 = d.val; omega

theorem idx1_row (b : Fin 4) (n : Fin 524288) (d : Fin 16) : idx_main_v1 (ix3 b n d) = ix3 b d n := by
  funext a
  match a with
  | ⟨0, _⟩ => rfl
  | ⟨1, _⟩ => rfl
  | ⟨2, _⟩ => rfl

theorem idx0_row (b : Fin 4) (n : Fin 524288) (d : Fin 16) :
    idx_main_v0 (ix3 b d n) = ix4 b d ⟨n.val / 1024, pix_h n⟩ ⟨n.val % 1024, pix_w n⟩ := by
  have hb := b.isLt; have hn := n.isLt; have hd := d.isLt
  funext a; refine Fin.ext ?_
  match a with
  | ⟨0, _⟩ => show ((b.val * 16 + d.val) * 524288 + n.val) / 8388608 = b.val; omega
  | ⟨1, _⟩ => show ((b.val * 16 + d.val) * 524288 + n.val) / 524288 % 16 = d.val; omega
  | ⟨2, _⟩ => show ((b.val * 16 + d.val) * 524288 + n.val) / 1024 % 512 = n.val / 1024; omega
  | ⟨3, _⟩ => show ((b.val * 16 + d.val) * 524288 + n.val) % 1024 = n.val % 1024; omega

/-- Row `b·524288 + n`, column `d` of the flattened data is coordinate `d` of point `n` of image `b`. -/
theorem data_row (b : Fin 4) (n : Fin 524288) (d : Fin 16) :
    val_main_v2 (F := Ideal) x0 (ix2 (rowOf b n) d) = dataAt x0 b d n := by
  rw [val_main_v2_apply, val_main_v1_apply, val_main_v0_apply, idx2_row, idx1_row, idx0_row]
  rfl

theorem idx10_row (b : Fin 4) (n : Fin 524288) : idx_main_v10 (ix1 (rowOf b n)) = ix2 b n := by
  have hb := b.isLt; have hn := n.isLt
  funext a; refine Fin.ext ?_
  match a with
  | ⟨0, _⟩ => show (b.val * 524288 + n.val) / 524288 = b.val; omega
  | ⟨1, _⟩ => show (b.val * 524288 + n.val) % 524288 = n.val; omega

theorem idx3_row (b : Fin 4) (n : Fin 524288) :
    idx_main_v3 (ix2 b n) = ix3 b ⟨n.val / 1024, pix_h n⟩ ⟨n.val % 1024, pix_w n⟩ := by
  have hb := b.isLt; have hn := n.isLt
  funext a; refine Fin.ext ?_
  match a with
  | ⟨0, _⟩ => show (b.val * 524288 + n.val) / 524288 = b.val; omega
  | ⟨1, _⟩ => show (b.val * 524288 + n.val) / 1024 % 512 = n.val / 1024; omega
  | ⟨2, _⟩ => show (b.val * 524288 + n.val) % 1024 = n.val % 1024; omega

/-- The segment id of point `(b, n)`: its label word plus `24·b`. -/
theorem seg_word (b : Fin 4) (n : Fin 524288) :
    val_main_v10 (F := Ideal) x1 (ix1 (rowOf b n)) = labAt x1 b n + BitVec.ofNat 32 b.val * 24#32 := by
  rw [val_main_v10_apply, idx10_row, val_main_v9_apply, val_main_v3_apply, idx3_row, val_main_v8_apply,
    val_main_v7_apply, val_main_v5_apply, val_main_v4_apply, val_main_v6_apply, val_main_c_apply]
  rfl

/-! ## The segment word under labels in range -/

open Idealize.ShloMosaic.StableHlo.Predicate in
/-- Read signed, the segment word of point `(b, n)` is `L b n + 24·b`. -/
theorem seg_toInt (h : InRange x1) (b : Fin 4) (n : Fin 524288) :
    (val_main_v10 (F := Ideal) x1 (ix1 (rowOf b n))).toInt = (((labAt x1 b n).toNat + 24 * b.val : ℕ) : ℤ) := by
  have hL := labAt_lt h b n; have hb := b.isLt
  rw [seg_word]
  have hn : (labAt x1 b n + BitVec.ofNat 32 b.val * 24#32).toNat = (labAt x1 b n).toNat + 24 * b.val := by
    simp only [BitVec.toNat_add, BitVec.toNat_mul, BitVec.toNat_ofNat]
    omega
  rw [toInt_eq_toNat_of_lt (by rw [hn]; omega), hn]

/-- A word in range is label `k`'s exactly when its value is `k`. -/
theorem eq_lw_iff (w : BitVec 32) (k : Fin 24) : w = lw k ↔ w.toNat = k.val := by
  have hk := k.isLt
  constructor
  · intro e; rw [e]; show (BitVec.ofNat 32 k.val).toNat = k.val; rw [BitVec.toNat_ofNat]; omega
  · intro e; apply BitVec.eq_of_toNat_eq; rw [e]; show k.val = (BitVec.ofNat 32 k.val).toNat; rw [BitVec.toNat_ofNat]; omega

/-- The segment word of point `(b, n)` is row `24·b' + k` exactly when the point is of image `b'` and carries label `k`. -/
theorem seg_eq_iff (h : InRange x1) (b b' : Fin 4) (n : Fin 524288) (k : Fin 24) :
    (val_main_v10 (F := Ideal) x1 (ix1 (rowOf b n))).toInt = ((segOf b' k).val : ℤ) ↔ b = b' ∧ labAt x1 b n = lw k := by
  have hL := labAt_lt h b n; have hb := b.isLt; have hb' := b'.isLt; have hk := k.isLt
  rw [seg_toInt x1 h, eq_lw_iff, Fin.ext_iff]
  show (((labAt x1 b n).toNat + 24 * b.val : ℕ) : ℤ) = ((b'.val * 24 + k.val : ℕ) : ℤ) ↔ _
  omega

/-- A sum over all flat rows of a term kept where the segment word is row `24·b + k` is the sum over the points of
    image `b` of the term kept where the label is `k`. -/
theorem seg_sum (h : InRange x1) (g : Fin 2097152 → EReal) (b : Fin 4) (k : Fin 24) :
    (∑ r : Fin 2097152, if (val_main_v10 (F := Ideal) x1 (ix1 r)).toInt = ((segOf b k).val : ℤ) then g r else 0)
      = ∑ n : Fin 524288, if labAt x1 b n = lw k then g (rowOf b n) else 0 := by
  rw [sum_rows, Finset.sum_eq_single b]
  · refine Finset.sum_congr rfl fun n _ => ?_
    by_cases e : labAt x1 b n = lw k
    · rw [if_pos e, if_pos ((seg_eq_iff x1 h b b n k).mpr ⟨rfl, e⟩)]
    · rw [if_neg e, if_neg (fun e' => e ((seg_eq_iff x1 h b b n k).mp e').2)]
  · intro b' _ hne
    refine Finset.sum_eq_zero fun n _ => ?_
    rw [if_neg (fun e' => hne ((seg_eq_iff x1 h b' b n k).mp e').1)]
  · intro hb; exact absurd (Finset.mem_univ b) hb

/-! ## The two float words -/

theorem one_f32 : Ideal.ofBits .f32 0x3F800000#32 = 1 := by
  simp [Ideal.ofBits, Ideal.ieee, -EReal.coe_mul] <;> norm_num

/-- The index arrays `[N, 1]` are the segment words, row by row. -/
theorem idx_col (r : Fin 2097152) : idx_main_v16 (ix2 r (0 : Fin 1)) = ix1 r := by
  funext a; match a with | ⟨0, _⟩ => rfl

theorem idx_col12 (r : Fin 2097152) : idx_main_v12 (ix2 r (0 : Fin 1)) = ix1 r := by
  funext a; match a with | ⟨0, _⟩ => rfl
theorem idx_col28 (r : Fin 2097152) : idx_main_v28 (ix2 r (0 : Fin 1)) = ix1 r := by
  funext a; match a with | ⟨0, _⟩ => rfl
theorem idx_col38 (r : Fin 2097152) : idx_main_v38 (ix2 r (0 : Fin 1)) = ix1 r := by
  funext a; match a with | ⟨0, _⟩ => rfl

/-- At the ideal values the host's accumulating scatter is the exact sum. -/
theorem scatterAdd_ideal {s si su : Shape} {w : Nat} (d : ScatterDims s si su) (x : FVec Ideal s .f32) (idx : IVec si w)
    (upd : FVec Ideal su .f32) : Host.scatterAdd d x idx upd = Ideal.hostScatterAdd d x idx upd := rfl

/-! ## The counts, the sums and the centres at segment `24·b + k` -/

/-- The counts: segment `24·b + k` holds the number of points of image `b` that carry label `k`. -/
theorem v17_seg (h : InRange x1) (b : Fin 4) (k : Fin 24) :
    val_main_v17 (F := Ideal) x1 (ix1 (segOf b k)) = cnt (labAt x1) b k := by
  unfold val_main_v17
  rw [scatterAdd_ideal, Cert.LibScatterRows.scatterAdd_bins scatter_S96_S2097152x1_S2097152_n_0_0_1 rfl rfl rfl rfl]
  rw [val_main_v15_apply, val_main_cst_1_apply, Ideal.ofBits_def, Ideal.ofBits_zero_f32, zero_add]
  simp only [val_main_v16_apply, idx_col, val_main_v14_apply, val_main_cst_0_apply, Ideal.ofBits_def, one_f32]
  exact seg_sum x1 h (fun _ => 1) b k

/-- The sums: row `24·b + k`, column `d` holds the sum of coordinate `d` over those points. -/
theorem v13_seg (h : InRange x1) (b : Fin 4) (k : Fin 24) (d : Fin 16) :
    val_main_v13 (F := Ideal) x0 x1 (ix2 (segOf b k) d) = sm (dataAt x0) (labAt x1) b d k := by
  unfold val_main_v13
  rw [scatterAdd_ideal, Cert.LibScatterRows.scatterAdd_rows scatter_S96x16_S2097152x1_S2097152x16_1_0_0_1 rfl rfl rfl rfl]
  rw [val_main_v11_apply, val_main_cst_apply, Ideal.ofBits_def, Ideal.ofBits_zero_f32, zero_add]
  simp only [val_main_v12_apply, idx_col12]
  refine (seg_sum x1 h (fun r => val_main_v2 (F := Ideal) x0 (ix2 r d)) b k).trans ?_
  unfold sm
  refine Finset.sum_congr rfl fun n _ => ?_
  rw [data_row]

/-- The centres: the quotient of the two. -/
theorem v20_seg (h : InRange x1) (b : Fin 4) (k : Fin 24) (d : Fin 16) :
    val_main_v20 (F := Ideal) x0 x1 (ix2 (segOf b k) d) = ctr (dataAt x0) (labAt x1) b d k := by
  have e : idx_main_v18 (idx_main_v19 (ix2 (segOf b k) d)) = ix1 (segOf b k) := by
    funext a; match a with | ⟨0, _⟩ => rfl
  rw [val_main_v20_apply, Ideal.hostDivf_def, v13_seg x0 x1 h, val_main_v19_apply, val_main_v18_apply, e, v17_seg x1 h]
  rfl

theorem ref_cnt (h : InRange x1) : val_main_v22 (F := Ideal) x1 = cntArr (labAt x1) := by
  funext i
  obtain ⟨b, k, rfl⟩ : ∃ b k, i = ix2 b k := ⟨i 0, i 1, eq_ix2 i⟩
  have e : idx_main_v22 (ix2 b k) = ix1 (segOf b k) := by
    funext a; match a with | ⟨0, _⟩ => rfl
  rw [val_main_v22_apply, e, v17_seg x1 h]
  rfl

theorem ref_ctr (h : InRange x1) : val_main_v21 (F := Ideal) x0 x1 = ctrArr (dataAt x0) (labAt x1) := by
  funext i
  obtain ⟨b, k, d, rfl⟩ : ∃ b k d, i = ix3 b k d := ⟨i 0, i 1, i 2, eq_ix3 i⟩
  have e : idx_main_v21 (ix3 b k d) = ix2 (segOf b k) d := by
    have hb := b.isLt; have hk := k.isLt; have hd := d.isLt
    funext a; refine Fin.ext ?_
    match a with
    | ⟨0, _⟩ => show ((b.val * 24 + k.val) * 16 + d.val) / 16 = b.val * 24 + k.val; omega
    | ⟨1, _⟩ => show ((b.val * 24 + k.val) * 16 + d.val) % 16 = d.val; omega
  rw [val_main_v21_apply, e, v20_seg x0 x1 h]
  rfl

/-! ## A point's own centre and its hinged distance -/

/-- The gather's index word is the segment word: the segment word is not negative. -/
theorem v27_row (h : InRange x1) (b : Fin 4) (n : Fin 524288) :
    val_main_v27 (F := Ideal) x1 (ix1 (rowOf b n)) = val_main_v10 (F := Ideal) x1 (ix1 (rowOf b n)) := by
  have hc : IntOp.cmpi .slt (val_main_v10 (F := Ideal) x1 (ix1 (rowOf b n))) 0#32 = 0#1 := by
    apply eq_zero_of_ne_one
    intro e
    unfold IntOp.cmpi at e
    rw [Idealize.ShloMosaic.StableHlo.Predicate.ofBool_eq_one_iff] at e
    have h0 : (0#32 : BitVec 32).toInt = 0 := rfl
    simp only [BitVec.slt, decide_eq_true_eq, seg_toInt x1 h, h0] at e
    omega
  rw [val_main_v27_apply, val_main_v24_apply, val_main_v23_apply, val_main_c_2_apply, hc, select_zero]

/-- The label of an in-range word. -/
def labOf (h : InRange x1) (b : Fin 4) (n : Fin 524288) : Fin 24 := ⟨(labAt x1 b n).toNat, labAt_lt h b n⟩

theorem labAt_eq_lw (h : InRange x1) (b : Fin 4) (n : Fin 524288) : labAt x1 b n = lw (labOf x1 h b n) :=
  (eq_lw_iff _ _).mpr rfl

/-- The one-hot contraction of the centres picks the centre of the point's label. -/
theorem own_eq (h : InRange x1) (C : Fin 4 → Fin 16 → Fin 24 → EReal) (b : Fin 4) (d : Fin 16) (n : Fin 524288) :
    own (labAt x1) C b d n = C b d (labOf x1 h b n) := by
  unfold own
  rw [Finset.sum_eq_single (labOf x1 h b n)]
  · rw [if_pos (labAt_eq_lw x1 h b n)]
  · intro k _ hne
    rw [if_neg]
    intro e
    exact hne (Fin.ext ((eq_lw_iff _ _).mp e).symm)
  · intro hk; exact absurd (Finset.mem_univ _) hk

/-- The gathered row of point `(b, n)` is its own cluster's centre. -/
theorem v29_row (h : InRange x1) (b : Fin 4) (n : Fin 524288) (d : Fin 16) :
    val_main_v29 (F := Ideal) x0 x1 (ix2 (rowOf b n) d)
      = own (labAt x1) (ctr (dataAt x0) (labAt x1)) b d n := by
  have hL := labAt_lt h b n; have hb := b.isLt
  unfold val_main_v29
  rw [Cert.LibScatterRows.gather_rows (by decide) gather_S96x16_S2097152x1_S2097152x16_1_0_n_n_0_1_116 rfl rfl rfl rfl rfl rfl rfl,
    own_eq x1 h, ← v20_seg x0 x1 h]
  refine congrArg (fun r => val_main_v20 (F := Ideal) x0 x1 (ix2 r d)) (Fin.ext ?_)
  show min (val_main_v28 (F := Ideal) x1 (ix2 (rowOf b n) (0 : Fin 1))).toInt.toNat (96 - 1) = b.val * 24 + (labAt x1 b n).toNat
  rw [val_main_v28_apply, idx_col28, v27_row x1 h, seg_toInt x1 h, Int.toNat_natCast]
  omega

theorem idx_call0 (r : Fin 2097152) (d : Fin 16) : idx_main_call0_v1 (ix1 r) d = ix2 r d := by
  funext a; match a with | ⟨0, _⟩ => rfl | ⟨1, _⟩ => rfl

/-- The squared distance of point `(b, n)` to its own centre. -/
theorem dist_row (h : InRange x1) (b : Fin 4) (n : Fin 524288) :
    val_main_call0_v1 (F := Ideal) x0 x1 (ix1 (rowOf b n))
      = dist2 (dataAt x0) (labAt x1) (ctr (dataAt x0) (labAt x1)) b n := by
  rw [val_main_call0_v1_apply, val_main_call0_cst_apply, Ideal.ofBits_def, Ideal.ofBits_zero_f32, zero_add]
  unfold dist2
  refine Finset.sum_congr rfl fun d _ => ?_
  rw [idx_call0, val_main_call0_v0_apply, Ideal.mulf_def, val_main_v30_apply, Ideal.subf_def, data_row, v29_row x0 x1 h]

/-- The hinged squared distance of point `(b, n)`. -/
theorem v36_row (h : InRange x1) (b : Fin 4) (n : Fin 524288) :
    val_main_v36 (F := Ideal) x0 x1 (ix1 (rowOf b n))
      = hinge (dataAt x0) (labAt x1) (ctr (dataAt x0) (labAt x1)) b n := by
  rw [val_main_v36_apply, Ideal.mulf_def, val_main_v35_apply, Ideal.maximumf_def, val_main_v33_apply, Ideal.subf_def,
    val_main_v31_apply, Ideal.hostUnary_sqrt_def, dist_row x0 x1 h, val_main_v32_apply, val_main_cst_4_apply,
    val_main_v34_apply, val_main_cst_5_apply]
  rfl

/-- The hinge sums: segment `24·b + k` holds the sum of the hinged squared distances over the points of image `b` that
    carry label `k`. -/
theorem v39_seg (h : InRange x1) (b : Fin 4) (k : Fin 24) :
    val_main_v39 (F := Ideal) x0 x1 (ix1 (segOf b k))
      = vs (dataAt x0) (labAt x1) (ctr (dataAt x0) (labAt x1)) b k := by
  unfold val_main_v39
  rw [scatterAdd_ideal, Cert.LibScatterRows.scatterAdd_bins scatter_S96_S2097152x1_S2097152_n_0_0_1 rfl rfl rfl rfl]
  rw [val_main_v37_apply, val_main_cst_6_apply, Ideal.ofBits_def, Ideal.ofBits_zero_f32, zero_add]
  simp only [val_main_v38_apply, idx_col38]
  refine (seg_sum x1 h (fun r => val_main_v36 (F := Ideal) x0 x1 (ix1 r)) b k).trans ?_
  unfold vs
  refine Finset.sum_congr rfl fun n _ => ?_
  rw [v36_row x0 x1 h]

theorem ref_vs (h : InRange x1) : val_main_v40 (F := Ideal) x0 x1 = vsArr (dataAt x0) (labAt x1) := by
  funext i
  obtain ⟨b, k, rfl⟩ : ∃ b k, i = ix2 b k := ⟨i 0, i 1, eq_ix2 i⟩
  have e : idx_main_v40 (ix2 b k) = ix1 (segOf b k) := by
    funext a; match a with | ⟨0, _⟩ => rfl
  rw [val_main_v40_apply, e, v39_seg x0 x1 h]
  rfl

end Cert.ReferenceIdeal.RefValue

end
-- ==== Proof.RefTail.lean ====
/-
  The reference's last stage is the common tail (Tail.lean's `lossOf`) of its centres, hinge sums and counts: its
  chain of host operations from those three arrays on is that function's text.
-/
import proofs.«404660_j6433861009917_3_alg».proof.Proof.Gen.ReferenceIdeal.Read
import proofs.«404660_j6433861009917_3_alg».proof.Proof.Tail

noncomputable section

namespace Cert.ReferenceIdeal.RefTail

open Idealize.ShloMosaic
open Cert.ReferenceIdeal Cert.ReferenceIdeal.Gen Cert.ReferenceIdeal.Read Cert.ClusterLoss

theorem ref_tail (x0 : (⟨S4x16x512x1024, .f32⟩ : BufTy).Contents (Elt Ideal)) (x1 : (⟨S4x512x1024, .i32⟩ : BufTy).Contents (Elt Ideal)) :
    val_main_v76 (F := Ideal) x0 x1
      = lossOf (val_main_v21 (F := Ideal) x0 x1) (val_main_v40 (F := Ideal) x0 x1) (val_main_v22 (F := Ideal) x1) := by
  rfl

end Cert.ReferenceIdeal.RefTail

end
-- ==== Proof.KernelTail.lean ====
/-
  The kernel program's host operations after its second pallas_call are the common tail (Tail.lean's `lossOf`) of the
  three arrays they start from: the centres, the second call's result with its unit axis dropped, and the counts.

  The operations come as seven stretches run one after the other. Each stretch is read from ANY contents of the
  buffers: what it leaves at a buffer a later stretch reads is either a piece of the loss applied to the contents it
  started from (the buffers it writes) or those contents themselves (the buffers it passes on). The seven readings
  composed are the pieces of the loss put together, which is `lossOf`.
-/
import proofs.«404660_j6433861009917_3_alg».proof.Proof.Gen.KernelIdeal.Frame
import proofs.«404660_j6433861009917_3_alg».proof.Proof.Tail
import Idealize.ShloMosaic.Lib.StableHlo.Run
import Idealize.ShloMosaic.Lib.Tactic

set_option maxRecDepth 16384

noncomputable section

namespace Cert.KernelIdeal.KTail

open Cert.KernelIdeal Cert.KernelIdeal.Gen Cert.ClusterLoss
open Idealize.ShloMosaic Idealize.ShloMosaic.TcCoe Idealize.ShloMosaic.Tactic Idealize.SL.Sem Idealize.ShloMosaic.StableHlo

/-! ## The pieces of the loss, each a function of what it is computed from -/

/-- The variance term: the sum over images and clusters of the hinge sums over the counts. -/
def varOf (Vs Cn : FVec Ideal T4x24 .f32) : FVec Ideal T_ .f32 :=
  Host.reduceAdd (Host.divf Vs Cn) (constant (F := Ideal) T_ .f32 0x00000000#32) red_4x24 t_pos

/-- The squared distances of all ordered pairs of an image's centres. -/
def sqOf (C : FVec Ideal T4x24x16 .f32) : FVec Ideal T4x24x24 .f32 :=
  let ca : FVec Ideal T4x24x24x16 .f32 := broadcastInDim T4x24x24x16 ![0, 1, 2, 3] bc_a' (broadcastInDim T4x24x1x16 ![0, 1, 3] bc_a C)
  let cb : FVec Ideal T4x24x24x16 .f32 := broadcastInDim T4x24x24x16 ![0, 1, 2, 3] bc_b' (broadcastInDim T4x1x24x16 ![0, 2, 3] bc_b C)
  let df : FVec Ideal T4x24x24x16 .f32 := subf ca cb
  Host.reduceAdd (mulf df df) (constant (F := Ideal) T_ .f32 0x00000000#32) red_pairs t_pos

/-- The diagonal mask of a 24 × 24 table, with a unit axis in front. -/
def eye : IVec T1x24x24 1 :=
  broadcastInDim T1x24x24 ![1, 2] bc_eye
    (cmpi .eq (addi (iotaInDim T24x24 32 0) (broadcastInDim T24x24 ![] bc_s24 (constantI T_ 32 0#32))) (iotaInDim T24x24 32 1))

/-- A table of pairs with the scalar `v` written where the mask `e` is set. -/
def maskBy (e : IVec T1x24x24 1) (v : FVec Ideal T_ .f32) (x : FVec Ideal T4x24x24 .f32) : FVec Ideal T4x24x24 .f32 :=
  select (broadcastInDim T4x24x24 ![0, 1, 2] bc_eye4 e) (broadcastInDim T4x24x24 ![] bc_s444 (id v)) x

/-- The distance term of the pairwise distances: `2 − d` hinged at zero, squared, summed, over `1104`. -/
def distOf (cd : FVec Ideal T4x24x24 .f32) : FVec Ideal T_ .f32 :=
  let hd : FVec Ideal T4x24x24 .f32 :=
    maximumf (subf (broadcastInDim T4x24x24 ![] bc_s444 (constant (F := Ideal) T_ .f32 0x40000000#32)) cd)
      (broadcastInDim T4x24x24 ![] bc_s444 (constant (F := Ideal) T_ .f32 0x00000000#32))
  Host.divf (Host.reduceAdd (mulf hd hd) (constant (F := Ideal) T_ .f32 0x00000000#32) red_all t_pos)
    (constant (F := Ideal) T_ .f32 0x448A0000#32)

/-- The norms of the centres. -/
def nrmOf (C : FVec Ideal T4x24x16 .f32) : FVec Ideal T4x24 .f32 :=
  Host.sqrt (Host.reduceAdd (mulf C C) (constant (F := Ideal) T_ .f32 0x00000000#32) red_d t_pos)

/-- The loss of the variance term, the distance term and the centres' norms: the regularisation term is the mean
    norm of an image's centres summed over the images; the three terms are weighted by one and divided by four. -/
def totalOf (var dist : FVec Ideal T_ .f32) (nrm : FVec Ideal T4x24 .f32) : FVec Ideal T_ .f32 :=
  let mean : FVec Ideal T4 .f32 :=
    Host.divf (Host.reduceAdd nrm (constant (F := Ideal) T_ .f32 0x00000000#32) red_k t_pos)
      (broadcastInDim T4 ![] bc_s4 (constant (F := Ideal) T_ .f32 0x41C00000#32))
  let reg : FVec Ideal T_ .f32 := Host.reduceAdd mean (constant (F := Ideal) T_ .f32 0x00000000#32) red_b t_pos
  Host.divf
    (addf (addf (mulf (constant (F := Ideal) T_ .f32 0x3F800000#32) var) (mulf (constant (F := Ideal) T_ .f32 0x3F800000#32) dist))
      (mulf (constant (F := Ideal) T_ .f32 0x3F800000#32) reg))
    (constant (F := Ideal) T_ .f32 0x40800000#32)

/-- The common tail is these pieces put together. -/
theorem lossOf_eq (C : FVec Ideal T4x24x16 .f32) (Vs Cn : FVec Ideal T4x24 .f32) :
    lossOf C Vs Cn
      = totalOf (varOf Vs Cn)
          (distOf (maskBy eye (constant (F := Ideal) T_ .f32 0x00000000#32)
            (Host.sqrt (maskBy eye (constant (F := Ideal) T_ .f32 0x3F800000#32) (sqOf C)))))
          (nrmOf C) := rfl

/-! ## The seven stretches, each from any contents `W` of the buffers: what it leaves at a buffer a later stretch
    reads, as a function of `W` at the buffers it reads itself -/

section Stretches

variable (W : Valuation τ sig (Elt Ideal))

/-! ### The first stretch: the variance term, the pairwise squared distances, the mask and the constant one -/

theorem s0_v11 :
    StableHlo.after hostOps2 W (Proc.devRef .tc main_v11)
      = varOf (shapeCast T4x24 (W (Proc.devRef .tc main_v8)) (by decide)) (W (Proc.devRef .tc main_v3)) := by
  after_results <;> rfl

theorem s0_v18 : StableHlo.after hostOps2 W (Proc.devRef .tc main_v18) = sqOf (W (Proc.devRef .tc main_v7)) := by
  after_results <;> rfl

theorem s0_v24 : StableHlo.after hostOps2 W (Proc.devRef .tc main_v24) = eye := by
  after_results <;> rfl

theorem s0_cst_1 :
    StableHlo.after hostOps2 W (Proc.devRef .tc main_cst_1) = constant (F := Ideal) T_ .f32 0x3F800000#32 := by
  after_results <;> rfl

theorem s0_v7 : StableHlo.after hostOps2 W (Proc.devRef .tc main_v7) = W (Proc.devRef .tc main_v7) := by
  after_results <;> rfl

/-! ### The second stretch: one on the diagonal -/

theorem s1_v25 :
    StableHlo.after hostOps2_1 W (Proc.devRef .tc main_v25)
      = maskBy (W (Proc.devRef .tc main_v24)) (W (Proc.devRef .tc main_cst_1)) (W (Proc.devRef .tc main_v18)) := by
  after_results <;> rfl

theorem s1_v11 : StableHlo.after hostOps2_1 W (Proc.devRef .tc main_v11) = W (Proc.devRef .tc main_v11) := by
  after_results <;> rfl

theorem s1_v24 : StableHlo.after hostOps2_1 W (Proc.devRef .tc main_v24) = W (Proc.devRef .tc main_v24) := by
  after_results <;> rfl

theorem s1_v7 : StableHlo.after hostOps2_1 W (Proc.devRef .tc main_v7) = W (Proc.devRef .tc main_v7) := by
  after_results <;> rfl

/-! ### The third stretch: the square root, and the constant zero -/

theorem s2_v26 :
    StableHlo.after hostOps2_2 W (Proc.devRef .tc main_v26)
      = Host.sqrt (show FVec Ideal T4x24x24 .f32 from W (Proc.devRef .tc main_v25)) := by
  after_results <;> rfl

theorem s2_cst_2 :
    StableHlo.after hostOps2_2 W (Proc.devRef .tc main_cst_2) = constant (F := Ideal) T_ .f32 0x00000000#32 := by
  after_results <;> rfl

theorem s2_v11 : StableHlo.after hostOps2_2 W (Proc.devRef .tc main_v11) = W (Proc.devRef .tc main_v11) := by
  after_results <;> rfl

theorem s2_v24 : StableHlo.after hostOps2_2 W (Proc.devRef .tc main_v24) = W (Proc.devRef .tc main_v24) := by
  after_results <;> rfl

theorem s2_v7 : StableHlo.after hostOps2_2 W (Proc.devRef .tc main_v7) = W (Proc.devRef .tc main_v7) := by
  after_results <;> rfl

/-! ### The fourth stretch: zero on the diagonal -/

theorem s3_v27 :
    StableHlo.after hostOps2_3 W (Proc.devRef .tc main_v27)
      = maskBy (W (Proc.devRef .tc main_v24)) (W (Proc.devRef .tc main_cst_2)) (W (Proc.devRef .tc main_v26)) := by
  after_results <;> rfl

theorem s3_v11 : StableHlo.after hostOps2_3 W (Proc.devRef .tc main_v11) = W (Proc.devRef .tc main_v11) := by
  after_results <;> rfl

theorem s3_v7 : StableHlo.after hostOps2_3 W (Proc.devRef .tc main_v7) = W (Proc.devRef .tc main_v7) := by
  after_results <;> rfl

/-! ### The fifth stretch: the distance term -/

theorem s4_v34 : StableHlo.after hostOps2_4 W (Proc.devRef .tc main_v34) = distOf (W (Proc.devRef .tc main_v27)) := by
  after_results <;> rfl

theorem s4_v11 : StableHlo.after hostOps2_4 W (Proc.devRef .tc main_v11) = W (Proc.devRef .tc main_v11) := by
  after_results <;> rfl

theorem s4_v7 : StableHlo.after hostOps2_4 W (Proc.devRef .tc main_v7) = W (Proc.devRef .tc main_v7) := by
  after_results <;> rfl

/-! ### The sixth stretch: the centres' norms -/

theorem s5_v35 : StableHlo.after hostOps2_5 W (Proc.devRef .tc main_v35) = nrmOf (W (Proc.devRef .tc main_v7)) := by
  after_results <;> rfl

theorem s5_v11 : StableHlo.after hostOps2_5 W (Proc.devRef .tc main_v11) = W (Proc.devRef .tc main_v11) := by
  after_results <;> rfl

theorem s5_v34 : StableHlo.after hostOps2_5 W (Proc.devRef .tc main_v34) = W (Proc.devRef .tc main_v34) := by
  after_results <;> rfl

/-! ### The last stretch: the regularisation term and the weighted sum -/

theorem s6_v45 :
    StableHlo.after hostOps2_6 W (Proc.devRef .tc main_v45)
      = totalOf (W (Proc.devRef .tc main_v11)) (W (Proc.devRef .tc main_v34)) (W (Proc.devRef .tc main_v35)) := by
  after_results <;> rfl

end Stretches

/-! ## The seven stretches in a row -/

/-- From any contents `W`, the seven stretches leave at the result buffer the common tail of `W`'s centres, hinge
    sums (their unit axis dropped) and counts: the last stretch's value read back through the six before it, each
    buffer at the stretch that writes it. -/
theorem chain (W : Valuation τ sig (Elt Ideal)) :
    StableHlo.after hostOps2_6 (StableHlo.after hostOps2_5 (StableHlo.after hostOps2_4 (StableHlo.after hostOps2_3
        (StableHlo.after hostOps2_2 (StableHlo.after hostOps2_1 (StableHlo.after hostOps2 W))))))
        (Proc.devRef .tc main_v45)
      = lossOf (W (Proc.devRef .tc main_v7)) (shapeCast T4x24 (W (Proc.devRef .tc main_v8)) (by decide))
          (W (Proc.devRef .tc main_v3)) := by
  rw [s6_v45, s5_v11, s5_v34, s5_v35, s4_v11, s4_v34, s4_v7, s3_v11, s3_v27, s3_v7, s2_v11, s2_v24, s2_cst_2, s2_v26,
    s2_v7, s1_v11, s1_v24, s1_v25, s1_v7, s0_v11, s0_v24, s0_cst_1, s0_v18, s0_v7, lossOf_eq]

/-! ## The statement: the fold of the seven stretches from the contents the second call leaves -/

variable (m : (ℓ : Loc nD τ sig) → Buf (Elt Ideal) ℓ) (ρ : Dev nD → PrngReg)

theorem tail_eq (c : Dev nD) :
    W11 (F := Ideal) m ρ c (Proc.devRef .tc main_v45)
      = lossOf (W4 (F := Ideal) m ρ c (Proc.devRef .tc main_v7))
          (shapeCast T4x24 (W4 (F := Ideal) m ρ c (Proc.devRef .tc main_v8)) (by decide))
          (W4 (F := Ideal) m ρ c (Proc.devRef .tc main_v3)) :=
  chain (W4 (F := Ideal) m ρ c)

end Cert.KernelIdeal.KTail

end
-- ==== Proof.KernelHost.lean ====
/-
  The three arrays the kernel program's tail starts from, as the mathematics of Spec.lean of the launch arguments: the
  two reshapes before the first pallas_call merge the pixel axes; its results are the per-cluster sums and counts;
  the host divides the sums by the counts broadcast along the 16 coordinates and transposes the quotient to
  [4, 24, 16]; the second pallas_call, entered with the same data and labels and those centres, leaves the hinge sums.
-/
import proofs.«404660_j6433861009917_3_alg».proof.Proof.Gen.KernelIdeal.Frame
import proofs.«404660_j6433861009917_3_alg».proof.Proof.Spec
import proofs.«404660_j6433861009917_3_alg».proof.Proof.Tail
import Idealize.ShloMosaic.Lib.StableHlo.Run
import Idealize.ShloMosaic.Lib.Pipeline.Value
import Idealize.ShloMosaic.Lib.Tactic

set_option maxRecDepth 16384

noncomputable section

open scoped BigOperators

namespace Cert.KernelIdeal.HostSide

open Cert.KernelIdeal Cert.KernelIdeal.Gen Cert.ClusterLoss
open Idealize.ShloMosaic Idealize.ShloMosaic.TcCoe Idealize.ShloMosaic.Tactic Idealize.SL.Sem Idealize.ShloMosaic.StableHlo
open Idealize.ShloMosaic.ValueIdx
open Idealize.ShloMosaic.Pipeline (Dat)

/-! ## The host stretches before and between the two calls, over any contents `W` -/

section Stretch
variable (W : Valuation τ sig (Elt Ideal))

theorem pre_data : StableHlo.after hostOps0 W (Proc.devRef .tc main_v0)
    = shapeCast S4x16x524288 (W (Proc.devRef .tc main_arg0)) shapeCasts_S4x16x512x1024_S4x16x524288 := by
  after_results; rfl
theorem pre_labels : StableHlo.after hostOps0 W (Proc.devRef .tc main_v1)
    = shapeCast S4x1x524288 (W (Proc.devRef .tc main_arg1)) shapeCasts_S4x512x1024_S4x1x524288 := by
  after_results; rfl

theorem mid_counts : StableHlo.after hostOps1 W (Proc.devRef .tc main_v3)
    = shapeCast S4x24 (W (Proc.devRef .tc main_v2_1)) shapeCasts_S4x1x24_S4x24 := by
  after_results; rfl
theorem mid_centres_dk : StableHlo.after hostOps1 W (Proc.devRef .tc main_v6)
    = Host.divf (F := Ideal) (s := S4x16x24) (φ := .f32) (W (Proc.devRef .tc main_v2_0))
        (broadcastInDim S4x16x24 ![0, 1, 2] bcast_S4x1x24_S4x16x24_0_1_2
          (broadcastInDim S4x1x24 ![0, 2] bcast_S4x24_S4x1x24_0_2
            (shapeCast S4x24 (W (Proc.devRef .tc main_v2_1)) shapeCasts_S4x1x24_S4x24))) := by
  after_results; rfl
theorem mid_centres : StableHlo.after hostOps1 W (Proc.devRef .tc main_v7)
    = transpose S4x24x16 [0, 2, 1] (StableHlo.after hostOps1 W (Proc.devRef .tc main_v6)) transposes_S4x16x24_S4x24x16_0_2_1 := by
  rw [mid_centres_dk]; after_results; rfl
theorem mid_keep_data : StableHlo.after hostOps1 W (Proc.devRef .tc main_v0) = W (Proc.devRef .tc main_v0) := by
  after_results
theorem mid_keep_labels : StableHlo.after hostOps1 W (Proc.devRef .tc main_v1) = W (Proc.devRef .tc main_v1) := by
  after_results

end Stretch

/-! ## Small arrays read at an index -/

/-- Dropping the unit axis of a [4, 1, 24] array. -/
theorem drop_unit_apply {α : Type} (y : S4x1x24.Idx → α) (b : Fin 4) (k : Fin 24) :
    shapeCast S4x24 y shapeCasts_S4x1x24_S4x24 (ix2 b k) = y (ix3 b (0 : Fin 1) k) := by
  refine shapeCast_apply y shapeCasts_S4x1x24_S4x24 (ix2 b k) (ix3 b (0 : Fin 1) k) ?_
  rewrite [Shape.rowMajor_val_three, Shape.rowMajor_val_two]
  show (b.val * 1 + 0) * 24 + k.val = b.val * 24 + k.val
  omega

/-- A [4, 24] array broadcast along a new middle axis of 16. -/
theorem along16_apply {α : Type} (y : S4x24.Idx → α) (b : Fin 4) (d : Fin 16) (k : Fin 24) :
    broadcastInDim S4x16x24 ![0, 1, 2] bcast_S4x1x24_S4x16x24_0_1_2
      (broadcastInDim S4x1x24 ![0, 2] bcast_S4x24_S4x1x24_0_2 y) (ix3 b d k) = y (ix2 b k) := by
  refine (broadcastInDim_apply _ bcast_S4x1x24_S4x16x24_0_1_2 _ (ix3 b d k) (ix3 b (0 : Fin 1) k) (fun a => match a with
    | ⟨0, _⟩ => by show b.val = if (4 : Nat) = 1 then 0 else b.val; rw [if_neg (by decide)]
    | ⟨1, _⟩ => by show 0 = if (1 : Nat) = 1 then 0 else d.val; rw [if_pos rfl]
    | ⟨2, _⟩ => by show k.val = if (24 : Nat) = 1 then 0 else k.val; rw [if_neg (by decide)])).trans ?_
  exact broadcastInDim_apply _ bcast_S4x24_S4x1x24_0_2 y (ix3 b (0 : Fin 1) k) (ix2 b k) (fun a => match a with
    | ⟨0, _⟩ => by show b.val = if (4 : Nat) = 1 then 0 else b.val; rw [if_neg (by decide)]
    | ⟨1, _⟩ => by show k.val = if (24 : Nat) = 1 then 0 else k.val; rw [if_neg (by decide)])

/-- The transpose of the last two axes of a [4, 16, 24] array. -/
theorem swap_apply {α : Type} (y : S4x16x24.Idx → α) (b : Fin 4) (k : Fin 24) (d : Fin 16) :
    transpose S4x24x16 [0, 2, 1] y transposes_S4x16x24_S4x24x16_0_2_1 (ix3 b k d) = y (ix3 b d k) :=
  transpose_apply [0, 2, 1] y transposes_S4x16x24_S4x24x16_0_2_1 (ix3 b k d) (ix3 b d k) (fun a => match a with
    | ⟨0, _⟩ => rfl
    | ⟨1, _⟩ => rfl
    | ⟨2, _⟩ => rfl)

/-- Merging the two pixel axes of the data array: point `n` is pixel `(n / 1024, n % 1024)`. -/
theorem merge_data_apply {α : Type} (y : S4x16x512x1024.Idx → α) (b : Fin 4) (d : Fin 16) (n : Fin 524288) :
    shapeCast S4x16x524288 y shapeCasts_S4x16x512x1024_S4x16x524288 (ix3 b d n)
      = y (ix4 b d ⟨n.val / 1024, pix_h n⟩ ⟨n.val % 1024, pix_w n⟩) := by
  refine shapeCast_apply y shapeCasts_S4x16x512x1024_S4x16x524288 (ix3 b d n)
    (ix4 b d ⟨n.val / 1024, pix_h n⟩ ⟨n.val % 1024, pix_w n⟩) ?_
  rewrite [Shape.rowMajor_val_four, Shape.rowMajor_val_three]
  have hn := n.isLt
  show ((b.val * 16 + d.val) * 512 + n.val / 1024) * 1024 + n.val % 1024 = (b.val * 16 + d.val) * 524288 + n.val
  omega

/-- Merging the two pixel axes of the label array (into a [4, 1, 524288] array). -/
theorem merge_labels_apply {α : Type} (y : S4x512x1024.Idx → α) (b : Fin 4) (n : Fin 524288) :
    shapeCast S4x1x524288 y shapeCasts_S4x512x1024_S4x1x524288 (ix3 b (0 : Fin 1) n)
      = y (ix3 b ⟨n.val / 1024, pix_h n⟩ ⟨n.val % 1024, pix_w n⟩) := by
  refine shapeCast_apply y shapeCasts_S4x512x1024_S4x1x524288 (ix3 b (0 : Fin 1) n)
    (ix3 b ⟨n.val / 1024, pix_h n⟩ ⟨n.val % 1024, pix_w n⟩) ?_
  rewrite [Shape.rowMajor_val_three, Shape.rowMajor_val_three]
  have hn := n.isLt
  show (b.val * 512 + n.val / 1024) * 1024 + n.val % 1024 = (b.val * 1 + 0) * 524288 + n.val
  omega

/-! ## The arrays the first call is entered with are the flattened arguments -/

section Entry
variable (m : (ℓ : Loc nD τ sig) → Buf (Elt Ideal) ℓ) (ρ : Dev nD → PrngReg)

theorem entry_data (c : Dev nD) (b : Fin 4) (d : Fin 16) (n : Fin 524288) :
    V1 (F := Ideal) m ρ c main_v0 (ix3 b d n) = dataAt (m ((c : Thread nD τ).loc main_arg0)) b d n := by
  show StableHlo.after hostOps0 (W0 (F := Ideal) m ρ c) (Proc.devRef .tc main_v0) (ix3 b d n) = _
  rw [pre_data]
  exact merge_data_apply _ b d n

theorem entry_labels (c : Dev nD) (b : Fin 4) (n : Fin 524288) :
    V1 (F := Ideal) m ρ c main_v1 (ix3 b (0 : Fin 1) n) = labAt (m ((c : Thread nD τ).loc main_arg1)) b n := by
  show StableHlo.after hostOps0 (W0 (F := Ideal) m ρ c) (Proc.devRef .tc main_v1) (ix3 b (0 : Fin 1) n) = _
  rw [pre_labels]
  exact merge_labels_apply _ b n

end Entry

end Cert.KernelIdeal.HostSide

end
-- ==== Proof.Stage1Tiles.lean ====
/-
  The sums over an image's 524288 points, cut into the 8 tiles of 65536 points the grid walks: point `n'` of tile `i`
  is point `65536·i + n'` of the image, and a sum over all points is the sum over the tiles of the sums over each
  tile's points.
-/
import proofs.«404660_j6433861009917_3_alg».proof.Proof.Spec
import Mathlib.Algebra.BigOperators.Fin
import Mathlib.Algebra.BigOperators.Group.Finset.Sigma

noncomputable section

open scoped BigOperators

namespace Cert.ClusterLoss

/-- Point `n` of tile `i` (taken modulo the image's size, so that it is a point for every `i`). -/
def pt (i : ℕ) (n : Fin 65536) : Fin 524288 := ⟨(65536 * i + n.val) % 524288, Nat.mod_lt _ (by decide)⟩

theorem pt_val (i : ℕ) (hi : i < 8) (n : Fin 65536) : (pt i n).val = 65536 * i + n.val := by
  have := n.isLt
  show (65536 * i + n.val) % 524288 = _
  omega

/-- An image's points are the pairs (tile, point of the tile). -/
def tileEquiv : Fin 8 × Fin 65536 ≃ Fin 524288 where
  toFun p := ⟨65536 * p.1.val + p.2.val, by have := p.1.isLt; have := p.2.isLt; omega⟩
  invFun N := (⟨N.val / 65536, by have := N.isLt; omega⟩, ⟨N.val % 65536, Nat.mod_lt _ (by decide)⟩)
  left_inv p := by
    have h1 := p.1.isLt; have h2 := p.2.isLt
    refine Prod.ext (Fin.ext ?_) (Fin.ext ?_)
    · show (65536 * p.1.val + p.2.val) / 65536 = p.1.val; omega
    · show (65536 * p.1.val + p.2.val) % 65536 = p.2.val; omega
  right_inv N := by
    refine Fin.ext ?_
    show 65536 * (N.val / 65536) + N.val % 65536 = N.val; omega

theorem tileEquiv_apply (i : Fin 8) (n : Fin 65536) : tileEquiv (i, n) = pt i.val n :=
  Fin.ext (pt_val i.val i.isLt n).symm

/-- A sum over an image's points, tile by tile. -/
theorem sum_tiles (g : Fin 524288 → EReal) : ∑ N : Fin 524288, g N = ∑ i ∈ Finset.range 8, ∑ n : Fin 65536, g (pt i n) := by
  rw [← Equiv.sum_comp tileEquiv g, Fintype.sum_prod_type, Finset.sum_range]
  exact Finset.sum_congr rfl fun i _ => Finset.sum_congr rfl fun n _ => by rw [tileEquiv_apply]

section
variable (X : Fin 4 → Fin 16 → Fin 524288 → EReal) (L : Fin 4 → Fin 524288 → BitVec 32)

/-- Tile `i`'s share of `sm`. -/
def smTile (b : Fin 4) (d : Fin 16) (k : Fin 24) (i : ℕ) : EReal :=
  ∑ n : Fin 65536, if L b (pt i n) = lw k then X b d (pt i n) else 0
/-- Tile `i`'s share of `cnt`. -/
def cntTile (b : Fin 4) (k : Fin 24) (i : ℕ) : EReal :=
  ∑ n : Fin 65536, if L b (pt i n) = lw k then (1 : EReal) else 0

theorem sm_eq_tiles (b : Fin 4) (d : Fin 16) (k : Fin 24) : sm X L b d k = ∑ i ∈ Finset.range 8, smTile X L b d k i :=
  sum_tiles fun N => if L b N = lw k then X b d N else 0
theorem cnt_eq_tiles (b : Fin 4) (k : Fin 24) : cnt L b k = ∑ i ∈ Finset.range 8, cntTile L b k i :=
  sum_tiles fun N => if L b N = lw k then (1 : EReal) else 0

end

end Cert.ClusterLoss

end
-- ==== Proof.Stage1Payload.lean ====
/-
  The first kernel body's arithmetic, read at an index over the extended reals. The one-hot block: row `k`, lane `n` is
  `1` where lane `n`'s label word is label `k`'s, else `0`. The sums update: entry `(0, d, k)` is what the block held
  plus the sum, over the tile's lanes that carry label `k`, of coordinate `d` of the data. The counts update: entry
  `(0, 0, k)` is what the block held plus the number of the tile's lanes that carry label `k` (a product of the
  one-hot block with a column of ones). The reset stores zero blocks.
-/
import proofs.«404660_j6433861009917_3_alg».proof.Proof.Gen.KernelIdeal.Skeleton
import proofs.«404660_j6433861009917_3_alg».proof.Proof.Spec
import Idealize.ShloMosaic.Lib.Pipeline.Value
import Idealize.ShloMosaic.PureOps.Ideal.Laws
import Idealize.ShloMosaic.Lib.ValueIdx

noncomputable section

open scoped BigOperators

namespace Cert.KernelIdeal.Stage1

open Idealize.ShloMosaic Idealize.ShloMosaic.ValueIdx
open Cert.KernelIdeal Cert.KernelIdeal.Gen

section Payload

open Cert.ClusterLoss (hot lw)

/-- One entry of the one-hot block as a word computation: the comparison bit, widened and converted, is `hot`. -/
theorem onehot_word (x : BitVec 32) (k : Fin 24) :
    FloatOps.sitofp (F := Ideal) .f32 ((IntOp.cmpi .eq x (BitVec.ofNat 32 k.val)).setWidth 32) = hot x k := by
  unfold Cert.ClusterLoss.hot
  show (((BitVec.setWidth 32 (BitVec.ofBool (x == BitVec.ofNat 32 k.val))).toInt : ℝ) : EReal) = _
  by_cases h : x = BitVec.ofNat 32 k.val
  · rw [if_pos h, show (x == BitVec.ofNat 32 k.val) = true from by rw [h]; exact beq_self_eq_true _,
      show (BitVec.setWidth 32 (BitVec.ofBool true)).toInt = 1 from by decide]
    simp
  · rw [if_neg h, show (x == BitVec.ofNat 32 k.val) = false from beq_eq_false_iff_ne.mpr h,
      show (BitVec.setWidth 32 (BitVec.ofBool false)).toInt = 0 from by decide]
    simp

/-- The one-hot block at an index: row `k`, lane `n` is `1` exactly where lane `n`'s label word is label `k`'s. -/
theorem onehot_apply (v5 : Vec Ideal S1x1x65536 .i32) (k : Fin 24) (n : Fin 65536) :
    k0_pay3 (F := Ideal) v5 (ix3 (0 : Fin 1) k n) = hot (v5 (ix3 (0 : Fin 1) (0 : Fin 1) n)) k := by
  unfold k0_pay3
  dsimp only
  have e9 : broadcastTo S1x24x65536 (shapeCast S1x1x65536 (shapeCast S1x65536 v5 shapeCasts_S1x1x65536_S1x65536)
      shapeCasts_S1x65536_S1x1x65536) broadcasts_S1x1x65536_S1x24x65536 (ix3 (0 : Fin 1) k n)
      = v5 (ix3 (0 : Fin 1) (0 : Fin 1) n) := by
    rw [shapeCast_shapeCast]
    exact broadcastTo_apply v5 _ (ix3 (0 : Fin 1) k n) (ix3 (0 : Fin 1) (0 : Fin 1) n) fun a => by
      match a with
      | ⟨0, _⟩ => rfl
      | ⟨1, _⟩ => rfl
      | ⟨2, _⟩ => rfl
  have e10 : broadcastTo S1x24x65536 (iota .tc S1x24x1 32 [1] iota_S1x24x1_d1_w32) broadcasts_S1x24x1_S1x24x65536
      (ix3 (0 : Fin 1) k n) = BitVec.ofNat 32 k.val := by
    refine (broadcastTo_apply _ _ (ix3 (0 : Fin 1) k n) (ix3 (0 : Fin 1) k (0 : Fin 1)) fun a => by
      match a with
      | ⟨0, _⟩ => rfl
      | ⟨1, _⟩ => rfl
      | ⟨2, _⟩ => rfl).trans ?_
    exact iota_single_apply .tc S1x24x1 32 1 iota_S1x24x1_d1_w32 (ix3 (0 : Fin 1) k (0 : Fin 1))
  show FloatOps.sitofp (F := Ideal) .f32 ((IntOp.cmpi .eq
    (broadcastTo S1x24x65536 (shapeCast S1x1x65536 (shapeCast S1x65536 v5 shapeCasts_S1x1x65536_S1x65536)
      shapeCasts_S1x65536_S1x1x65536) broadcasts_S1x1x65536_S1x24x65536 (ix3 (0 : Fin 1) k n))
    (broadcastTo S1x24x65536 (iota .tc S1x24x1 32 [1] iota_S1x24x1_d1_w32) broadcasts_S1x24x1_S1x24x65536
      (ix3 (0 : Fin 1) k n))).setWidth 32) = _
  rw [e9, e10]
  exact onehot_word _ k

end Payload

section Contraction

/-- The sums product's operand indices: output `(0, d, k)` at contraction position `n` reads the data block at `(0, d, n)` -/
theorem sums_lhsIdx (d : Fin 16) (k : Fin 24) (n : Fin 65536) :
    dot_S1x16x65536_S1x24x65536_S1x16x24_2_2_1_1_0_0.lhsIdx (ix3 (0 : Fin 1) d k)
      ((contrEquiv1 dot_S1x16x65536_S1x24x65536_S1x16x24_2_2_1_1_0_0 65536 rfl rfl).symm n) = ix3 (0 : Fin 1) d n := by
  funext ax; apply Fin.ext
  match ax with
  | ⟨0, _⟩ => simp [DotDims.lhsIdx, dot_S1x16x65536_S1x24x65536_S1x16x24_2_2_1_1_0_0]
  | ⟨1, _⟩ => simp [DotDims.lhsIdx, dot_S1x16x65536_S1x24x65536_S1x16x24_2_2_1_1_0_0]; rfl
  | ⟨2, _⟩ =>
    exact (DotDims.lhsIdx_val_of_single dot_S1x16x65536_S1x24x65536_S1x16x24_2_2_1_1_0_0 (cl := 2) rfl _ _).trans
      (contrEquiv1_symm_val dot_S1x16x65536_S1x24x65536_S1x16x24_2_2_1_1_0_0 65536 rfl rfl n)

/-- and the one-hot block at `(0, k, n)`. -/
theorem sums_rhsIdx (d : Fin 16) (k : Fin 24) (n : Fin 65536) :
    dot_S1x16x65536_S1x24x65536_S1x16x24_2_2_1_1_0_0.rhsIdx (ix3 (0 : Fin 1) d k)
      ((contrEquiv1 dot_S1x16x65536_S1x24x65536_S1x16x24_2_2_1_1_0_0 65536 rfl rfl).symm n) = ix3 (0 : Fin 1) k n := by
  funext ax; apply Fin.ext
  match ax with
  | ⟨0, _⟩ => simp [DotDims.rhsIdx, dot_S1x16x65536_S1x24x65536_S1x16x24_2_2_1_1_0_0]
  | ⟨1, _⟩ => simp [DotDims.rhsIdx, dot_S1x16x65536_S1x24x65536_S1x16x24_2_2_1_1_0_0]; rfl
  | ⟨2, _⟩ =>
    exact (DotDims.rhsIdx_val_of_single dot_S1x16x65536_S1x24x65536_S1x16x24_2_2_1_1_0_0 (cr := 2) rfl _ _).trans
      (contrEquiv1_symm_val dot_S1x16x65536_S1x24x65536_S1x16x24_2_2_1_1_0_0 65536 rfl rfl n)

/-- The counts product's left operand index: output `(0, k, 0)` at contraction position `n` reads the one-hot block at `(0, k, n)`. -/
theorem counts_lhsIdx (k : Fin 24) (n : Fin 65536) :
    dot_S1x24x65536_S1x65536x1_S1x24x1_2_1_1_2_0_0.lhsIdx (ix3 (0 : Fin 1) k (0 : Fin 1))
      ((contrEquiv1 dot_S1x24x65536_S1x65536x1_S1x24x1_2_1_1_2_0_0 65536 rfl rfl).symm n) = ix3 (0 : Fin 1) k n := by
  funext ax; apply Fin.ext
  match ax with
  | ⟨0, _⟩ => simp [DotDims.lhsIdx, dot_S1x24x65536_S1x65536x1_S1x24x1_2_1_1_2_0_0]
  | ⟨1, _⟩ => simp [DotDims.lhsIdx, dot_S1x24x65536_S1x65536x1_S1x24x1_2_1_1_2_0_0]; rfl
  | ⟨2, _⟩ =>
    exact (DotDims.lhsIdx_val_of_single dot_S1x24x65536_S1x65536x1_S1x24x1_2_1_1_2_0_0 (cl := 2) rfl _ _).trans
      (contrEquiv1_symm_val dot_S1x24x65536_S1x65536x1_S1x24x1_2_1_1_2_0_0 65536 rfl rfl n)

end Contraction

section PayloadAtIndex

open Cert.ClusterLoss (hot lw)

/-- The sums payload at `(0, d, k)`: what the block held there plus, over the tile's lanes, the data at `(0, d, n)` where
    lane `n` carries label `k`. -/
theorem sums_pay_apply (v3 : Vec Ideal S1x16x65536 .f32) (v5 : Vec Ideal S1x1x65536 .i32) (v19 : Vec Ideal S1x16x24 .f32)
    (d : Fin 16) (k : Fin 24) :
    k0_pay4 (F := Ideal) v3 v5 v19 (ix3 (0 : Fin 1) d k)
      = v19 (ix3 (0 : Fin 1) d k)
        + ∑ n : Fin 65536, if v5 (ix3 (0 : Fin 1) (0 : Fin 1) n) = lw k then v3 (ix3 (0 : Fin 1) d n) else 0 := by
  unfold k0_pay4
  rw [shapeCast_self, shapeCast_self]
  refine (addf_apply (s := S1x16x24) (φ := .f32) v19 _ (ix3 (0 : Fin 1) d k)).trans ?_
  refine congrArg (v19 (ix3 (0 : Fin 1) d k) + ·) ?_
  refine (Ideal.matmul_constant_zero_apply dot_S1x16x65536_S1x24x65536_S1x16x24_2_2_1_1_0_0 none _ _ (ix3 (0 : Fin 1) d k)).trans ?_
  rw [← Equiv.sum_comp (contrEquiv1 dot_S1x16x65536_S1x24x65536_S1x16x24_2_2_1_1_0_0 65536 rfl rfl).symm]
  refine Finset.sum_congr rfl fun n _ => ?_
  rw [sums_lhsIdx, sums_rhsIdx, onehot_apply]
  exact Cert.ClusterLoss.mul_hot _ _ _

end PayloadAtIndex

section CountsPayload

open Cert.ClusterLoss (hot lw)

/-- The word the counts product multiplies by is `1`. -/
theorem one_bf16 : Ideal.ofBits .bf16 0x3F80#16 = 1 := IdealRules.sign_bit.ideal_onePat .bf16

/-- The counts payload at `(0, 0, k)`: what the block held there plus the number of the tile's lanes that carry label `k`. -/
theorem counts_pay_apply (v5 : Vec Ideal S1x1x65536 .i32) (v23 : Vec Ideal S1x1x24 .f32) (k : Fin 24) :
    k0_pay5 (F := Ideal) v5 v23 (ix3 (0 : Fin 1) (0 : Fin 1) k)
      = v23 (ix3 (0 : Fin 1) (0 : Fin 1) k)
        + ∑ n : Fin 65536, if v5 (ix3 (0 : Fin 1) (0 : Fin 1) n) = lw k then (1 : EReal) else 0 := by
  unfold k0_pay5
  have e1 : shapeCast S1x24 v23 shapeCasts_S1x1x24_S1x24 (ix2 (0 : Fin 1) k) = v23 (ix3 (0 : Fin 1) (0 : Fin 1) k) :=
    shapeCast_apply v23 _ (ix2 (0 : Fin 1) k) (ix3 (0 : Fin 1) (0 : Fin 1) k) (by
      rw [Shape.rowMajor_val_three, Shape.rowMajor_val_two]
      show (0 * 1 + 0) * 24 + k.val = 0 * 24 + k.val
      omega)
  have e2 : ∀ M : FVec Ideal S1x24x1 .f32,
      shapeCast S1x24 M shapeCasts_S1x24x1_S1x24 (ix2 (0 : Fin 1) k) = M (ix3 (0 : Fin 1) k (0 : Fin 1)) := fun M =>
    shapeCast_apply M _ (ix2 (0 : Fin 1) k) (ix3 (0 : Fin 1) k (0 : Fin 1)) (by
      rw [Shape.rowMajor_val_three, Shape.rowMajor_val_two]
      show (0 * 24 + k.val) * 1 + 0 = 0 * 24 + k.val
      omega)
  refine (shapeCast_apply _ shapeCasts_S1x24_S1x1x24 (ix3 (0 : Fin 1) (0 : Fin 1) k) (ix2 (0 : Fin 1) k) (by
      rw [Shape.rowMajor_val_three, Shape.rowMajor_val_two]
      show 0 * 24 + k.val = (0 * 1 + 0) * 24 + k.val
      omega)).trans ?_
  refine (addf_apply (s := S1x24) (φ := .f32) _ _ (ix2 (0 : Fin 1) k)).trans ?_
  rw [e1, e2]
  refine congrArg (v23 (ix3 (0 : Fin 1) (0 : Fin 1) k) + ·) ?_
  refine (Ideal.matmul_constant_zero_apply dot_S1x24x65536_S1x65536x1_S1x24x1_2_1_1_2_0_0 none _ _
    (ix3 (0 : Fin 1) k (0 : Fin 1))).trans ?_
  rw [← Equiv.sum_comp (contrEquiv1 dot_S1x24x65536_S1x65536x1_S1x24x1_2_1_1_2_0_0 65536 rfl rfl).symm]
  refine Finset.sum_congr rfl fun n _ => ?_
  rw [counts_lhsIdx, onehot_apply]
  show hot (v5 (ix3 (0 : Fin 1) (0 : Fin 1) n)) k * Ideal.ofBits .bf16 0x3F80#16 = _
  rw [one_bf16, mul_one]
  rfl

/-- The two zero blocks the reset stores. -/
theorem zero_sums_apply (j : S1x16x24.Idx) : k0_pay1 (F := Ideal) j = 0 := Ideal.ofBits_zero_f32
theorem zero_counts_apply (k : Fin 24) : k0_pay2 (F := Ideal) (ix3 (0 : Fin 1) (0 : Fin 1) k) = 0 := by
  unfold k0_pay2
  refine (shapeCast_apply _ shapeCasts_S1x24_S1x1x24 (ix3 (0 : Fin 1) (0 : Fin 1) k) (ix2 (0 : Fin 1) k) (by
      rw [Shape.rowMajor_val_three, Shape.rowMajor_val_two]
      show 0 * 24 + k.val = (0 * 1 + 0) * 24 + k.val
      omega)).trans ?_
  exact Ideal.ofBits_zero_f32

end CountsPayload

end Cert.KernelIdeal.Stage1

end
-- ==== Proof.Stage1Pieces.lean ====
/-
  What one run of the first kernel body leaves in its two accumulator blocks, as the body's update applied to the
  blocks it loads: on an image's first tile the update of the zero block (the reset is stored first and read back), on
  every other tile the update of what the block held.
-/
import proofs.«404660_j6433861009917_3_alg».proof.Proof.Gen.KernelIdeal.Frame
import proofs.«404660_j6433861009917_3_alg».proof.Proof.Spec
import Idealize.ShloMosaic.Lib.Pipeline.Value
import Idealize.ShloMosaic.PureOps.Ideal.Laws
import Idealize.ShloMosaic.Lib.ValueIdx
import Idealize.ShloMosaic.Lib.Tactic

noncomputable section

open scoped BigOperators

namespace Cert.KernelIdeal.Stage1

open Idealize.ShloMosaic Idealize.ShloMosaic.TcCoe Idealize.SL.Sem Idealize.ShloMosaic.ValueIdx
open Idealize.ShloMosaic.Pipeline (Dat)
open Cert.KernelIdeal Cert.KernelIdeal.Gen

section Pieces
variable {F : FTy → Type} [FloatOps F]

theorem hz3 : (![0, 0, 0] : Fin 3 → Nat) = fun _ => 0 := funext fun a => by fin_cases a <;> rfl

/-- Off the first tile of an image the body leaves, in the sums block, what it held plus the tile's contribution. -/
theorem sums_B (c : Dev nD) (i : grid0.Coords) (arg2 : Memref sig .tc .vmem S1x16x65536 .f32) (harg2 : arg2.IsWhole)
    (arg3 : Memref sig .tc .vmem S1x1x65536 .i32) (harg3 : arg3.IsWhole) (arg4 : Memref sig .tc .vmem S1x16x24 .f32)
    (harg4 : arg4.IsWhole) (arg5 : Memref sig .tc .vmem S1x1x24 .f32) (harg5 : arg5.IsWhole) (hc0 : ¬cond0_0 i)
    (x0 : Vec F S1x16x65536 .f32) (x1 : Vec F S1x1x65536 .i32) (xo2 : Vec F S1x16x24 .f32) (xo3 : Vec F S1x1x24 .f32) :
    out0_B_2 c i arg2 harg2 arg3 harg3 arg4 harg4 arg5 harg5 hc0 x0 x1 xo2 xo3 = k0_pay4 x0 x1 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero hz3]
  simp only [View.readAt_eq_ld, harg2.read_unread, harg3.read_unread, harg4.read_unread,
    View.ld_unit_zero (S := S1x16x65536) hz3, View.ld_unit_zero (S := S1x1x65536) hz3, View.ld_unit_zero (S := S1x16x24) hz3]

/-- On the first tile of an image the sums block is reset first: the zero block plus the tile's contribution. -/
theorem sums_A (c : Dev nD) (i : grid0.Coords) (arg2 : Memref sig .tc .vmem S1x16x65536 .f32) (harg2 : arg2.IsWhole)
    (arg3 : Memref sig .tc .vmem S1x1x65536 .i32) (harg3 : arg3.IsWhole) (arg4 : Memref sig .tc .vmem S1x16x24 .f32)
    (harg4 : arg4.IsWhole) (arg5 : Memref sig .tc .vmem S1x1x24 .f32) (harg5 : arg5.IsWhole) (hc0 : cond0_0 i)
    (x0 : Vec F S1x16x65536 .f32) (x1 : Vec F S1x1x65536 .i32) :
    out0_A_2 c i arg2 harg2 arg3 harg3 arg4 harg4 arg5 harg5 hc0 x0 x1 = k0_pay4 x0 x1 (k0_pay1 (F := F)) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x16x24) hz3, View.readCov_unit_zero (S := S1x16x24) _ hz3]
  simp only [View.readAt_eq_ld, harg2.read_unread, harg3.read_unread,
    View.ld_unit_zero (S := S1x16x65536) hz3, View.ld_unit_zero (S := S1x1x65536) hz3]

/-- Off the first tile the counts block is what it held plus the tile's contribution. -/
theorem counts_B (c : Dev nD) (i : grid0.Coords) (arg2 : Memref sig .tc .vmem S1x16x65536 .f32) (harg2 : arg2.IsWhole)
    (arg3 : Memref sig .tc .vmem S1x1x65536 .i32) (harg3 : arg3.IsWhole) (arg4 : Memref sig .tc .vmem S1x16x24 .f32)
    (harg4 : arg4.IsWhole) (arg5 : Memref sig .tc .vmem S1x1x24 .f32) (harg5 : arg5.IsWhole) (hc0 : ¬cond0_0 i)
    (x0 : Vec F S1x16x65536 .f32) (x1 : Vec F S1x1x65536 .i32) (xo2 : Vec F S1x16x24 .f32) (xo3 : Vec F S1x1x24 .f32) :
    out0_B_3 c i arg2 harg2 arg3 harg3 arg4 harg4 arg5 harg5 hc0 x0 x1 xo2 xo3 = k0_pay5 x1 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero hz3]
  simp only [View.readAt_eq_ld, harg3.read_unread, harg5.read_unread,
    View.ld_unit_zero (S := S1x1x65536) hz3, View.ld_unit_zero (S := S1x1x24) hz3]

/-- On the first tile the counts block is reset first. -/
theorem counts_A (c : Dev nD) (i : grid0.Coords) (arg2 : Memref sig .tc .vmem S1x16x65536 .f32) (harg2 : arg2.IsWhole)
    (arg3 : Memref sig .tc .vmem S1x1x65536 .i32) (harg3 : arg3.IsWhole) (arg4 : Memref sig .tc .vmem S1x16x24 .f32)
    (harg4 : arg4.IsWhole) (arg5 : Memref sig .tc .vmem S1x1x24 .f32) (harg5 : arg5.IsWhole) (hc0 : cond0_0 i)
    (x0 : Vec F S1x16x65536 .f32) (x1 : Vec F S1x1x65536 .i32) :
    out0_A_3 c i arg2 harg2 arg3 harg3 arg4 harg4 arg5 harg5 hc0 x0 x1 = k0_pay5 x1 (k0_pay2 (F := F)) := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1x24) hz3, View.readCov_unit_zero (S := S1x1x24) _ hz3]
  simp only [View.readAt_eq_ld, harg3.read_unread, View.ld_unit_zero (S := S1x1x65536) hz3]

end Pieces

end Cert.KernelIdeal.Stage1

end
-- ==== Proof.Stage1Value.lean ====
/-
  What the first pallas_call leaves in its two result arrays, for ANY contents `V` of the TensorCore's buffers at its
  entry: with `X b d n` the data array `V c main_v0` at `(b, d, n)` and `L b n` the label array `V c main_v1` at
  `(b, 0, n)`, the sums array ends at `sm X L b d k` and the counts array at `cnt L b k`.

  Point `t = 8·b + i` of the grid reads tile `i` of image `b`: lane `n'` of its data and label blocks is point
  `65536·i + n'` of the image. After that point the two accumulator blocks hold, at label `k`, the sums of tiles
  `0 … i`'s shares (on tile 0 the blocks are reset first): by induction on the point. The blocks are written back
  after tile 7, when the shares add up to the sums over all of the image's points, into row `b` of the arrays; the four
  write-backs cover the arrays.
-/
import proofs.«404660_j6433861009917_3_alg».proof.Proof.Gen.KernelIdeal.Frame
import proofs.«404660_j6433861009917_3_alg».proof.Proof.Spec
import proofs.«404660_j6433861009917_3_alg».proof.Proof.Stage1Tiles
import proofs.«404660_j6433861009917_3_alg».proof.Proof.Stage1Payload
import proofs.«404660_j6433861009917_3_alg».proof.Proof.Stage1Pieces
import Idealize.ShloMosaic.Lib.Pipeline.Value
import Idealize.ShloMosaic.PureOps.Ideal.Laws
import Idealize.ShloMosaic.Lib.ValueIdx

noncomputable section

open scoped BigOperators

namespace Cert.KernelIdeal.Stage1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The data as the region finds it. -/
abbrev Xv (c : Dev nD) : Fin 4 → Fin 16 → Fin 524288 → EReal := fun b d n => V c main_v0 (ix3 b d n)
/-- The labels as the region finds them. -/
abbrev Lv (c : Dev nD) : Fin 4 → Fin 524288 → BitVec 32 := fun b n => V c main_v1 (ix3 b (0 : Fin 1) n)

open Cert.ClusterLoss (sm cnt smTile cntTile pt pt_val sm_eq_tiles cnt_eq_tiles lw)

/-! ## The blocks a point reads -/

/-- The block indices of the four windows at point `t`: image `t / 8`; tile `t % 8` for the data and the labels. -/
theorem idx_facts : ∀ t : Fin cfg0.N,
    win0_0.index t (0 : Fin 3) = t.val / 8 ∧ win0_0.index t (1 : Fin 3) = 0 ∧ win0_0.index t (2 : Fin 3) = t.val % 8
    ∧ win0_1.index t (0 : Fin 3) = t.val / 8 ∧ win0_1.index t (1 : Fin 3) = 0 ∧ win0_1.index t (2 : Fin 3) = t.val % 8
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

/-- The data block of point `t`. -/
abbrev xblk (c : Dev nD) (t : Fin cfg0.N) : Vec Ideal S1x16x65536 .f32 := iblk0 V c 0 t
/-- The label block of point `t`. -/
abbrev lblk (c : Dev nD) (t : Fin cfg0.N) : Vec Ideal S1x1x65536 .i32 := iblk0 V c 1 t

/-- Lane `n` of the data block of point `t` is point `65536·(t % 8) + n` of image `t / 8`. -/
theorem xblk_apply (c : Dev nD) (t : Fin cfg0.N) (d : Fin 16) (n : Fin 65536) (b : Fin 4) (N : Fin 524288)
    (hb : b.val = t.val / 8) (hN : N.val = 65536 * (t.val % 8) + n.val) :
    xblk V c t (ix3 (0 : Fin 1) d n) = Xv V c b d N := by
  obtain ⟨e0, e1, e2, -⟩ := idx_facts t
  unfold xblk iblk0
  rw [View.read_apply]
  show V c main_v0 _ = V c main_v0 (ix3 b d N)
  refine congrArg (V c main_v0) (funext fun a => Fin.ext ?_)
  match a with
  | ⟨0, _⟩ => show win0_0.index t (0 : Fin 3) * 1 + 1 * 0 = b.val; rw [e0, hb]; omega
  | ⟨1, _⟩ => show win0_0.index t (1 : Fin 3) * 16 + 1 * d.val = d.val; rw [e1]; omega
  | ⟨2, _⟩ => show win0_0.index t (2 : Fin 3) * 65536 + 1 * n.val = N.val; rw [e2, hN]; omega

/-- Lane `n` of the label block of point `t` likewise. -/
theorem lblk_apply (c : Dev nD) (t : Fin cfg0.N) (n : Fin 65536) (b : Fin 4) (N : Fin 524288)
    (hb : b.val = t.val / 8) (hN : N.val = 65536 * (t.val % 8) + n.val) :
    lblk V c t (ix3 (0 : Fin 1) (0 : Fin 1) n) = Lv V c b N := by
  obtain ⟨-, -, -, e0, e1, e2, -⟩ := idx_facts t
  unfold lblk iblk0
  rw [View.read_apply]
  show V c main_v1 _ = V c main_v1 (ix3 b (0 : Fin 1) N)
  refine congrArg (V c main_v1) (funext fun a => Fin.ext ?_)
  match a with
  | ⟨0, _⟩ => show win0_1.index t (0 : Fin 3) * 1 + 1 * 0 = b.val; rw [e0, hb]; omega
  | ⟨1, _⟩ => show win0_1.index t (1 : Fin 3) * 1 + 1 * 0 = 0; rw [e1]
  | ⟨2, _⟩ => show win0_1.index t (2 : Fin 3) * 65536 + 1 * n.val = N.val; rw [e2, hN]; omega

/-- The sums update's term at point `t` is tile `t % 8`'s share of `sm`. -/
theorem tile_sums (c : Dev nD) (t : Fin cfg0.N) (b : Fin 4) (hb : b.val = t.val / 8) (d : Fin 16) (k : Fin 24) :
    (∑ n : Fin 65536, if lblk V c t (ix3 (0 : Fin 1) (0 : Fin 1) n) = lw k then xblk V c t (ix3 (0 : Fin 1) d n) else 0)
      = smTile (Xv V c) (Lv V c) b d k (t.val % 8) := by
  unfold Cert.ClusterLoss.smTile
  refine Finset.sum_congr rfl fun n _ => ?_
  have hp := pt_val (t.val % 8) (Nat.mod_lt _ (by decide)) n
  rw [xblk_apply V c t d n b (pt (t.val % 8) n) hb hp, lblk_apply V c t n b (pt (t.val % 8) n) hb hp]

/-- The counts update's term at point `t` is tile `t % 8`'s share of `cnt`. -/
theorem tile_counts (c : Dev nD) (t : Fin cfg0.N) (b : Fin 4) (hb : b.val = t.val / 8) (k : Fin 24) :
    (∑ n : Fin 65536, if lblk V c t (ix3 (0 : Fin 1) (0 : Fin 1) n) = lw k then (1 : EReal) else 0)
      = cntTile (Lv V c) b k (t.val % 8) := by
  unfold Cert.ClusterLoss.cntTile
  refine Finset.sum_congr rfl fun n _ => ?_
  have hp := pt_val (t.val % 8) (Nat.mod_lt _ (by decide)) n
  rw [lblk_apply V c t n b (pt (t.val % 8) n) hb hp]

/-! ## What the accumulator blocks hold after each point -/

/-- On an image's first tile the sums block ends at the tile's term. -/
theorem sums_step_A (c : Dev nD) (t : Fin cfg0.N) (hA : t.val % 8 = 0) (d : Fin 16) (k : Fin 24) :
    (outsAt0 V c t.val t.isLt).1 (ix3 (0 : Fin 1) d k)
      = ∑ n : Fin 65536, if lblk V c t (ix3 (0 : Fin 1) (0 : Fin 1) n) = lw k then xblk V c t (ix3 (0 : Fin 1) d n) else 0 := by
  rw [outsAt0_A V c t hA]
  dsimp only
  refine (congrFun (sums_A (F := Ideal) c (grid0.coords t) (ms0_0 t) (hs0_0 t) (ms0_1 t) (hs0_1 t) (ms0_2 t) (hs0_2 t)
    (ms0_3 t) (hs0_3 t) ((hcond0_0 t).mpr hA) (xblk V c t) (lblk V c t)) (ix3 (0 : Fin 1) d k)).trans ?_
  refine (sums_pay_apply (xblk V c t) (lblk V c t) (k0_pay1 (F := Ideal)) d k).trans ?_
  rw [zero_sums_apply, zero_add]

/-- On every other tile it ends at what the point before left plus the tile's term. -/
theorem sums_step_B (c : Dev nD) (t : Fin cfg0.N) (hB : ¬t.val % 8 = 0) (d : Fin 16) (k : Fin 24) :
    (outsAt0 V c t.val t.isLt).1 (ix3 (0 : Fin 1) d k)
      = (outsAt0 V c (t.val - 1) (Nat.lt_of_le_of_lt (Nat.sub_le _ _) t.isLt)).1 (ix3 (0 : Fin 1) d k)
        + ∑ n : Fin 65536, if lblk V c t (ix3 (0 : Fin 1) (0 : Fin 1) n) = lw k then xblk V c t (ix3 (0 : Fin 1) d n) else 0 := by
  rw [outsAt0_B V c t hB]
  dsimp only
  refine (congrFun (sums_B (F := Ideal) c (grid0.coords t) (ms0_0 t) (hs0_0 t) (ms0_1 t) (hs0_1 t) (ms0_2 t) (hs0_2 t)
    (ms0_3 t) (hs0_3 t) (fun h => hB ((hcond0_0 t).mp h)) (xblk V c t) (lblk V c t)
    (outsAt0 V c (t.val - 1) (Nat.lt_of_le_of_lt (Nat.sub_le _ _) t.isLt)).1
    (outsAt0 V c (t.val - 1) (Nat.lt_of_le_of_lt (Nat.sub_le _ _) t.isLt)).2) (ix3 (0 : Fin 1) d k)).trans ?_
  exact sums_pay_apply (xblk V c t) (lblk V c t) _ d k

/-- The counts block, on an image's first tile -/
theorem counts_step_A (c : Dev nD) (t : Fin cfg0.N) (hA : t.val % 8 = 0) (k : Fin 24) :
    (outsAt0 V c t.val t.isLt).2 (ix3 (0 : Fin 1) (0 : Fin 1) k)
      = ∑ n : Fin 65536, if lblk V c t (ix3 (0 : Fin 1) (0 : Fin 1) n) = lw k then (1 : EReal) else 0 := by
  rw [outsAt0_A V c t hA]
  dsimp only
  refine (congrFun (counts_A (F := Ideal) c (grid0.coords t) (ms0_0 t) (hs0_0 t) (ms0_1 t) (hs0_1 t) (ms0_2 t) (hs0_2 t)
    (ms0_3 t) (hs0_3 t) ((hcond0_0 t).mpr hA) (xblk V c t) (lblk V c t)) (ix3 (0 : Fin 1) (0 : Fin 1) k)).trans ?_
  refine (counts_pay_apply (lblk V c t) (k0_pay2 (F := Ideal)) k).trans ?_
  rw [zero_counts_apply, zero_add]

/-- and on every other tile. -/
theorem counts_step_B (c : Dev nD) (t : Fin cfg0.N) (hB : ¬t.val % 8 = 0) (k : Fin 24) :
    (outsAt0 V c t.val t.isLt).2 (ix3 (0 : Fin 1) (0 : Fin 1) k)
      = (outsAt0 V c (t.val - 1) (Nat.lt_of_le_of_lt (Nat.sub_le _ _) t.isLt)).2 (ix3 (0 : Fin 1) (0 : Fin 1) k)
        + ∑ n : Fin 65536, if lblk V c t (ix3 (0 : Fin 1) (0 : Fin 1) n) = lw k then (1 : EReal) else 0 := by
  rw [outsAt0_B V c t hB]
  dsimp only
  refine (congrFun (counts_B (F := Ideal) c (grid0.coords t) (ms0_0 t) (hs0_0 t) (ms0_1 t) (hs0_1 t) (ms0_2 t) (hs0_2 t)
    (ms0_3 t) (hs0_3 t) (fun h => hB ((hcond0_0 t).mp h)) (xblk V c t) (lblk V c t)
    (outsAt0 V c (t.val - 1) (Nat.lt_of_le_of_lt (Nat.sub_le _ _) t.isLt)).1
    (outsAt0 V c (t.val - 1) (Nat.lt_of_le_of_lt (Nat.sub_le _ _) t.isLt)).2) (ix3 (0 : Fin 1) (0 : Fin 1) k)).trans ?_
  exact counts_pay_apply (lblk V c t) _ k

/-- After point `n` of image `b` the sums block holds, at `(0, d, k)`, the shares of tiles `0 … n % 8`. -/
theorem sums_at (c : Dev nD) : ∀ (n : ℕ) (h : n < cfg0.N) (b : Fin 4) (hb : b.val = n / 8) (d : Fin 16) (k : Fin 24),
    (outsAt0 V c n h).1 (ix3 (0 : Fin 1) d k) = ∑ i ∈ Finset.range (n % 8 + 1), smTile (Xv V c) (Lv V c) b d k i
  | 0, h, b, hb, d, k => by
    refine (sums_step_A V c ⟨0, h⟩ rfl d k).trans ?_
    refine (tile_sums V c ⟨0, h⟩ b hb d k).trans ?_
    exact (Finset.sum_range_one _).symm
  | n + 1, h, b, hb, d, k => by
    by_cases h0 : (n + 1) % 8 = 0
    · refine (sums_step_A V c ⟨n + 1, h⟩ h0 d k).trans ?_
      refine (tile_sums V c ⟨n + 1, h⟩ b hb d k).trans ?_
      show smTile (Xv V c) (Lv V c) b d k ((n + 1) % 8) = _
      rw [h0]
      exact (Finset.sum_range_one _).symm
    · have e : (n + 1) % 8 = n % 8 + 1 := by omega
      have hb' : b.val = n / 8 := by omega
      refine (sums_step_B V c ⟨n + 1, h⟩ h0 d k).trans ?_
      rw [e, Finset.sum_range_succ, ← sums_at c n (Nat.lt_of_succ_lt h) b hb' d k]
      refine congrArg₂ (· + ·) rfl ?_
      refine (tile_sums V c ⟨n + 1, h⟩ b hb d k).trans ?_
      show smTile (Xv V c) (Lv V c) b d k ((n + 1) % 8) = _
      rw [e]

/-- After point `n` of image `b` the counts block holds, at `(0, 0, k)`, the shares of tiles `0 … n % 8`. -/
theorem counts_at (c : Dev nD) : ∀ (n : ℕ) (h : n < cfg0.N) (b : Fin 4) (hb : b.val = n / 8) (k : Fin 24),
    (outsAt0 V c n h).2 (ix3 (0 : Fin 1) (0 : Fin 1) k) = ∑ i ∈ Finset.range (n % 8 + 1), cntTile (Lv V c) b k i
  | 0, h, b, hb, k => by
    refine (counts_step_A V c ⟨0, h⟩ rfl k).trans ?_
    refine (tile_counts V c ⟨0, h⟩ b hb k).trans ?_
    exact (Finset.sum_range_one _).symm
  | n + 1, h, b, hb, k => by
    by_cases h0 : (n + 1) % 8 = 0
    · refine (counts_step_A V c ⟨n + 1, h⟩ h0 k).trans ?_
      refine (tile_counts V c ⟨n + 1, h⟩ b hb k).trans ?_
      show cntTile (Lv V c) b k ((n + 1) % 8) = _
      rw [h0]
      exact (Finset.sum_range_one _).symm
    · have e : (n + 1) % 8 = n % 8 + 1 := by omega
      have hb' : b.val = n / 8 := by omega
      refine (counts_step_B V c ⟨n + 1, h⟩ h0 k).trans ?_
      rw [e, Finset.sum_range_succ, ← counts_at c n (Nat.lt_of_succ_lt h) b hb' k]
      refine congrArg₂ (· + ·) rfl ?_
      refine (tile_counts V c ⟨n + 1, h⟩ b hb k).trans ?_
      show cntTile (Lv V c) b k ((n + 1) % 8) = _
      rw [e]

/-! ## The write-backs and the arrays -/

/-- The sums array the region leaves. -/
abbrev sumsArr (c : Dev nD) : Buf (Elt Ideal) ((c : Thread nD τ).loc main_v2_0) :=
  fun j => sm (Xv V c) (Lv V c) (j 0) (j 1) (j 2)
/-- The counts array the region leaves. -/
abbrev countsArr (c : Dev nD) : Buf (Elt Ideal) ((c : Thread nD τ).loc main_v2_1) :=
  fun j => cnt (Lv V c) (j 0) (j 2)

/-- What a write-back of the sums block writes (after tile 7 of image `t / 8`) is row `t / 8` of the sums array. -/
theorem sums_flushed (c : Dev nD) (t : Fin cfg0.N) (hf : (cfg0.win 2).flush t = true) :
    (dat0 V c).flushed 2 t = ((cfg0.win 2).blk t).view.read (Elt Ideal) (sumsArr V c) := by
  have hN : cfg0.N = 32 := N_0
  have h7 : t.val % 8 = 7 := (flush0_2 t).mp hf
  have ht := t.isLt
  obtain ⟨-, -, -, -, -, -, e0, e1, e2, -⟩ := idx_facts t
  show (cfg0.win 2).cut (grid0.coords t) ((dat0 V c).after 2 t) = _
  rw [after0_2]
  have key : ∀ y : S1x16x24.Idx,
      (outsAt0 V c t.val t.isLt).1 y = sumsArr V c (((cfg0.win 2).blk t).view.emb y) := by
    intro y
    obtain ⟨y0, d, k, rfl⟩ : ∃ (y0 : Fin 1) (d : Fin 16) (k : Fin 24), y = ix3 y0 d k := ⟨y 0, y 1, y 2, eq_ix3 y⟩
    obtain rfl : y0 = 0 := Subsingleton.elim _ _
    have hE : ((cfg0.win 2).blk t).view.emb (ix3 (0 : Fin 1) d k)
        = (ix3 (⟨t.val / 8, by omega⟩ : Fin 4) d k : S4x16x24.Idx) :=
      funext fun a => Fin.ext (by
        match a with
        | ⟨0, _⟩ => show win0_2.index t (0 : Fin 3) * 1 + 1 * 0 = t.val / 8; rw [e0]; omega
        | ⟨1, _⟩ => show win0_2.index t (1 : Fin 3) * 16 + 1 * d.val = d.val; rw [e1]; omega
        | ⟨2, _⟩ => show win0_2.index t (2 : Fin 3) * 24 + 1 * k.val = k.val; rw [e2]; omega)
    rw [hE]
    show _ = sm (Xv V c) (Lv V c) (⟨t.val / 8, by omega⟩ : Fin 4) d k
    rw [sm_eq_tiles, sums_at V c t.val t.isLt ⟨t.val / 8, by omega⟩ rfl d k, h7]
  funext y
  rw [View.read_apply]
  have hc : ∀ z : EReal, (cast (congrArg (Elt Ideal) ((cfg0.win 2).blk t).view.elt_eq) z : EReal) = z := fun z => rfl
  exact (key y).trans (hc _).symm

/-- What a write-back of the counts block writes is row `t / 8` of the counts array. -/
theorem counts_flushed (c : Dev nD) (t : Fin cfg0.N) (hf : (cfg0.win 3).flush t = true) :
    (dat0 V c).flushed 3 t = ((cfg0.win 3).blk t).view.read (Elt Ideal) (countsArr V c) := by
  have hN : cfg0.N = 32 := N_0
  have h7 : t.val % 8 = 7 := (flush0_3 t).mp hf
  have ht := t.isLt
  obtain ⟨-, -, -, -, -, -, -, -, -, e0, e1, e2⟩ := idx_facts t
  show (cfg0.win 3).cut (grid0.coords t) ((dat0 V c).after 3 t) = _
  rw [after0_3]
  have key : ∀ y : S1x1x24.Idx,
      (outsAt0 V c t.val t.isLt).2 y = countsArr V c (((cfg0.win 3).blk t).view.emb y) := by
    intro y
    obtain ⟨y0, y1, k, rfl⟩ : ∃ (y0 : Fin 1) (y1 : Fin 1) (k : Fin 24), y = ix3 y0 y1 k := ⟨y 0, y 1, y 2, eq_ix3 y⟩
    obtain rfl : y0 = 0 := Subsingleton.elim _ _
    obtain rfl : y1 = 0 := Subsingleton.elim _ _
    have hE : ((cfg0.win 3).blk t).view.emb (ix3 (0 : Fin 1) (0 : Fin 1) k)
        = (ix3 (⟨t.val / 8, by omega⟩ : Fin 4) (0 : Fin 1) k : S4x1x24.Idx) :=
      funext fun a => Fin.ext (by
        match a with
        | ⟨0, _⟩ => show win0_3.index t (0 : Fin 3) * 1 + 1 * 0 = t.val / 8; rw [e0]; omega
        | ⟨1, _⟩ => show win0_3.index t (1 : Fin 3) * 1 + 1 * 0 = 0; rw [e1]
        | ⟨2, _⟩ => show win0_3.index t (2 : Fin 3) * 24 + 1 * k.val = k.val; rw [e2]; omega)
    rw [hE]
    show _ = cnt (Lv V c) (⟨t.val / 8, by omega⟩ : Fin 4) k
    rw [cnt_eq_tiles, counts_at V c t.val t.isLt ⟨t.val / 8, by omega⟩ rfl k, h7]
  funext y
  rw [View.read_apply]
  have hc : ∀ z : EReal, (cast (congrArg (Elt Ideal) ((cfg0.win 3).blk t).view.elt_eq) z : EReal) = z := fun z => rfl
  exact (key y).trans (hc _).symm

/-- Row `b` of the sums array is written back after the last tile of image `b`. -/
theorem sums_cover (i : S4x16x24.Idx) :
    ∃ t : Fin cfg0.N, (cfg0.win 2).flush t = true ∧ i ∈ ((cfg0.win 2).blk t).view.set := by
  have hN : cfg0.N = 32 := N_0
  have h0 : (i 0 : Nat) < 4 := (i 0).isLt
  have h1 : (i 1 : Nat) < 16 := (i 1).isLt
  have h2 : (i 2 : Nat) < 24 := (i 2).isLt
  obtain ⟨t, ht⟩ : ∃ t : Fin cfg0.N, t.val = 8 * (i 0 : Nat) + 7 := ⟨⟨8 * (i 0 : Nat) + 7, by omega⟩, rfl⟩
  obtain ⟨-, -, -, -, -, -, e0, e1, e2, -⟩ := idx_facts t
  refine ⟨t, (flush0_2 t).mpr (by omega), ?_⟩
  show i ∈ ((View.whole main_v2_0).slice (win0_2.rect t)).set
  rw [View.set_slice_whole, Rect.mem_set_unit]
  intro a
  match a with
  | ⟨0, _⟩ =>
    show win0_2.index t (0 : Fin 3) * 1 ≤ (i 0 : Nat) ∧ (i 0 : Nat) < win0_2.index t (0 : Fin 3) * 1 + 1
    rw [e0]; omega
  | ⟨1, _⟩ =>
    show win0_2.index t (1 : Fin 3) * 16 ≤ (i 1 : Nat) ∧ (i 1 : Nat) < win0_2.index t (1 : Fin 3) * 16 + 16
    rw [e1]; omega
  | ⟨2, _⟩ =>
    show win0_2.index t (2 : Fin 3) * 24 ≤ (i 2 : Nat) ∧ (i 2 : Nat) < win0_2.index t (2 : Fin 3) * 24 + 24
    rw [e2]; omega

/-- Row `b` of the counts array likewise. -/
theorem counts_cover (i : S4x1x24.Idx) :
    ∃ t : Fin cfg0.N, (cfg0.win 3).flush t = true ∧ i ∈ ((cfg0.win 3).blk t).view.set := by
  have hN : cfg0.N = 32 := N_0
  have h0 : (i 0 : Nat) < 4 := (i 0).isLt
  have h1 : (i 1 : Nat) < 1 := (i 1).isLt
  have h2 : (i 2 : Nat) < 24 := (i 2).isLt
  obtain ⟨t, ht⟩ : ∃ t : Fin cfg0.N, t.val = 8 * (i 0 : Nat) + 7 := ⟨⟨8 * (i 0 : Nat) + 7, by omega⟩, rfl⟩
  obtain ⟨-, -, -, -, -, -, -, -, -, e0, e1, e2⟩ := idx_facts t
  refine ⟨t, (flush0_3 t).mpr (by omega), ?_⟩
  show i ∈ ((View.whole main_v2_1).slice (win0_3.rect t)).set
  rw [View.set_slice_whole, Rect.mem_set_unit]
  intro a
  match a with
  | ⟨0, _⟩ =>
    show win0_3.index t (0 : Fin 3) * 1 ≤ (i 0 : Nat) ∧ (i 0 : Nat) < win0_3.index t (0 : Fin 3) * 1 + 1
    rw [e0]; omega
  | ⟨1, _⟩ =>
    show win0_3.index t (1 : Fin 3) * 1 ≤ (i 1 : Nat) ∧ (i 1 : Nat) < win0_3.index t (1 : Fin 3) * 1 + 1
    rw [e1]; omega
  | ⟨2, _⟩ =>
    show win0_3.index t (2 : Fin 3) * 24 ≤ (i 2 : Nat) ∧ (i 2 : Nat) < win0_3.index t (2 : Fin 3) * 24 + 24
    rw [e2]; omega

theorem sums_final (c : Dev nD) (b : Fin 4) (d : Fin 16) (k : Fin 24) :
    (dat0 (F := Ideal) V c).arrAt 2 cfg0.N (ix3 b d k) = Cert.ClusterLoss.sm (Xv V c) (Lv V c) b d k :=
  congrFun ((dat0 (F := Ideal) V c).arrAt_eq_of_cover 2 (sumsArr V c) (sums_flushed V c) sums_cover) (ix3 b d k)

theorem counts_final (c : Dev nD) (b : Fin 4) (k : Fin 24) :
    (dat0 (F := Ideal) V c).arrAt 3 cfg0.N (ix3 b (0 : Fin 1) k) = Cert.ClusterLoss.cnt (Lv V c) b k :=
  congrFun ((dat0 (F := Ideal) V c).arrAt_eq_of_cover 3 (countsArr V c) (counts_flushed V c) counts_cover) (ix3 b (0 : Fin 1) k)

end Cert.KernelIdeal.Stage1

end
-- ==== Proof.Stage2Piece.lean ====
/-
  What each control case of the second call's body leaves in the output's staging buffer, for any float values:
  at the first tile of an image the body stores the zero block and then the update computed over that zero block;
  at every other tile it stores the update computed over what the buffer held.
-/
import proofs.«404660_j6433861009917_3_alg».proof.Proof.Gen.KernelIdeal.Frame
import Idealize.ShloMosaic.Lib.Pipeline.Value
import Idealize.ShloMosaic.Lib.Tactic

noncomputable section

namespace Cert.KernelIdeal.Stage2

open Idealize.ShloMosaic Idealize.ShloMosaic.TcCoe Idealize.SL.Sem
open Idealize.ShloMosaic.Pipeline (Dat)
open Cert.KernelIdeal Cert.KernelIdeal.Gen

variable {F : FTy → Type} [FloatOps F]

theorem hz3 : (![0, 0, 0] : Fin 3 → Nat) = fun _ => 0 := funext fun a => by fin_cases a <;> rfl

/-- A later tile: the one store's payload, over the buffer's running contents `xo`. -/
theorem out_B (c : Dev nD) (i : grid1.Coords) (a2 : Memref sig .tc .vmem S1x16x65536 .f32) (h2 : a2.IsWhole)
    (a3 : Memref sig .tc .vmem S1x1x65536 .i32) (h3 : a3.IsWhole) (a4 : Memref sig .tc .vmem S1x16x24 .f32) (h4 : a4.IsWhole)
    (a5 : Memref sig .tc .vmem S1x1x24 .f32) (h5 : a5.IsWhole) (hc : ¬cond1_0 i)
    (x0 : Vec F S1x16x65536 .f32) (x1 : Vec F S1x1x65536 .i32) (x2 : Vec F S1x16x24 .f32) (xo : Vec F S1x1x24 .f32) :
    out1_B_3 c i a2 h2 a3 h3 a4 h4 a5 h5 hc x0 x1 x2 xo = k1_pay1 (k1_pay3 x0 x1 x2 xo) := by
  unfold out1_B_3
  rw [View.read_writes_eq_canon _ _ _ (cover1_B_3 c i a2 h2 a3 h3 a4 h4 a5 h5 hc x0 x1 x2 xo)]
  unfold kernelRun1_B
  dsimp only
  sl_unfold_words
  rw [View.canon_unit_zero (S := S1x1x24) hz3]
  simp only [View.readAt_eq_ld, h2.read_unread, h3.read_unread, h4.read_unread, h5.read_unread,
    View.ld_unit_zero (S := S1x16x65536) hz3, View.ld_unit_zero (S := S1x1x65536) hz3,
    View.ld_unit_zero (S := S1x16x24) hz3, View.ld_unit_zero (S := S1x1x24) hz3]

/-- The first tile: the reset's zero block, then the update over it read back. -/
theorem out_A (c : Dev nD) (i : grid1.Coords) (a2 : Memref sig .tc .vmem S1x16x65536 .f32) (h2 : a2.IsWhole)
    (a3 : Memref sig .tc .vmem S1x1x65536 .i32) (h3 : a3.IsWhole) (a4 : Memref sig .tc .vmem S1x16x24 .f32) (h4 : a4.IsWhole)
    (a5 : Memref sig .tc .vmem S1x1x24 .f32) (h5 : a5.IsWhole) (hc : cond1_0 i)
    (x0 : Vec F S1x16x65536 .f32) (x1 : Vec F S1x1x65536 .i32) (x2 : Vec F S1x16x24 .f32) :
    out1_A_3 c i a2 h2 a3 h3 a4 h4 a5 h5 hc x0 x1 x2 = k1_pay1 (k1_pay3 x0 x1 x2 (k1_pay2 (F := F))) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x1x24) hz3, View.readCov_unit_zero (S := S1x1x24) _ hz3]
  simp only [View.readAt_eq_ld, h2.read_unread, h3.read_unread, h4.read_unread,
    View.ld_unit_zero (S := S1x16x65536) hz3, View.ld_unit_zero (S := S1x1x65536) hz3,
    View.ld_unit_zero (S := S1x16x24) hz3]

end Cert.KernelIdeal.Stage2

end
-- ==== Proof.Stage2Pay.lean ====
/-
  The second call's update read at a label, at the ideal values. For a tile's data block `v3`, label block `v5` and
  centres block `v7`: the one-hot block is `hot` of the point's label word; the centres block times it is the centre
  of the point's own label; the lane sum of the squared differences is the squared distance; the pointwise chain is
  its hinged square; and the one-hot block times that column is the sum over the tile's points that carry the label.
  The stored block is that sum added to what the buffer held — to zero at an image's first tile. Last, the tile's sum
  in the specification's words, and an image's points as its eight tiles.
-/
import proofs.«404660_j6433861009917_3_alg».proof.Proof.Gen.KernelIdeal.Skeleton
import proofs.«404660_j6433861009917_3_alg».proof.Proof.Spec
import Idealize.ShloMosaic.Lib.Pipeline.Value
import Idealize.ShloMosaic.Lib.ValueLayout
import Idealize.ShloMosaic.PureOps.Ideal.Laws
import Idealize.ShloMosaic.Lib.ValueIdx

noncomputable section

open scoped BigOperators

namespace Cert.KernelIdeal.Stage2

open Idealize.ShloMosaic Idealize.ShloMosaic.ValueIdx
open Cert.KernelIdeal Cert.KernelIdeal.Gen
open Cert.ClusterLoss (hot lw mul_hot hot_mul)

/-- The centres-by-one-hot product's dimension numbers. -/
abbrev D1 : DotDims S1x16x24 S1x24x65536 S1x16x65536 := dot_S1x16x24_S1x24x65536_S1x16x65536_2_1_1_2_0_0
/-- The one-hot-by-hinge product's dimension numbers. -/
abbrev D2 : DotDims S1x24x65536 S1x65536x1 S1x24x1 := dot_S1x24x65536_S1x65536x1_S1x24x1_2_1_1_2_0_0

theorem lhs_D1_1 (j : S1x16x65536.Idx) (q : D1.contr.Idx) : (D1.lhsIdx j q 1 : ℕ) = j 1 := by
  simp [DotDims.lhsIdx, D1, dot_S1x16x24_S1x24x65536_S1x16x65536_2_1_1_2_0_0]; rfl
theorem lhs_D1_2 (j : S1x16x65536.Idx) (q : D1.contr.Idx) : (D1.lhsIdx j q 2 : ℕ) = q ⟨0, by decide⟩ := by
  simp [DotDims.lhsIdx, D1, dot_S1x16x24_S1x24x65536_S1x16x65536_2_1_1_2_0_0]; rfl
theorem rhs_D1_1 (j : S1x16x65536.Idx) (q : D1.contr.Idx) : (D1.rhsIdx j q 1 : ℕ) = q ⟨0, by decide⟩ := by
  simp [DotDims.rhsIdx, D1, dot_S1x16x24_S1x24x65536_S1x16x65536_2_1_1_2_0_0]; rfl
theorem rhs_D1_2 (j : S1x16x65536.Idx) (q : D1.contr.Idx) : (D1.rhsIdx j q 2 : ℕ) = j 2 := by
  simp [DotDims.rhsIdx, D1, dot_S1x16x24_S1x24x65536_S1x16x65536_2_1_1_2_0_0]; rfl

theorem lhs_D2_1 (j : S1x24x1.Idx) (q : D2.contr.Idx) : (D2.lhsIdx j q 1 : ℕ) = j 1 := by
  simp [DotDims.lhsIdx, D2, dot_S1x24x65536_S1x65536x1_S1x24x1_2_1_1_2_0_0]; rfl
theorem lhs_D2_2 (j : S1x24x1.Idx) (q : D2.contr.Idx) : (D2.lhsIdx j q 2 : ℕ) = q ⟨0, by decide⟩ := by
  simp [DotDims.lhsIdx, D2, dot_S1x24x65536_S1x65536x1_S1x24x1_2_1_1_2_0_0]; rfl
theorem rhs_D2_1 (j : S1x24x1.Idx) (q : D2.contr.Idx) : (D2.rhsIdx j q 1 : ℕ) = q ⟨0, by decide⟩ := by
  simp [DotDims.rhsIdx, D2, dot_S1x24x65536_S1x65536x1_S1x24x1_2_1_1_2_0_0]; rfl

/-- Two indices of a [1, a, b] shape are equal when their last two coordinates are. -/
theorem idx3_ext {a b : ℕ} {x y : (⟨3, ![1, a, b]⟩ : Shape).Idx} (h1 : (x 1 : ℕ) = y 1) (h2 : (x 2 : ℕ) = y 2) : x = y :=
  funext fun d => match d with
    | ⟨0, _⟩ => Subsingleton.elim (α := Fin 1) _ _
    | ⟨1, _⟩ => Fin.ext h1
    | ⟨2, _⟩ => Fin.ext h2

/-- Two indices of a [1, a, 1] shape are equal when their middle coordinates are. -/
theorem idx3_ext_mid {a : ℕ} {x y : (⟨3, ![1, a, 1]⟩ : Shape).Idx} (h1 : (x 1 : ℕ) = y 1) : x = y :=
  funext fun d => match d with
    | ⟨0, _⟩ => Subsingleton.elim (α := Fin 1) _ _
    | ⟨1, _⟩ => Fin.ext h1
    | ⟨2, _⟩ => Subsingleton.elim (α := Fin 1) _ _

/-- The centres block times the one-hot block, at coordinate `d` of point `n`: the sum over the labels. -/
theorem mm1_apply (A : FVec Ideal S1x16x24 .bf16) (B : FVec Ideal S1x24x65536 .bf16) (d : Fin 16) (n : Fin 65536) :
    matmul D1 none A B (constant (F := Ideal) S1x16x65536 .f32 0x00000000#32) (ix3 (0 : Fin 1) d n)
      = ∑ k : Fin 24, A (ix3 (0 : Fin 1) d k) * B (ix3 (0 : Fin 1) k n) := by
  refine (Ideal.matmul_constant_zero_apply D1 none A B (ix3 (0 : Fin 1) d n)).trans ?_
  rw [← Equiv.sum_comp (contrEquiv1 D1 24 rfl rfl).symm]
  refine Finset.sum_congr rfl fun k _ => ?_
  have eL : D1.lhsIdx (ix3 (0 : Fin 1) d n) ((contrEquiv1 D1 24 rfl rfl).symm k) = ix3 (0 : Fin 1) d k :=
    idx3_ext (lhs_D1_1 _ _) ((lhs_D1_2 _ _).trans (contrEquiv1_symm_val D1 24 rfl rfl k))
  have eR : D1.rhsIdx (ix3 (0 : Fin 1) d n) ((contrEquiv1 D1 24 rfl rfl).symm k) = ix3 (0 : Fin 1) k n :=
    idx3_ext ((rhs_D1_1 _ _).trans (contrEquiv1_symm_val D1 24 rfl rfl k)) (rhs_D1_2 _ _)
  rw [eL, eR]

/-- The one-hot block times the column of hinge values, at label `k`: the sum over the tile's points. -/
theorem mm2_apply (A : FVec Ideal S1x24x65536 .bf16) (B : FVec Ideal S1x65536x1 .bf16) (k : Fin 24) :
    matmul D2 none A B (constant (F := Ideal) S1x24x1 .f32 0x00000000#32) (ix3 (0 : Fin 1) k (0 : Fin 1))
      = ∑ n : Fin 65536, A (ix3 (0 : Fin 1) k n) * B (ix3 (0 : Fin 1) n (0 : Fin 1)) := by
  refine (Ideal.matmul_constant_zero_apply D2 none A B (ix3 (0 : Fin 1) k (0 : Fin 1))).trans ?_
  rw [← Equiv.sum_comp (contrEquiv1 D2 65536 rfl rfl).symm]
  refine Finset.sum_congr rfl fun n _ => ?_
  have eL : D2.lhsIdx (ix3 (0 : Fin 1) k (0 : Fin 1)) ((contrEquiv1 D2 65536 rfl rfl).symm n) = ix3 (0 : Fin 1) k n :=
    idx3_ext (lhs_D2_1 _ _) ((lhs_D2_2 _ _).trans (contrEquiv1_symm_val D2 65536 rfl rfl n))
  have eR : D2.rhsIdx (ix3 (0 : Fin 1) k (0 : Fin 1)) ((contrEquiv1 D2 65536 rfl rfl).symm n) = ix3 (0 : Fin 1) n (0 : Fin 1) :=
    idx3_ext_mid ((rhs_D2_1 _ _).trans (contrEquiv1_symm_val D2 65536 rfl rfl n))
  rw [eL, eR]

/-- The sum over the 16 coordinates, at point `n`. -/
theorem laneSum_apply (src : FVec Ideal S1x16x65536 .f32) (h : S1x16x65536.Reduces [1] S1x65536) (hφ : FKind.Formats .f32)
    (hacc : (0x00000000#32 : BitVec 32) = FKind.add.neutral .f32 hφ) (n : Fin 65536) :
    multiReduction (F := Ideal) .add [1] S1x65536 src 0x00000000#32 h hφ hacc (ix2 (0 : Fin 1) n)
      = ∑ d : Fin 16, src (ix3 (0 : Fin 1) d n) := by
  refine (Ideal.multiReduction_add_single src _ h hφ hacc (ix2 (0 : Fin 1) n)).trans ?_
  refine Finset.sum_congr rfl fun d _ => congrArg src ?_
  funext a
  match a with
  | ⟨0, _⟩ => rfl
  | ⟨1, _⟩ => rfl
  | ⟨2, _⟩ => rfl

/-- A one-hot entry as the kernel builds it: the comparison's bit, widened, converted, narrowed. -/
theorem onehot_core (a b : IVec S1x24x65536 32) (hlt : 1 < 32) (hbits : FTy.bits .bf16 < FTy.bits .f32) (j : S1x24x65536.Idx)
    (w : BitVec 32) (k : Fin 24) (ha : a j = w) (hb : b j = BitVec.ofNat 32 k.val) :
    (truncf .bf16 (sitofp (F := Ideal) .f32 (extui 32 (cmpi .eq a b) hlt)) hbits : FVec Ideal S1x24x65536 .bf16) j = hot w k := by
  show ((((IntOp.cmpi .eq (a j) (b j)).setWidth 32).toInt : ℝ) : EReal) = hot w k
  rw [ha, hb]
  unfold hot
  by_cases h : w = lw k
  · rw [if_pos h, h]; simp [IntOp.cmpi]
  · rw [if_neg h]
    have h' : (w == BitVec.ofNat 32 k.val) = false := by simpa using h
    simp [IntOp.cmpi, h']

/-- The one-hot block at label `k` and point `n` of the tile: `1` where the point carries the label. -/
theorem onehot_apply (v5 : Vec Ideal S1x1x65536 .i32) (h1 : S1x1x65536.ShapeCasts S1x65536) (h2 : S1x65536.ShapeCasts S1x1x65536)
    (hb1 : S1x1x65536.Broadcasts S1x24x65536) (hb2 : S1x24x1.Broadcasts S1x24x65536) (hi : S1x24x1.Iotas .tc 32 [1])
    (hlt : 1 < 32) (hbits : FTy.bits .bf16 < FTy.bits .f32) (k : Fin 24) (n : Fin 65536) :
    (truncf .bf16 (sitofp (F := Ideal) .f32 (extui 32 (cmpi .eq
        (broadcastTo S1x24x65536 (shapeCast S1x1x65536 (shapeCast S1x65536 v5 h1) h2) hb1)
        (broadcastTo S1x24x65536 (iota .tc S1x24x1 32 [1] hi) hb2)) hlt)) hbits : FVec Ideal S1x24x65536 .bf16) (ix3 (0 : Fin 1) k n)
      = hot (v5 (ix3 (0 : Fin 1) (0 : Fin 1) n)) k := by
  refine onehot_core _ _ hlt hbits _ _ k ?_ ?_
  · rw [shapeCast_shapeCast]
    exact broadcastTo_apply v5 hb1 _ _ (fun a => match a with | ⟨0, _⟩ => rfl | ⟨1, _⟩ => rfl | ⟨2, _⟩ => rfl)
  · refine (broadcastTo_apply _ hb2 _ (ix3 (0 : Fin 1) k (0 : Fin 1))
      (fun a => match a with | ⟨0, _⟩ => rfl | ⟨1, _⟩ => rfl | ⟨2, _⟩ => rfl)).trans ?_
    exact iota_single_apply .tc S1x24x1 32 1 hi _

section Tile
variable (v3 : Vec Ideal S1x16x65536 .f32) (v5 : Vec Ideal S1x1x65536 .i32) (v7 : Vec Ideal S1x16x24 .f32)

/-- Coordinate `d` of the centre of the label that point `n` of the tile carries. -/
def ownT (d : Fin 16) (n : Fin 65536) : EReal :=
  ∑ k : Fin 24, v7 (ix3 (0 : Fin 1) d k) * hot (v5 (ix3 (0 : Fin 1) (0 : Fin 1) n)) k
/-- The squared distance of point `n` of the tile to that centre. -/
def dist2T (n : Fin 65536) : EReal :=
  ∑ d : Fin 16, (v3 (ix3 (0 : Fin 1) d n) - ownT v5 v7 d n) * (v3 (ix3 (0 : Fin 1) d n) - ownT v5 v7 d n)
/-- Its hinged square. -/
def hingeT (n : Fin 65536) : EReal :=
  max (Ideal.sqrt (dist2T v3 v5 v7 n) - Ideal.ofBits .f32 0x3F800000#32) (Ideal.ofBits .f32 0x00000000#32)
    * max (Ideal.sqrt (dist2T v3 v5 v7 n) - Ideal.ofBits .f32 0x3F800000#32) (Ideal.ofBits .f32 0x00000000#32)

/-- The lane sum of the squared differences is the squared distance. -/
theorem dist_core (oh : FVec Ideal S1x24x65536 .bf16)
    (hoh : ∀ (k : Fin 24) (n : Fin 65536), oh (ix3 (0 : Fin 1) k n) = hot (v5 (ix3 (0 : Fin 1) (0 : Fin 1) n)) k)
    (hs3 : S1x16x65536.ShapeCasts S1x16x65536) (hs7 : S1x16x24.ShapeCasts S1x16x24) (hbits : FTy.bits .bf16 < FTy.bits .f32)
    (hred : S1x16x65536.Reduces [1] S1x65536) (hφ : FKind.Formats .f32) (hacc : (0x00000000#32 : BitVec 32) = FKind.add.neutral .f32 hφ)
    (n : Fin 65536) :
    multiReduction (F := Ideal) .add [1] S1x65536
        (mulf
          (subf (shapeCast S1x16x65536 v3 hs3)
            (matmul D1 none (truncf .bf16 (shapeCast S1x16x24 v7 hs7) hbits) oh (constant (F := Ideal) S1x16x65536 .f32 0x00000000#32)))
          (subf (shapeCast S1x16x65536 v3 hs3)
            (matmul D1 none (truncf .bf16 (shapeCast S1x16x24 v7 hs7) hbits) oh (constant (F := Ideal) S1x16x65536 .f32 0x00000000#32))))
        0x00000000#32 hred hφ hacc (ix2 (0 : Fin 1) n)
      = dist2T v3 v5 v7 n := by
  rw [shapeCast_self, shapeCast_self]
  refine (laneSum_apply _ hred hφ hacc n).trans ?_
  unfold dist2T
  refine Finset.sum_congr rfl fun d _ => ?_
  show (v3 (ix3 (0 : Fin 1) d n) - matmul D1 none (truncf .bf16 v7 hbits) oh (constant (F := Ideal) S1x16x65536 .f32 0x00000000#32) (ix3 (0 : Fin 1) d n))
      * (v3 (ix3 (0 : Fin 1) d n) - matmul D1 none (truncf .bf16 v7 hbits) oh (constant (F := Ideal) S1x16x65536 .f32 0x00000000#32) (ix3 (0 : Fin 1) d n)) = _
  rw [mm1_apply]
  unfold ownT
  simp only [truncf_apply, hoh]

/-- The hinge's chain of pointwise operations at a point. -/
theorem hinge_core (q : FVec Ideal S1x65536 .f32) (hbits : FTy.bits .bf16 < FTy.bits .f32) (n : Fin 65536) (x : EReal)
    (hq : q (ix2 (0 : Fin 1) n) = x) :
    (truncf .bf16
        (mulf
          (maximumf (subf (sqrt q) (broadcast S1x65536 (FloatOps.ofBits (F := Ideal) .f32 0x3F800000#32)))
            (broadcast S1x65536 (FloatOps.ofBits (F := Ideal) .f32 0x00000000#32)))
          (maximumf (subf (sqrt q) (broadcast S1x65536 (FloatOps.ofBits (F := Ideal) .f32 0x3F800000#32)))
            (broadcast S1x65536 (FloatOps.ofBits (F := Ideal) .f32 0x00000000#32))))
        hbits : FVec Ideal S1x65536 .bf16) (ix2 (0 : Fin 1) n)
      = max (Ideal.sqrt x - Ideal.ofBits .f32 0x3F800000#32) (Ideal.ofBits .f32 0x00000000#32)
        * max (Ideal.sqrt x - Ideal.ofBits .f32 0x3F800000#32) (Ideal.ofBits .f32 0x00000000#32) := by
  subst hq; rfl

/-- THE UPDATE AT A LABEL: what the buffer held, plus the sum over the tile's points that carry the label of their
    hinged squared distances. -/
theorem pay3_apply (v31 : Vec Ideal S1x1x24 .f32) (k : Fin 24) :
    k1_pay3 (F := Ideal) v3 v5 v7 v31 (ix2 (0 : Fin 1) k)
      = v31 (ix3 (0 : Fin 1) (0 : Fin 1) k)
        + ∑ n : Fin 65536, hot (v5 (ix3 (0 : Fin 1) (0 : Fin 1) n)) k * hingeT v3 v5 v7 n := by
  unfold k1_pay3
  dsimp only
  refine (addf_apply _ _ _).trans ?_
  refine congrArg₂ (· + ·) (shapeCast_1ab_ab_apply v31 _ (0 : Fin 1) k) ?_
  refine (shapeCast_apply _ _ (ix2 (0 : Fin 1) k) (ix3 (0 : Fin 1) k (0 : Fin 1)) ?_).trans ?_
  · rw [Shape.rowMajor_val_three, Shape.rowMajor_val_two]
    show (0 * 24 + k.val) * 1 + 0 = 0 * 24 + k.val
    omega
  refine (mm2_apply _ _ k).trans ?_
  refine Finset.sum_congr rfl fun n _ => ?_
  refine congrArg₂ (· * ·) (onehot_apply v5 _ _ _ _ _ _ _ k n) ?_
  refine (shapeCast_apply _ _ (ix3 (0 : Fin 1) n (0 : Fin 1)) (ix2 (0 : Fin 1) n) ?_).trans ?_
  · rw [Shape.rowMajor_val_three, Shape.rowMajor_val_two]
    show 0 * 65536 + n.val = (0 * 65536 + n.val) * 1 + 0
    omega
  exact hinge_core _ _ n _ (dist_core v3 v5 v7 _ (fun k n => onehot_apply v5 _ _ _ _ _ _ _ k n) _ _ _ _ _ _ n)

end Tile

section Store
variable (v3 : Vec Ideal S1x16x65536 .f32) (v5 : Vec Ideal S1x1x65536 .i32) (v7 : Vec Ideal S1x16x24 .f32)

/-- The sum, over the tile's points that carry label `k`, of their hinged squared distances. -/
def tileSum (k : Fin 24) : EReal :=
  ∑ n : Fin 65536, hot (v5 (ix3 (0 : Fin 1) (0 : Fin 1) n)) k * hingeT v3 v5 v7 n

/-- A later tile's store at label `k`: what the buffer held plus the tile's sum. -/
theorem store_B (xo : Vec Ideal S1x1x24 .f32) (k : Fin 24) :
    k1_pay1 (F := Ideal) (k1_pay3 v3 v5 v7 xo) (ix3 (0 : Fin 1) (0 : Fin 1) k)
      = xo (ix3 (0 : Fin 1) (0 : Fin 1) k) + tileSum v3 v5 v7 k := by
  unfold k1_pay1
  exact (shapeCast_ab_1ab_apply _ _ (0 : Fin 1) (0 : Fin 1) k).trans (pay3_apply v3 v5 v7 xo k)

/-- The reset's block is zero at every label. -/
theorem reset_apply (k : Fin 24) : k1_pay2 (F := Ideal) (ix3 (0 : Fin 1) (0 : Fin 1) k) = 0 := by
  unfold k1_pay2
  exact (shapeCast_ab_1ab_apply _ _ (0 : Fin 1) (0 : Fin 1) k).trans Ideal.ofBits_zero_f32

/-- The first tile's store at label `k`: the tile's sum alone. -/
theorem store_A (k : Fin 24) :
    k1_pay1 (F := Ideal) (k1_pay3 v3 v5 v7 (k1_pay2 (F := Ideal))) (ix3 (0 : Fin 1) (0 : Fin 1) k) = tileSum v3 v5 v7 k := by
  rw [store_B, reset_apply, zero_add]

end Store

/-! ## A tile's sum in the specification's words, and the eight tiles of an image -/

/-- Point `n'` of tile `i` of an image, among the image's points. -/
def gpt (i : ℕ) (hi : i < 8) (n' : Fin 65536) : Fin 524288 := ⟨65536 * i + n'.val, by have := n'.isLt; omega⟩

section Spec
open Cert.ClusterLoss (own dist2 hinge)
variable (X : Fin 4 → Fin 16 → Fin 524288 → EReal) (L : Fin 4 → Fin 524288 → BitVec 32) (C : Fin 4 → Fin 16 → Fin 24 → EReal)

/-- When the three blocks are tile `i` of image `b`'s data and labels and image `b`'s centres, the tile's sum is the
    specification's summand added over the tile's points. -/
theorem tileSum_eq_spec (b : Fin 4) (i : ℕ) (hi : i < 8)
    (v3 : Vec Ideal S1x16x65536 .f32) (v5 : Vec Ideal S1x1x65536 .i32) (v7 : Vec Ideal S1x16x24 .f32)
    (h3 : ∀ (d : Fin 16) (n' : Fin 65536), v3 (ix3 (0 : Fin 1) d n') = X b d (gpt i hi n'))
    (h5 : ∀ n' : Fin 65536, v5 (ix3 (0 : Fin 1) (0 : Fin 1) n') = L b (gpt i hi n'))
    (h7 : ∀ (d : Fin 16) (k : Fin 24), v7 (ix3 (0 : Fin 1) d k) = C b d k) (k : Fin 24) :
    tileSum v3 v5 v7 k = ∑ n' : Fin 65536, (if L b (gpt i hi n') = lw k then hinge X L C b (gpt i hi n') else 0) := by
  unfold tileSum hingeT dist2T ownT hinge dist2 own
  simp only [h3, h5, h7, mul_hot, hot_mul]

end Spec

/-- The sum over an image's points, tile by tile. -/
theorem sum_tiles (f : Fin 524288 → EReal) :
    ∑ i ∈ Finset.range 8, (if hi : i < 8 then ∑ n' : Fin 65536, f (gpt i hi n') else 0) = ∑ N : Fin 524288, f N := by
  rw [Finset.sum_range (fun i => if hi : i < 8 then ∑ n' : Fin 65536, f (gpt i hi n') else 0)]
  have e : ∀ i : Fin 8, (if hi : i.val < 8 then ∑ n' : Fin 65536, f (gpt i.val hi n') else 0)
      = ∑ n' : Fin 65536, f (gpt i.val i.isLt n') := fun i => dif_pos i.isLt
  rw [Finset.sum_congr rfl fun i _ => e i, ← Fintype.sum_prod_type (f := fun p : Fin 8 × Fin 65536 => f (gpt p.1.val p.1.isLt p.2))]
  refine Fintype.sum_equiv ((finProdFinEquiv (m := 8) (n := 65536)).trans (finCongr (by norm_num))) _ _ fun p => congrArg f (Fin.ext ?_)
  show 65536 * p.1.val + p.2.val = p.2.val + 65536 * p.1.val
  omega

end Cert.KernelIdeal.Stage2

end
-- ==== Proof.Stage2Inv.lean ====
/-
  What the output's staging buffer holds after each grid point of the second call. Point `8b + i` reads tile `i` of
  image `b`'s data and labels and image `b`'s centres; so after it the buffer holds, at label `k`, the sum over the
  tiles `0 … i` of the image of the specification's summand over the tile's points: the first tile stores its own
  sum over the reset, each later tile adds its sum to what the tile before left.
-/
import proofs.«404660_j6433861009917_3_alg».proof.Proof.Gen.KernelIdeal.Frame
import proofs.«404660_j6433861009917_3_alg».proof.Proof.Spec
import proofs.«404660_j6433861009917_3_alg».proof.Proof.Stage2Piece
import proofs.«404660_j6433861009917_3_alg».proof.Proof.Stage2Pay
import Idealize.ShloMosaic.Lib.Pipeline.Value
import Idealize.ShloMosaic.PureOps.Ideal.Laws
import Idealize.ShloMosaic.Lib.ValueIdx

noncomputable section

open scoped BigOperators

namespace Cert.KernelIdeal.Stage2

open Idealize.ShloMosaic Idealize.ShloMosaic.TcCoe Idealize.SL.Sem Idealize.ShloMosaic.ValueIdx
open Idealize.ShloMosaic.Pipeline (Dat)
open Cert.KernelIdeal Cert.KernelIdeal.Gen
open Cert.ClusterLoss (lw hinge vs)

variable (V : (c : Dev nD) → (b : Ref sig .tc) → Buf (Elt Ideal) ((c : Thread nD τ).loc b))

/-- The data, the labels and the centres as the region finds them, by coordinates. -/
abbrev dataOf (c : Dev nD) : Fin 4 → Fin 16 → Fin 524288 → EReal := fun b d n => V c main_v0 (ix3 b d n)
abbrev labOf (c : Dev nD) : Fin 4 → Fin 524288 → BitVec 32 := fun b n => V c main_v1 (ix3 b (0 : Fin 1) n)
abbrev ctrOf (c : Dev nD) : Fin 4 → Fin 16 → Fin 24 → EReal := fun b d k => V c main_v6 (ix3 b d k)

/-- The three input blocks at a grid point, at their literal types. -/
abbrev xblk (c : Dev nD) (t : Fin cfg1.N) : Vec Ideal S1x16x65536 .f32 := iblk1 V c 0 t
abbrev lblk (c : Dev nD) (t : Fin cfg1.N) : Vec Ideal S1x1x65536 .i32 := iblk1 V c 1 t
abbrev cblk (c : Dev nD) (t : Fin cfg1.N) : Vec Ideal S1x16x24 .f32 := iblk1 V c 2 t

/-- The windows' block indices at point `t`: image `t / 8`; tile `t % 8` for the data and the labels, block `0` for
    the centres and the result. Decided over the grid. -/
theorem idx_facts : ∀ t : Fin cfg1.N,
    win1_0.index t (0 : Fin 3) = t.val / 8 ∧ win1_0.index t (1 : Fin 3) = 0 ∧ win1_0.index t (2 : Fin 3) = t.val % 8
    ∧ win1_1.index t (0 : Fin 3) = t.val / 8 ∧ win1_1.index t (1 : Fin 3) = 0 ∧ win1_1.index t (2 : Fin 3) = t.val % 8
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = 0 ∧ win1_3.index t (2 : Fin 3) = 0 :=
  (by decide +kernel : ∀ t : Fin grid1.N, _)

/-- The data block at point `8b + i` is tile `i` of image `b`'s data. -/
theorem xblk_apply (c : Dev nD) (t : Fin cfg1.N) (b : Fin 4) (i : ℕ) (hi : i < 8) (ht : t.val = 8 * b.val + i)
    (d : Fin 16) (n' : Fin 65536) : xblk V c t (ix3 (0 : Fin 1) d n') = dataOf V c b d (gpt i hi n') := by
  obtain ⟨e0, e1, e2, -⟩ := idx_facts t
  show (((cfg1.win 0).blk t).view.read (Elt Ideal) (V c main_v0)) (ix3 (0 : Fin 1) d n') = V c main_v0 (ix3 b d (gpt i hi n'))
  rw [View.read_apply]
  show V c main_v0 _ = V c main_v0 _
  refine congrArg (V c main_v0) (funext fun a => Fin.ext ?_)
  match a with
  | ⟨0, _⟩ => show win1_0.index t (0 : Fin 3) * 1 + 1 * 0 = b.val; rw [e0]; omega
  | ⟨1, _⟩ => show win1_0.index t (1 : Fin 3) * 16 + 1 * d.val = d.val; rw [e1]; omega
  | ⟨2, _⟩ => show win1_0.index t (2 : Fin 3) * 65536 + 1 * n'.val = 65536 * i + n'.val; rw [e2]; omega

/-- The label block at point `8b + i` is tile `i` of image `b`'s labels. -/
theorem lblk_apply (c : Dev nD) (t : Fin cfg1.N) (b : Fin 4) (i : ℕ) (hi : i < 8) (ht : t.val = 8 * b.val + i)
    (n' : Fin 65536) : lblk V c t (ix3 (0 : Fin 1) (0 : Fin 1) n') = labOf V c b (gpt i hi n') := by
  obtain ⟨-, -, -, e0, e1, e2, -⟩ := idx_facts t
  show (((cfg1.win 1).blk t).view.read (Elt Ideal) (V c main_v1)) (ix3 (0 : Fin 1) (0 : Fin 1) n') = V c main_v1 (ix3 b (0 : Fin 1) (gpt i hi n'))
  rw [View.read_apply]
  show V c main_v1 _ = V c main_v1 _
  refine congrArg (V c main_v1) (funext fun a => Fin.ext ?_)
  match a with
  | ⟨0, _⟩ => show win1_1.index t (0 : Fin 3) * 1 + 1 * 0 = b.val; rw [e0]; omega
  | ⟨1, _⟩ => show win1_1.index t (1 : Fin 3) * 1 + 1 * 0 = 0; rw [e1]
  | ⟨2, _⟩ => show win1_1.index t (2 : Fin 3) * 65536 + 1 * n'.val = 65536 * i + n'.val; rw [e2]; omega

/-- The centres block at point `8b + i` is image `b`'s centres. -/
theorem cblk_apply (c : Dev nD) (t : Fin cfg1.N) (b : Fin 4) (i : ℕ) (hi : i < 8) (ht : t.val = 8 * b.val + i)
    (d : Fin 16) (k : Fin 24) : cblk V c t (ix3 (0 : Fin 1) d k) = ctrOf V c b d k := by
  obtain ⟨-, -, -, -, -, -, e0, e1, e2, -⟩ := idx_facts t
  show (((cfg1.win 2).blk t).view.read (Elt Ideal) (V c main_v6)) (ix3 (0 : Fin 1) d k) = V c main_v6 (ix3 b d k)
  rw [View.read_apply]
  show V c main_v6 _ = V c main_v6 _
  refine congrArg (V c main_v6) (funext fun a => Fin.ext ?_)
  match a with
  | ⟨0, _⟩ => show win1_2.index t (0 : Fin 3) * 1 + 1 * 0 = b.val; rw [e0]; omega
  | ⟨1, _⟩ => show win1_2.index t (1 : Fin 3) * 16 + 1 * d.val = d.val; rw [e1]; omega
  | ⟨2, _⟩ => show win1_2.index t (2 : Fin 3) * 24 + 1 * k.val = k.val; rw [e2]; omega

/-- The specification's summand: point `N` of image `b` counts its hinged squared distance when it carries label `k`. -/
def term (c : Dev nD) (b : Fin 4) (k : Fin 24) (N : Fin 524288) : EReal :=
  if labOf V c b N = lw k then hinge (dataOf V c) (labOf V c) (ctrOf V c) b N else 0

/-- Its sum over tile `i` of the image (nothing past the eighth tile). -/
def tileN (c : Dev nD) (b : Fin 4) (k : Fin 24) (i : ℕ) : EReal :=
  if hi : i < 8 then ∑ n' : Fin 65536, term V c b k (gpt i hi n') else 0

/-- The tile's sum as the kernel computes it from the point's blocks is the specification's. -/
theorem tile_eq (c : Dev nD) (t : Fin cfg1.N) (b : Fin 4) (i : ℕ) (hi : i < 8) (ht : t.val = 8 * b.val + i) (k : Fin 24) :
    tileSum (xblk V c t) (lblk V c t) (cblk V c t) k = tileN V c b k i := by
  refine (tileSum_eq_spec (dataOf V c) (labOf V c) (ctrOf V c) b i hi (xblk V c t) (lblk V c t) (cblk V c t)
    (xblk_apply V c t b i hi ht) (lblk_apply V c t b i hi ht) (cblk_apply V c t b i hi ht) k).trans ?_
  unfold tileN term
  rw [dif_pos hi]

/-- An image's first tile leaves its own sum. -/
theorem step_A (c : Dev nD) (k : Fin 24) (t : Fin cfg1.N) (h0 : t.val % 8 = 0) (b : Fin 4) (ht : t.val = 8 * b.val + 0) :
    outsAt1 V c t.val t.isLt (ix3 (0 : Fin 1) (0 : Fin 1) k) = tileN V c b k 0 := by
  rw [outsAt1_A V c t h0]
  refine (congrFun (out_A (F := Ideal) c (grid1.coords t) (ms1_0 t) (hs1_0 t) (ms1_1 t) (hs1_1 t) (ms1_2 t) (hs1_2 t) (ms1_3 t) (hs1_3 t)
    ((hcond1_0 t).mpr h0) (xblk V c t) (lblk V c t) (cblk V c t)) (ix3 (0 : Fin 1) (0 : Fin 1) k)).trans ?_
  exact (store_A (xblk V c t) (lblk V c t) (cblk V c t) k).trans (tile_eq V c t b 0 (by omega) ht k)

/-- A later tile adds its sum to what the tile before left. -/
theorem step_B (c : Dev nD) (k : Fin 24) (t : Fin cfg1.N) (h0 : ¬t.val % 8 = 0) (b : Fin 4) (i : ℕ) (hi : i < 8) (ht : t.val = 8 * b.val + i) :
    outsAt1 V c t.val t.isLt (ix3 (0 : Fin 1) (0 : Fin 1) k)
      = outsAt1 V c (t.val - 1) (Nat.lt_of_le_of_lt (Nat.sub_le _ _) t.isLt) (ix3 (0 : Fin 1) (0 : Fin 1) k) + tileN V c b k i := by
  rw [outsAt1_B V c t h0]
  refine (congrFun (out_B (F := Ideal) c (grid1.coords t) (ms1_0 t) (hs1_0 t) (ms1_1 t) (hs1_1 t) (ms1_2 t) (hs1_2 t) (ms1_3 t) (hs1_3 t)
    (fun h => h0 ((hcond1_0 t).mp h)) (xblk V c t) (lblk V c t) (cblk V c t)
    (outsAt1 V c (t.val - 1) (Nat.lt_of_le_of_lt (Nat.sub_le _ _) t.isLt))) (ix3 (0 : Fin 1) (0 : Fin 1) k)).trans ?_
  refine (store_B (xblk V c t) (lblk V c t) (cblk V c t) (outsAt1 V c (t.val - 1) (Nat.lt_of_le_of_lt (Nat.sub_le _ _) t.isLt)) k).trans ?_
  rw [tile_eq V c t b i hi ht k]

/-- THE INVARIANT. After tile `i` of image `b` the buffer holds, at label `k`, the sums of the tiles `0 … i`. -/
theorem inv (c : Dev nD) (k : Fin 24) : ∀ (n : ℕ) (h : n < cfg1.N) (b : Fin 4) (i : ℕ) (hi : i < 8) (hn : n = 8 * b.val + i),
    outsAt1 V c n h (ix3 (0 : Fin 1) (0 : Fin 1) k) = ∑ i' ∈ Finset.range (i + 1), tileN V c b k i' := by
  intro n
  induction n with
  | zero =>
    intro h b i hi hn
    obtain rfl : i = 0 := by omega
    rw [Finset.sum_range_one]
    exact step_A V c k ⟨0, h⟩ rfl b hn
  | succ n ih =>
    intro h b i hi hn
    by_cases h0 : (n + 1) % 8 = 0
    · obtain rfl : i = 0 := by omega
      rw [Finset.sum_range_one]
      exact step_A V c k ⟨n + 1, h⟩ h0 b hn
    · obtain ⟨j, rfl⟩ : ∃ j, i = j + 1 := ⟨i - 1, by omega⟩
      rw [Finset.sum_range_succ, ← ih (Nat.lt_of_succ_lt h) b j (by omega) (by omega)]
      exact step_B V c k ⟨n + 1, h⟩ h0 b (j + 1) hi hn

end Cert.KernelIdeal.Stage2

end
-- ==== Proof.Stage2Value.lean ====
/-
  What the second pallas_call leaves in its result array, for ANY contents `V` of the TensorCore's buffers at its entry:
  with `X`, `L` the data and label arrays as before and `C b d k` the centres array `V c main_v6` at `(b, d, k)`, the
  result ends at `vs X L C b k`, the sum over the points of label `k` of their hinged squared distance to their centre.

  After the last tile of image `b` (point `8b + 7`) the staging buffer holds, at label `k`, the sums of the image's
  eight tiles, which is the sum over all the image's points; that point is the one that writes the buffer back, to
  block `b` of the result array, and the four such blocks are the whole array.
-/
import proofs.«404660_j6433861009917_3_alg».proof.Proof.Gen.KernelIdeal.Frame
import proofs.«404660_j6433861009917_3_alg».proof.Proof.Spec
import proofs.«404660_j6433861009917_3_alg».proof.Proof.Stage2Inv
import Idealize.ShloMosaic.Lib.Pipeline.Value
import Idealize.ShloMosaic.PureOps.Ideal.Laws
import Idealize.ShloMosaic.Lib.ValueIdx

noncomputable section

open scoped BigOperators

namespace Cert.KernelIdeal.Stage2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The data as the region finds it. -/
abbrev Xv (c : Dev nD) : Fin 4 → Fin 16 → Fin 524288 → EReal := fun b d n => V c main_v0 (ix3 b d n)
/-- The labels as the region finds them. -/
abbrev Lv (c : Dev nD) : Fin 4 → Fin 524288 → BitVec 32 := fun b n => V c main_v1 (ix3 b (0 : Fin 1) n)
/-- The centres as the region finds them. -/
abbrev Cv (c : Dev nD) : Fin 4 → Fin 16 → Fin 24 → EReal := fun b d k => V c main_v6 (ix3 b d k)

/-- The eight tiles' sums of image `b` at label `k` are the specification's sum over the image's points. -/
theorem tiles_eq_vs (c : Dev nD) (b : Fin 4) (k : Fin 24) :
    ∑ i' ∈ Finset.range 8, tileN V c b k i' = Cert.ClusterLoss.vs (Xv V c) (Lv V c) (Cv V c) b k :=
  sum_tiles (term V c b k)

/-- After the last tile of image `b` the staging buffer holds the specification's sum at every label. -/
theorem outs_last (c : Dev nD) (t : Fin cfg1.N) (b : Fin 4) (ht : t.val = 8 * b.val + 7) (k : Fin 24) :
    outsAt1 V c t.val t.isLt (ix3 (0 : Fin 1) (0 : Fin 1) k) = Cert.ClusterLoss.vs (Xv V c) (Lv V c) (Cv V c) b k :=
  (inv V c k t.val t.isLt b 7 (by omega) ht).trans (tiles_eq_vs V c b k)

/-- The result array's contents: the specification's sums, image by image and label by label. -/
def result (c : Dev nD) : Buf (Elt Ideal) ((c : Thread nD τ).loc main_v8) :=
  fun j => Cert.ClusterLoss.vs (Xv V c) (Lv V c) (Cv V c) (j 0) (j 2)

theorem result_apply (c : Dev nD) (j : S4x1x24.Idx) :
    result V c j = Cert.ClusterLoss.vs (Xv V c) (Lv V c) (Cv V c) (j 0) (j 2) := rfl

/-- What the last tile of an image writes back is that image's block of the result. -/
theorem flushed_eq (c : Dev nD) (t : Fin cfg1.N) (hf : (cfg1.win 3).flush t = true) :
    (dat1 V c).flushed 3 t = ((cfg1.win 3).blk t).view.read (Elt Ideal) (result V c) := by
  have h7 : t.val % 8 = 7 := (flush1_3 t).mp hf
  have hN : t.val < 32 := lt_of_lt_of_eq t.isLt (show cfg1.N = 32 from N_1)
  obtain ⟨-, -, -, -, -, -, -, -, -, e0, e1, e2⟩ := idx_facts t
  refine (congrArg ((cfg1.win 3).cut (grid1.coords t)) (after1_3 V c t)).trans ?_
  funext j
  have hj0 : (j 0).val = 0 := Nat.lt_one_iff.mp (j 0).isLt
  have hj1 : (j 1).val = 0 := Nat.lt_one_iff.mp (j 1).isLt
  have hj2 : (j 2).val < 24 := (j 2).isLt
  have eL : (cfg1.win 3).cut (grid1.coords t) (outsAt1 V c t.val t.isLt) j
      = outsAt1 V c t.val t.isLt (ix3 (0 : Fin 1) (0 : Fin 1) (⟨(j 2).val, hj2⟩ : Fin 24)) :=
    congrArg (outsAt1 V c t.val t.isLt) (funext fun a => Fin.ext (match a with
      | ⟨0, _⟩ => hj0
      | ⟨1, _⟩ => hj1
      | ⟨2, _⟩ => rfl))
  refine eL.trans ((outs_last V c t ⟨t.val / 8, by omega⟩ (by show t.val = 8 * (t.val / 8) + 7; omega) ⟨(j 2).val, hj2⟩).trans ?_)
  rw [View.read_apply, cast_eq, result_apply]
  symm
  refine congrArg₂ (Cert.ClusterLoss.vs (Xv V c) (Lv V c) (Cv V c)) (Fin.ext ?_) (Fin.ext ?_)
  · show win1_3.index t (0 : Fin 3) * 1 + 1 * (j 0).val = t.val / 8
    rw [e0, hj0]; omega
  · show win1_3.index t (2 : Fin 3) * 24 + 1 * (j 2).val = (j 2).val
    rw [e2]; omega

/-- Every index of the result array is in the block that the last tile of its image writes back. -/
theorem cover (i : S4x1x24.Idx) : ∃ t : Fin cfg1.N, (cfg1.win 3).flush t = true ∧ i ∈ ((cfg1.win 3).blk t).view.set := by
  have hi0 : (i 0).val < 4 := (i 0).isLt
  have hi1 : (i 1).val < 1 := (i 1).isLt
  have hi2 : (i 2).val < 24 := (i 2).isLt
  obtain ⟨t, ht⟩ : ∃ t : Fin cfg1.N, t.val = 8 * (i 0).val + 7 :=
    ⟨⟨8 * (i 0).val + 7, lt_of_lt_of_eq (show 8 * (i 0).val + 7 < 32 by omega) N_1.symm⟩, rfl⟩
  obtain ⟨-, -, -, -, -, -, -, -, -, e0, e1, e2⟩ := idx_facts t
  refine ⟨t, (flush1_3 t).mpr (by omega), ?_⟩
  show i ∈ ((View.whole main_v8).slice (win1_3.rect t)).set
  rw [View.set_slice_whole, Rect.mem_set_unit]
  intro a
  match a with
  | ⟨0, _⟩ =>
    show win1_3.index t (0 : Fin 3) * 1 ≤ (i 0).val ∧ (i 0).val < win1_3.index t (0 : Fin 3) * 1 + 1
    rw [e0]; omega
  | ⟨1, _⟩ =>
    show win1_3.index t (1 : Fin 3) * 1 ≤ (i 1).val ∧ (i 1).val < win1_3.index t (1 : Fin 3) * 1 + 1
    rw [e1]; omega
  | ⟨2, _⟩ =>
    show win1_3.index t (2 : Fin 3) * 24 ≤ (i 2).val ∧ (i 2).val < win1_3.index t (2 : Fin 3) * 24 + 24
    rw [e2]; omega

theorem varsum_final (c : Dev nD) (b : Fin 4) (k : Fin 24) :
    (dat1 (F := Ideal) V c).arrAt 3 cfg1.N (ix3 b (0 : Fin 1) k) = Cert.ClusterLoss.vs (Xv V c) (Lv V c) (Cv V c) b k := by
  have hcov : (dat1 (F := Ideal) V c).arrAt 3 cfg1.N = result V c :=
    (dat1 V c).arrAt_eq_of_cover 3 (result V c) (flushed_eq V c) cover
  rw [hcov]
  exact result_apply V c (ix3 b (0 : Fin 1) k)

end Cert.KernelIdeal.Stage2

end
-- ==== Proof.KernelLeaves.lean ====
/-
  The three arrays the kernel program's tail starts from, as the mathematics of Spec.lean of the launch arguments: the
  two reshapes before the first pallas_call merge the pixel axes; its results are the per-cluster sums and counts;
  the host divides the sums by the counts broadcast along the 16 coordinates and transposes the quotient to
  [4, 24, 16]; the second pallas_call, entered with the same data and labels and those centres, leaves the hinge sums.
-/
import proofs.«404660_j6433861009917_3_alg».proof.Proof.Gen.KernelIdeal.Frame
import proofs.«404660_j6433861009917_3_alg».proof.Proof.Spec
import proofs.«404660_j6433861009917_3_alg».proof.Proof.Tail
import proofs.«404660_j6433861009917_3_alg».proof.Proof.KernelHost
import proofs.«404660_j6433861009917_3_alg».proof.Proof.Stage1Value
import proofs.«404660_j6433861009917_3_alg».proof.Proof.Stage2Value
import Idealize.ShloMosaic.Lib.StableHlo.Run
import Idealize.ShloMosaic.Lib.Pipeline.Value
import Idealize.ShloMosaic.Lib.Tactic

set_option maxRecDepth 16384

noncomputable section

open scoped BigOperators

namespace Cert.KernelIdeal.Leaves

open Cert.KernelIdeal Cert.KernelIdeal.Gen Cert.ClusterLoss
open Idealize.ShloMosaic Idealize.ShloMosaic.TcCoe Idealize.ShloMosaic.Tactic Idealize.SL.Sem Idealize.ShloMosaic.StableHlo
open Idealize.ShloMosaic.ValueIdx
open Idealize.ShloMosaic.Pipeline (Dat)

open Cert.KernelIdeal.HostSide

section Leaves
variable (m : (ℓ : Loc nD τ sig) → Buf (Elt Ideal) ℓ) (ρ : Dev nD → PrngReg)

open Cert.KernelIdeal.Stage2 (Cv)
open Cert.KernelIdeal.Stage1 (Xv Lv)

/-- The launch arguments, flattened. -/
abbrev XK (c : Dev nD) : Fin 4 → Fin 16 → Fin 524288 → EReal := dataAt (m ((c : Thread nD τ).loc main_arg0))
abbrev LK (c : Dev nD) : Fin 4 → Fin 524288 → BitVec 32 := labAt (m ((c : Thread nD τ).loc main_arg1))

theorem entry1_X (c : Dev nD) : Xv (V1 (F := Ideal) m ρ) c = XK m c :=
  funext fun b => funext fun d => funext fun n => entry_data m ρ c b d n
theorem entry1_L (c : Dev nD) : Lv (V1 (F := Ideal) m ρ) c = LK m c :=
  funext fun b => funext fun n => entry_labels m ρ c b n

/-- The first call's sums, where the host reads them. -/
theorem sums_at (c : Dev nD) (b : Fin 4) (d : Fin 16) (k : Fin 24) :
    W2 (F := Ideal) m ρ c (Proc.devRef .tc main_v2_0) (ix3 b d k) = sm (XK m c) (LK m c) b d k := by
  rw [show W2 (F := Ideal) m ρ c (Proc.devRef .tc main_v2_0) = (dat0 (F := Ideal) (V1 m ρ) c).arrAt 2 cfg0.N from W2_arr m ρ c 2]
  rw [Cert.KernelIdeal.Stage1.sums_final, entry1_X, entry1_L]
/-- The first call's counts, where the host reads them. -/
theorem counts_at (c : Dev nD) (b : Fin 4) (k : Fin 24) :
    W2 (F := Ideal) m ρ c (Proc.devRef .tc main_v2_1) (ix3 b (0 : Fin 1) k) = cnt (LK m c) b k := by
  rw [show W2 (F := Ideal) m ρ c (Proc.devRef .tc main_v2_1) = (dat0 (F := Ideal) (V1 m ρ) c).arrAt 3 cfg0.N from W2_arr m ρ c 3]
  rw [Cert.KernelIdeal.Stage1.counts_final, entry1_L]

/-- The second call is entered with the data and labels the first was entered with: the first call leaves its inputs
    as it found them, and the host stretch between writes neither. -/
theorem entry2_data (c : Dev nD) : V3 (F := Ideal) m ρ c main_v0 = V1 (F := Ideal) m ρ c main_v0 := by
  show StableHlo.after hostOps1 (W2 (F := Ideal) m ρ c) (Proc.devRef .tc main_v0) = _
  rw [mid_keep_data]
  exact (W2_arr m ρ c 0).trans (((dat0 (F := Ideal) (V1 m ρ) c).arrAt_in 0 rfl _).trans (A_eq0 (V1 m ρ) c 0))
theorem entry2_labels (c : Dev nD) : V3 (F := Ideal) m ρ c main_v1 = V1 (F := Ideal) m ρ c main_v1 := by
  show StableHlo.after hostOps1 (W2 (F := Ideal) m ρ c) (Proc.devRef .tc main_v1) = _
  rw [mid_keep_labels]
  exact (W2_arr m ρ c 1).trans (((dat0 (F := Ideal) (V1 m ρ) c).arrAt_in 1 rfl _).trans (A_eq0 (V1 m ρ) c 1))

theorem entry2_X (c : Dev nD) : Cert.KernelIdeal.Stage2.Xv (V3 (F := Ideal) m ρ) c = XK m c := by
  show (fun b d n => V3 (F := Ideal) m ρ c main_v0 (ix3 b d n)) = _
  rw [entry2_data]; exact entry1_X m ρ c
theorem entry2_L (c : Dev nD) : Cert.KernelIdeal.Stage2.Lv (V3 (F := Ideal) m ρ) c = LK m c := by
  show (fun b n => V3 (F := Ideal) m ρ c main_v1 (ix3 b (0 : Fin 1) n)) = _
  rw [entry2_labels]; exact entry1_L m ρ c

/-- The centres the host computes between the calls: the quotient of a cluster's sum by its count. -/
theorem centres_dk_at (c : Dev nD) (b : Fin 4) (d : Fin 16) (k : Fin 24) :
    StableHlo.after hostOps1 (W2 (F := Ideal) m ρ c) (Proc.devRef .tc main_v6) (ix3 b d k) = ctr (XK m c) (LK m c) b d k := by
  rw [mid_centres_dk]
  show Ideal.div (W2 (F := Ideal) m ρ c (Proc.devRef .tc main_v2_0) (ix3 b d k)) _ = _
  rw [sums_at, along16_apply, drop_unit_apply, counts_at]
  rfl
theorem entry2_C (c : Dev nD) : Cv (V3 (F := Ideal) m ρ) c = ctr (XK m c) (LK m c) :=
  funext fun b => funext fun d => funext fun k => centres_dk_at m ρ c b d k

/-! ## The three arrays the tail starts from -/

theorem leaf_counts (c : Dev nD) : W4 (F := Ideal) m ρ c (Proc.devRef .tc main_v3) = cntArr (LK m c) := by
  rw [W4_of_ne m ρ c main_v3 (by decide)]
  show StableHlo.after hostOps1 (W2 (F := Ideal) m ρ c) (Proc.devRef .tc main_v3) = _
  rw [mid_counts]
  funext i
  obtain ⟨b, k, rfl⟩ : ∃ (b : Fin 4) (k : Fin 24), i = ix2 b k := ⟨i 0, i 1, eq_ix2 i⟩
  rw [drop_unit_apply, counts_at]
  rfl

theorem leaf_centres (c : Dev nD) : W4 (F := Ideal) m ρ c (Proc.devRef .tc main_v7) = ctrArr (XK m c) (LK m c) := by
  rw [W4_of_ne m ρ c main_v7 (by decide)]
  show StableHlo.after hostOps1 (W2 (F := Ideal) m ρ c) (Proc.devRef .tc main_v7) = _
  rw [mid_centres]
  funext i
  obtain ⟨b, k, d, rfl⟩ : ∃ (b : Fin 4) (k : Fin 24) (d : Fin 16), i = ix3 b k d := ⟨i 0, i 1, i 2, eq_ix3 i⟩
  rw [swap_apply, centres_dk_at]
  rfl

theorem leaf_hinge (c : Dev nD) :
    shapeCast T4x24 (W4 (F := Ideal) m ρ c (Proc.devRef .tc main_v8)) (by decide) = vsArr (XK m c) (LK m c) := by
  funext i
  obtain ⟨b, k, rfl⟩ : ∃ (b : Fin 4) (k : Fin 24), i = ix2 b k := ⟨i 0, i 1, eq_ix2 i⟩
  refine (drop_unit_apply (W4 (F := Ideal) m ρ c (Proc.devRef .tc main_v8)) b k).trans ?_
  rw [show W4 (F := Ideal) m ρ c (Proc.devRef .tc main_v8) = (dat1 (F := Ideal) (V3 m ρ) c).arrAt 3 cfg1.N from W4_arr m ρ c 3]
  rw [Cert.KernelIdeal.Stage2.varsum_final, entry2_X, entry2_L, entry2_C]
  rfl

end Leaves

end Cert.KernelIdeal.Leaves

end
-- ==== Proof.lean ====
/-
  A clustering loss over 4 images of 512 × 1024 points in 16 coordinates with 24 labels, computed two ways.

  The kernel program makes two passes over the data, eight tiles of 65536 points per image. The first builds, per tile, the
  one-hot matrix of the labels (a compare against an iota) and contracts it with the data and with a column of ones: summed
  over the tiles these are each cluster's coordinate sums and its count. The host divides: the centres. The second pass
  contracts the centres with the one-hot matrix (each point's own centre), takes the hinged squared distance
  `max (‖x − c‖ − 1) 0` squared, and contracts it with the one-hot matrix again: each cluster's hinge sum. The reference
  computes the same three arrays with segment sums over the 96 segments `label + 24·image` and a gather of the centres at
  the segment ids. From the centres, the hinge sums and the counts on, both programs run the same host operations
  (Tail.lean's `lossOf`).

  Where every label is one of the 24 labels (the precondition's second conjunct, read by PreRange.lean) the segment id of a
  point determines its image and its label, so each segment sum is the per-image sum over the points of a label
  (RefValue.lean), which is what the one-hot contractions accumulate tile by tile (Stage1Value.lean, Stage2Value.lean:
  a product with a one-hot entry is the factor or zero, and a sum over tiles and points within a tile is the sum over all
  points). No law used needs a finite value: only `x · 1 = x`, `x · 0 = 0` and the commutativity and associativity of
  addition on the extended reals, so the first conjunct of the precondition is never opened.
-/
import proofs.«404660_j6433861009917_3_alg».proof.Defs
import proofs.«404660_j6433861009917_3_alg».proof.Proof.Gen.Kernel
import proofs.«404660_j6433861009917_3_alg».proof.Proof.Gen.Kernel.Skeleton
import proofs.«404660_j6433861009917_3_alg».proof.Proof.Gen.Kernel.Launch
import proofs.«404660_j6433861009917_3_alg».proof.Proof.Gen.Kernel.Points
import proofs.«404660_j6433861009917_3_alg».proof.Proof.Gen.Kernel.Frame
import proofs.«404660_j6433861009917_3_alg».proof.Proof.Gen.KernelIdeal
import proofs.«404660_j6433861009917_3_alg».proof.Proof.Gen.KernelIdeal.Skeleton
import proofs.«404660_j6433861009917_3_alg».proof.Proof.Gen.KernelIdeal.Launch
import proofs.«404660_j6433861009917_3_alg».proof.Proof.Gen.KernelIdeal.Points
import proofs.«404660_j6433861009917_3_alg».proof.Proof.Gen.KernelIdeal.Frame
import proofs.«404660_j6433861009917_3_alg».proof.Proof.Gen.ReferenceIdeal
import proofs.«404660_j6433861009917_3_alg».proof.Proof.Gen.Pre_finite_inputs
import proofs.«404660_j6433861009917_3_alg».proof.Proof.Gen.ReferenceIdeal.Run
import proofs.«404660_j6433861009917_3_alg».proof.Proof.Gen.ReferenceIdeal.Read
import proofs.«404660_j6433861009917_3_alg».proof.Proof.Spec
import proofs.«404660_j6433861009917_3_alg».proof.Proof.Tail
import proofs.«404660_j6433861009917_3_alg».proof.Proof.PreRange
import proofs.«404660_j6433861009917_3_alg».proof.Proof.RefValue
import proofs.«404660_j6433861009917_3_alg».proof.Proof.RefTail
import proofs.«404660_j6433861009917_3_alg».proof.Proof.KernelRun
import proofs.«404660_j6433861009917_3_alg».proof.Proof.KernelTail
import proofs.«404660_j6433861009917_3_alg».proof.Proof.KernelLeaves
import Idealize.ShloMosaic.Adequacy
import Idealize.ShloMosaic.Init

noncomputable section

namespace Cert.Proof

open Idealize.ShloMosaic Idealize.SL.Sem Cert.ClusterLoss

/-- The word-level kernel runs and leaves its arguments as launched: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel likewise. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both programs end at `lossOf` of the centres, the hinge sums and the counts of the flattened arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => lossOf (ctrArr (Cert.KernelIdeal.Leaves.XK m c) (Cert.KernelIdeal.Leaves.LK m c))
      (vsArr (Cert.KernelIdeal.Leaves.XK m c) (Cert.KernelIdeal.Leaves.LK m c)) (cntArr (Cert.KernelIdeal.Leaves.LK m c)), ?_, ?_⟩
  · refine (θ_run Cert.KernelIdeal.defs _ _).mono (fun r h c => ⟨(h c).1.trans ?_, (h c).2⟩)
      (Cert.KernelIdeal.RunValue.run_result (F := Ideal) m ρ)
    rw [Cert.KernelIdeal.KTail.tail_eq, Cert.KernelIdeal.Leaves.leaf_centres, Cert.KernelIdeal.Leaves.leaf_hinge,
      Cert.KernelIdeal.Leaves.leaf_counts]
  · refine (θ_run Cert.ReferenceIdeal.defs _ _).mono (fun r h c => ⟨(h c).1.trans ?_, (h c).2⟩)
      (Cert.ReferenceIdeal.Value.run (F := Ideal) m' ρ')
    have hin : InRange (m ((c.tc : Thread Cert.KernelIdeal.nD Cert.KernelIdeal.τ).loc Cert.KernelIdeal.main_arg1)) :=
      Cert.PreRange.inRange_of_pre _ _ (hpre c)
    rw [Cert.ReferenceIdeal.Read.val_main_v76_eq, (hagree c).1, (hagree c).2, Cert.ReferenceIdeal.RefTail.ref_tail,
      Cert.ReferenceIdeal.RefValue.ref_ctr _ _ hin, Cert.ReferenceIdeal.RefValue.ref_vs _ _ hin,
      Cert.ReferenceIdeal.RefValue.ref_cnt _ hin]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
